-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512 : Shape := ⟨1, ![512]⟩
abbrev S2x1x4096 : Shape := ⟨3, ![2, 1, 4096]⟩
abbrev S16384x512 : Shape := ⟨2, ![16384, 512]⟩
abbrev S16384x4096 : Shape := ⟨2, ![16384, 4096]⟩
abbrev S16384 : Shape := ⟨1, ![16384]⟩
abbrev S1x4096 : Shape := ⟨2, ![1, 4096]⟩
abbrev S1 : Shape := ⟨1, ![1]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel
  bcast_S_S2x1x4096 : S_.BroadcastsInDim S2x1x4096 (![] : Fin 0 → Fin S2x1x4096.rank)
  reducesTo_S2x1x4096_S_d0_1_2 : S2x1x4096.ReducesTo [0, 1, 2] S_
  bcast_S_S16384x512 : S_.BroadcastsInDim S16384x512 (![] : Fin 0 → Fin S16384x512.rank)
  reducesTo_S16384x512_S_d0_1 : S16384x512.ReducesTo [0, 1] S_
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S1x4096 .f32) (main_arg12 : FVec F S1 .f32) (main_arg13 : FVec F S1x4096 .f32) (main_arg14 : FVec F S1 .f32) (main_v48 : IVec S_ 1) (main_v49 : FVec F S16384 .f32) (main_v50 : FVec F S16384 .f32) : IVec S_ 1 :=
  let main_v51 : IVec S16384 1 := cmpf .olt main_v49 main_v50
  let main_c_19 : IVec S_ 1 := constantI S_ 1 1#1
  let main_v52 : IVec S_ 1 := (fun x v => Host.reduce IntOp.andi x v reducesTo_S16384_S_d0 h_S_) main_v51 main_c_19
  let main_v53 : IVec S_ 1 := andi main_v48 main_v52
  let main_v54 : FVec F S1x4096 .f32 := Host.absf main_arg11
  let main_cst_20 : FVec F S_ .f32 := constant S_ .f32 0x7F800000#32
  let main_v55 : FVec F S1x4096 .f32 := broadcastInDim S1x4096 ![] bcast_S_S1x4096 main_cst_20
  let main_v56 : IVec S1x4096 1 := cmpf .olt main_v54 main_v55
  let main_c_21 : IVec S_ 1 := constantI S_ 1 1#1
  let main_v57 : IVec S_ 1 := (fun x v => Host.reduce IntOp.andi x v reducesTo_S1x4096_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1x4096 .f32 := Host.absf main_arg13
  let main_cst_24 : FVec F S_ .f32 := constant S_ .f32 0x7F800000#32
  let main_v65 : FVec F S1x4096 .f32 := broadcastInDim S1x4096 ![] bcast_S_S1x4096 main_cst_24
  let main_v66 : IVec S1x4096 1 := cmpf .olt main_v64 main_v65
  let main_c_25 : IVec S_ 1 := constantI S_ 1 1#1
  let main_v67 : IVec S_ 1 := (fun x v => Host.reduce IntOp.andi x v reducesTo_S1x4096_S_d0_1 h_S_) main_v66 main_c_25
  fn_part4 (F := F) main_arg14 main_v63 main_v67

def fn_part2 {F : FTy → Type} [FloatOps F] (main_arg7 : FVec F S16384x4096 .f32) (main_arg8 : FVec F S16384x4096 .f32) (main_arg9 : FVec F S16384 .f32) (main_arg10 : FVec F S16384 .f32) (main_arg11 : FVec F S1x4096 .f32) (main_arg12 : FVec F S1 .f32) (main_arg13 : FVec F S1x4096 .f32) (main_arg14 : FVec F S1 .f32) (main_v33 : IVec S_ 1) : IVec S_ 1 :=
  let main_v34 : FVec F S16384x4096 .f32 := Host.absf main_arg7
  let main_cst_12 : FVec F S_ .f32 := constant S_ .f32 0x7F800000#32
  let main_v35 : FVec F S16384x4096 .f32 := broadcastInDim S16384x4096 ![] bcast_S_S16384x4096 main_cst_12
  let main_v36 : IVec S16384x4096 1 := cmpf .olt main_v34 main_v35
  let main_c_13 : IVec S_ 1 := constantI S_ 1 1#1
  let main_v37 : IVec S_ 1 := (fun x v => Host.reduce IntOp.andi x v reducesTo_S16384x4096_S_d0_1 h_S_) main_v36 main_c_13
  let main_v38 : IVec S_ 1 := andi main_v33 main_v37
  let main_v39 : FVec F S16384x4096 .f32 := Host.absf main_arg8
  let main_cst_14 : FVec F S_ .f32 := constant S_ .f32 0x7F800000#32
  let main_v40 : FVec F S16384x4096 .f32 := broadcastInDim S16384x4096 ![] bcast_S_S16384x4096 main_cst_14
  let main_v41 : IVec S16384x4096 1 := cmpf .olt main_v39 main_v40
  let main_c_15 : IVec S_ 1 := constantI S_ 1 1#1
  let main_v42 : IVec S_ 1 := (fun x v => Host.reduce IntOp.andi x v reducesTo_S16384x4096_S_d0_1 h_S_) main_v41 main_c_15
  let main_v43 : IVec S_ 1 := andi main_v38 main_v42
  let main_v44 : FVec F S16384 .f32 := Host.absf main_arg9
  let main_cst_16 : FVec F S_ .f32 := constant S_ .f32 0x7F800000#32
  let main_v45 : FVec F S16384 .f32 := broadcastInDim S16384 ![] bcast_S_S16384 main_cst_16
  let main_v46 : IVec S16384 1 := cmpf .olt main_v44 main_v45
  let main_c_17 : IVec S_ 1 := constantI S_ 1 1#1
  let main_v47 : IVec S_ 1 := (fun x v => Host.reduce IntOp.andi x v reducesTo_S16384_S_d0 h_S_) main_v46 main_c_17
  let main_v48 : IVec S_ 1 := andi main_v43 main_v47
  let main_v49 : FVec F S16384 .f32 := Host.absf main_arg10
  let main_cst_18 : FVec F S_ .f32 := constant S_ .f32 0x7F800000#32
  let main_v50 : FVec F S16384 .f32 := broadcastInDim S16384 ![] bcast_S_S16384 main_cst_18
  fn_part3 (F := F) main_arg11 main_arg12 main_arg13 main_arg14 main_v48 main_v49 main_v50

def fn_part1 {F : FTy → Type} [FloatOps F] (main_arg4 : FVec F S16384x4096 .f32) (main_arg5 : FVec F S16384 .f32) (main_arg6 : FVec F S16384 .f32) (main_arg7 : FVec F S16384x4096 .f32) (main_arg8 : FVec F S16384x4096 .f32) (main_arg9 : FVec F S16384 .f32) (main_arg10 : FVec F S16384 .f32) (main_arg11 : FVec F S1x4096 .f32) (main_arg12 : FVec F S1 .f32) (main_arg13 : FVec F S1x4096 .f32) (main_arg14 : FVec F S1 .f32) (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  let main_v19 : FVec F S16384x4096 .f32 := Host.absf main_arg4
  let main_cst_6 : FVec F S_ .f32 := constant S_ .f32 0x7F800000#32
  let main_v20 : FVec F S16384x4096 .f32 := broadcastInDim S16384x4096 ![] bcast_S_S16384x4096 main_cst_6
  let main_v21 : IVec S16384x4096 1 := cmpf .olt main_v19 main_v20
  let main_c_7 : IVec S_ 1 := constantI S_ 1 1#1
  let main_v22 : IVec S_ 1 := (fun x v => Host.reduce IntOp.andi x v reducesTo_S16384x4096_S_d0_1 h_S_) main_v21 main_c_7
  let main_v23 : IVec S_ 1 := andi main_v18 main_v22
  let main_v24 : FVec F S16384 .f32 := Host.absf main_arg5
  let main_cst_8 : FVec F S_ .f32 := constant S_ .f32 0x7F800000#32
  let main_v25 : FVec F S16384 .f32 := broadcastInDim S16384 ![] bcast_S_S16384 main_cst_8
  let main_v26 : IVec S16384 1 := cmpf .olt main_v24 main_v25
  let main_c_9 : IVec S_ 1 := constantI S_ 1 1#1
  let main_v27 : IVec S_ 1 := (fun x v => Host.reduce IntOp.andi x v reducesTo_S16384_S_d0 h_S_) main_v26 main_c_9
  let main_v28 : IVec S_ 1 := andi main_v23 main_v27
  let main_v29 : FVec F S16384 .f32 := Host.absf main_arg6
  let main_cst_10 : FVec F S_ .f32 := constant S_ .f32 0x7F800000#32
  let main_v30 : FVec F S16384 .f32 := broadcastInDim S16384 ![] bcast_S_S16384 main_cst_10
  let main_v31 : IVec S16384 1 := cmpf .olt main_v29 main_v30
  let main_c_11 : IVec S_ 1 := constantI S_ 1 1#1
  let main_v32 : IVec S_ 1 := (fun x v => Host.reduce IntOp.andi x v reducesTo_S16384_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S512 .f32) (main_arg1 : FVec F S2x1x4096 .f32) (main_arg2 : FVec F S2x1x4096 .f32) (main_arg3 : FVec F S16384x512 .f32) (main_arg4 : FVec F S16384x4096 .f32) (main_arg5 : FVec F S16384 .f32) (main_arg6 : FVec F S16384 .f32) (main_arg7 : FVec F S16384x4096 .f32) (main_arg8 : FVec F S16384x4096 .f32) (main_arg9 : FVec F S16384 .f32) (main_arg10 : FVec F S16384 .f32) (main_arg11 : FVec F S1x4096 .f32) (main_arg12 : FVec F S1 .f32) (main_arg13 : FVec F S1x4096 .f32) (main_arg14 : FVec F S1 .f32) : IVec S_ 1 :=
  let main_v0 : FVec F S512 .f32 := Host.absf main_arg0
  let main_cst : FVec F S_ .f32 := constant S_ .f32 0x7F800000#32
  let main_v1 : FVec F S512 .f32 := broadcastInDim S512 ![] bcast_S_S512 main_cst
  let main_v2 : IVec S512 1 := cmpf .olt main_v0 main_v1
  let main_c : IVec S_ 1 := constantI S_ 1 1#1
  let main_v3 : IVec S_ 1 := (fun x v => Host.reduce IntOp.andi x v reducesTo_S512_S_d0 h_S_) main_v2 main_c
  let main_v4 : FVec F S2x1x4096 .f32 := Host.absf main_arg1
  let main_cst_0 : FVec F S_ .f32 := constant S_ .f32 0x7F800000#32
  let main_v5 : FVec F S2x1x4096 .f32 := broadcastInDim S2x1x4096 ![] bcast_S_S2x1x4096 main_cst_0
  let main_v6 : IVec S2x1x4096 1 := cmpf .olt main_v4 main_v5
  let main_c_1 : IVec S_ 1 := constantI S_ 1 1#1
  let main_v7 : IVec S_ 1 := (fun x v => Host.reduce IntOp.andi x v reducesTo_S2x1x4096_S_d0_1_2 h_S_) main_v6 main_c_1
  let main_v8 : IVec S_ 1 := andi main_v3 main_v7
  let main_v9 : FVec F S2x1x4096 .f32 := Host.absf main_arg2
  let main_cst_2 : FVec F S_ .f32 := constant S_ .f32 0x7F800000#32
  let main_v10 : FVec F S2x1x4096 .f32 := broadcastInDim S2x1x4096 ![] bcast_S_S2x1x4096 main_cst_2
  let main_v11 : IVec S2x1x4096 1 := cmpf .olt main_v9 main_v10
  let main_c_3 : IVec S_ 1 := constantI S_ 1 1#1
  let main_v12 : IVec S_ 1 := (fun x v => Host.reduce IntOp.andi x v reducesTo_S2x1x4096_S_d0_1_2 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S512 : Shape := ⟨1, ![512]⟩
abbrev S2x1x4096 : Shape := ⟨3, ![2, 1, 4096]⟩
abbrev S16384x512 : Shape := ⟨2, ![16384, 512]⟩
abbrev S16384x4096 : Shape := ⟨2, ![16384, 4096]⟩
abbrev S16384 : Shape := ⟨1, ![16384]⟩
abbrev S1x4096 : Shape := ⟨2, ![1, 4096]⟩
abbrev S1 : Shape := ⟨1, ![1]⟩
abbrev S1x512 : Shape := ⟨2, ![1, 512]⟩
abbrev S1x1x4096 : Shape := ⟨3, ![1, 1, 4096]⟩
abbrev S4x4096x512 : Shape := ⟨3, ![4, 4096, 512]⟩
abbrev S4x4096x4096 : Shape := ⟨3, ![4, 4096, 4096]⟩
abbrev S4x4096 : Shape := ⟨2, ![4, 4096]⟩
abbrev S1x128 : Shape := ⟨2, ![1, 128]⟩
abbrev S4x128x512 : Shape := ⟨3, ![4, 128, 512]⟩
abbrev S4x128x4096 : Shape := ⟨3, ![4, 128, 4096]⟩
abbrev S4x128 : Shape := ⟨2, ![4, 128]⟩
abbrev S1x128x512 : Shape := ⟨3, ![1, 128, 512]⟩
abbrev S128x512 : Shape := ⟨2, ![128, 512]⟩
abbrev S1x128x4096 : Shape := ⟨3, ![1, 128, 4096]⟩
abbrev S128x4096 : Shape := ⟨2, ![128, 4096]⟩
abbrev S128 : Shape := ⟨1, ![128]⟩
abbrev S4096x1 : Shape := ⟨2, ![4096, 1]⟩
abbrev S1x1 : Shape := ⟨2, ![1, 1]⟩
abbrev S_ : Shape := ⟨0, ![]⟩

abbrev nBuf : Space → Nat
  | .hbm => 52
  | .vmem => 32
  | .smem => 0
  | _ => 0

abbrev bufTy : (tb : Table) → Fin (tcTables nBuf tb) → BufTy
  | .hbm, ⟨0, _⟩ => ⟨S512, .f32⟩
  | .hbm, ⟨1, _⟩ => ⟨S2x1x4096, .f32⟩
  | .hbm, ⟨2, _⟩ => ⟨S2x1x4096, .f32⟩
  | .hbm, ⟨3, _⟩ => ⟨S16384x512, .f32⟩
  | .hbm, ⟨4, _⟩ => ⟨S16384x4096, .f32⟩
  | .hbm, ⟨5, _⟩ => ⟨S16384, .f32⟩
  | .hbm, ⟨6, _⟩ => ⟨S16384, .f32⟩
  | .hbm, ⟨7, _⟩ => ⟨S16384x4096, .f32⟩
  | .hbm, ⟨8, _⟩ => ⟨S16384x4096, .f32⟩
  | .hbm, ⟨9, _⟩ => ⟨S16384, .f32⟩
  | .hbm, ⟨10, _⟩ => ⟨S16384, .f32⟩
  | .hbm, ⟨11, _⟩ => ⟨S1x4096, .f32⟩
  | .hbm, ⟨12, _⟩ => ⟨S1, .f32⟩
  | .hbm, ⟨13, _⟩ => ⟨S1x4096, .f32⟩
  | .hbm, ⟨14, _⟩ => ⟨S1, .f32⟩
  | .hbm, ⟨15, _⟩ => ⟨S1x512, .f32⟩
  | .hbm, ⟨16, _⟩ => ⟨S1x1x4096, .f32⟩
  | .hbm, ⟨17, _⟩ => ⟨S1x4096, .f32⟩
  | .hbm, ⟨18, _⟩ => ⟨S1x1x4096, .f32⟩
  | .hbm, ⟨19, _⟩ => ⟨S1x4096, .f32⟩
  | .hbm, ⟨20, _⟩ => ⟨S4x4096x512, .f32⟩
  | .hbm, ⟨21, _⟩ => ⟨S4x4096x4096, .f32⟩
  | .hbm, ⟨22, _⟩ => ⟨S4x4096, .f32⟩
  | .hbm, ⟨23, _⟩ => ⟨S4x4096, .f32⟩
  | .hbm, ⟨24, _⟩ => ⟨S1x4096, .f32⟩
  | .hbm, ⟨25, _⟩ => ⟨S1x4096, .f32⟩
  | .hbm, ⟨26, _⟩ => ⟨S1x1x4096, .f32⟩
  | .hbm, ⟨27, _⟩ => ⟨S1x4096, .f32⟩
  | .hbm, ⟨28, _⟩ => ⟨S1x1x4096, .f32⟩
  | .hbm, ⟨29, _⟩ => ⟨S1x4096, .f32⟩
  | .hbm, ⟨30, _⟩ => ⟨S4x4096x4096, .f32⟩
  | .hbm, ⟨31, _⟩ => ⟨S4x4096x4096, .f32⟩
  | .hbm, ⟨32, _⟩ => ⟨S4x4096, .f32⟩
  | .hbm, ⟨33, _⟩ => ⟨S4x4096, .f32⟩
  | .hbm, ⟨34, _⟩ => ⟨S1x4096, .f32⟩
  | .hbm, ⟨35, _⟩ => ⟨S1x4096, .f32⟩
  | .hbm, ⟨36, _⟩ => ⟨S4096x1, .f32⟩
  | .hbm, ⟨37, _⟩ => ⟨S1x1, .f32⟩
  | .hbm, ⟨38, _⟩ => ⟨S1x1, .f32⟩
  | .hbm, ⟨39, _⟩ => ⟨S1x1, .f32⟩
  | .hbm, ⟨40, _⟩ => ⟨S4096x1, .f32⟩
  | .hbm, ⟨41, _⟩ => ⟨S1x1, .f32⟩
  | .hbm, ⟨42, _⟩ => ⟨S1x1, .f32⟩
  | .hbm, ⟨43, _⟩ => ⟨S1x1, .f32⟩
  | .hbm, ⟨44, _⟩ => ⟨S1x1, .f32⟩
  | .hbm, ⟨45, _⟩ => ⟨S1x1, .f32⟩
  | .hbm, ⟨46, _⟩ => ⟨S_, .f32⟩
  | .hbm, ⟨47, _⟩ => ⟨S1x1, .f32⟩
  | .hbm, ⟨48, _⟩ => ⟨S1x1, .f32⟩
  | .hbm, ⟨49, _⟩ => ⟨S_, .f32⟩
  | .hbm, ⟨50, _⟩ => ⟨S1x1, .f32⟩
  | .hbm, ⟨51, _⟩ => ⟨S1x1, .f32⟩
  | .local _ .vmem, ⟨0, _⟩ => ⟨S1x512, .f32⟩
  | .local _ .vmem, ⟨1, _⟩ => ⟨S1x4096, .f32⟩
  | .local _ .vmem, ⟨2, _⟩ => ⟨S1x128, .f32⟩
  | .local _ .vmem, ⟨3, _⟩ => ⟨S1x128, .f32⟩
  | .local _ .vmem, ⟨4, _⟩ => ⟨S4x128x512, .f32⟩
  | .local _ .vmem, ⟨5, _⟩ => ⟨S4x128x512, .f32⟩
  | .local _ .vmem, ⟨6, _⟩ => ⟨S4x128x4096, .f32⟩
  | .local _ .vmem, ⟨7, _⟩ => ⟨S4x128x4096, .f32⟩
  | .local _ .vmem, ⟨8, _⟩ => ⟨S4x128, .f32⟩
  | .local _ .vmem, ⟨9, _⟩ => ⟨S4x128, .f32⟩
  | .local _ .vmem, ⟨10, _⟩ => ⟨S4x128, .f32⟩
  | .local _ .vmem, ⟨11, _⟩ => ⟨S4x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x4096, .f32⟩
  | .local _ .vmem, ⟨17, _⟩ => ⟨S1x4096, .f32⟩
  | .local _ .vmem, ⟨18, _⟩ => ⟨S1x128, .f32⟩
  | .local _ .vmem, ⟨19, _⟩ => ⟨S1x128, .f32⟩
  | .local _ .vmem, ⟨20, _⟩ => ⟨S4x128x4096, .f32⟩
  | .local _ .vmem, ⟨21, _⟩ => ⟨S4x128x4096, .f32⟩
  | .local _ .vmem, ⟨22, _⟩ => ⟨S4x128x4096, .f32⟩
  | .local _ .vmem, ⟨23, _⟩ => ⟨S4x128x4096, .f32⟩
  | .local _ .vmem, ⟨24, _⟩ => ⟨S4x128, .f32⟩
  | .local _ .vmem, ⟨25, _⟩ => ⟨S4x128, .f32⟩
  | .local _ .vmem, ⟨26, _⟩ => ⟨S4x128, .f32⟩
  | .local _ .vmem, ⟨27, _⟩ => ⟨S4x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | _, _ => ⟨S512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18_0 : Ref sig .tc := ⟨.hbm, 34, rfl⟩
abbrev main_v18_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_v29 : Ref sig .tc := ⟨.hbm, 47, rfl⟩
abbrev main_v30 : Ref sig .tc := ⟨.hbm, 48, rfl⟩
abbrev main_cst_0 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem1_0 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x128x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S512_S1x512 : S512.ShapeCasts S1x512
  slices_S2x1x4096_S1x1x4096_0_0_0 : S2x1x4096.Slices ![0, 0, 0] S1x1x4096
  shapeCasts_S1x1x4096_S1x4096 : S1x1x4096.ShapeCasts S1x4096
  shapeCasts_S16384x512_S4x4096x512 : S16384x512.ShapeCasts S4x4096x512
  shapeCasts_S16384x4096_S4x4096x4096 : S16384x4096.ShapeCasts S4x4096x4096
  shapeCasts_S16384_S4x4096 : S16384.ShapeCasts S4x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  bitsLt_bf16_f32 : FTy.bits .bf16 < FTy.bits .f32
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S4x128x512_S1x128x512_0_0_0 : ∀ a, (![0, 0, 0] : Fin 3 → Nat) a + S1x128x512.size a ≤ S4x128x512.size a
  h_S1x128x512 : 0 < S1x128x512.numel
  shapeCasts_S1x128x512_S128x512 : S1x128x512.ShapeCasts S128x512
  inb_S4x128x4096_S1x128x4096_0_0_0 : ∀ a, (![0, 0, 0] : Fin 3 → Nat) a + S1x128x4096.size a ≤ S4x128x4096.size a
  h_S1x128x4096 : 0 < S1x128x4096.numel
  shapeCasts_S1x128x4096_S128x4096 : S1x128x4096.ShapeCasts S128x4096
  inb_S4x128_S1x128_0_0 : ∀ a, (![0, 0] : Fin 2 → Nat) a + S1x128.size a ≤ S4x128.size a
  h_S1x128 : 0 < S1x128.numel
  shapeCasts_S1x128_S128 : S1x128.ShapeCasts S128
  shapeCasts_S128_S1x128 : S128.ShapeCasts S1x128
  inb_S4x128x512_S1x128x512_1_0_0 : ∀ a, (![1, 0, 0] : Fin 3 → Nat) a + S1x128x512.size a ≤ S4x128x512.size a
  inb_S4x128x4096_S1x128x4096_1_0_0 : ∀ a, (![1, 0, 0] : Fin 3 → Nat) a + S1x128x4096.size a ≤ S4x128x4096.size a
  inb_S4x128_S1x128_1_0 : ∀ a, (![1, 0] : Fin 2 → Nat) a + S1x128.size a ≤ S4x128.size a
  inb_S4x128x512_S1x128x512_2_0_0 : ∀ a, (![2, 0, 0] : Fin 3 → Nat) a + S1x128x512.size a ≤ S4x128x512.size a
  inb_S4x128x4096_S1x128x4096_2_0_0 : ∀ a, (![2, 0, 0] : Fin 3 → Nat) a + S1x128x4096.size a ≤ S4x128x4096.size a
  inb_S4x128_S1x128_2_0 : ∀ a, (![2, 0] : Fin 2 → Nat) a + S1x128.size a ≤ S4x128.size a
  inb_S4x128x512_S1x128x512_3_0_0 : ∀ a, (![3, 0, 0] : Fin 3 → Nat) a + S1x128x512.size a ≤ S4x128x512.size a
  inb_S4x128x4096_S1x128x4096_3_0_0 : ∀ a, (![3, 0, 0] : Fin 3 → Nat) a + S1x128x4096.size a ≤ S4x128x4096.size a
  inb_S4x128_S1x128_3_0 : ∀ a, (![3, 0] : Fin 2 → Nat) a + S1x128.size a ≤ S4x128.size a
  inb_S1x128_S1x128_0_0 : ∀ a, (![0, 0] : Fin 2 → Nat) a + S1x128.size a ≤ S1x128.size a
  shapeCasts_S1x128_S1x128 : S1x128.ShapeCasts S1x128
  slices_S2x1x4096_S1x1x4096_1_0_0 : S2x1x4096.Slices ![1, 0, 0] S1x1x4096
  transposes_S1x4096_S4096x1_1_0 : S1x4096.Transposes [1, 0] S4096x1
  bcast_S1_S1x1_1 : S1.BroadcastsInDim S1x1 (![1] : Fin 1 → Fin S1x1.rank)
  bcast_S_S1x1 : S_.BroadcastsInDim S1x1 (![] : Fin 0 → Fin S1x1.rank)
  dot_S1x512_S128x512_S1x128_1_1_0_0_n_n_wf : DotDims.WF S1x512 S128x512 S1x128 [1] [1] [0] [0] [] []
  dot_S1x4096_S128x4096_S1x128_1_1_0_0_n_n_wf : DotDims.WF S1x4096 S128x4096 S1x128 [1] [1] [0] [0] [] []
  dot_S1x4096_S4096x1_S1x1_1_0_0_1_n_n_wf : DotDims.WF S1x4096 S4096x1 S1x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x512.size a ≤ S1x512.size a
  hwx0_0 : ∀ i : grid0.Coords, EltTy.bits .f32 = 32 ∨ (Rect.block (s := S1x512) S1x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x4096.size a
  hwx0_2 : ∀ i : grid0.Coords, EltTy.bits .f32 = 32 ∨ (Rect.block (s := S1x4096) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x128x512.size a ≤ S4x4096x512.size a
  hwx0_3 : ∀ i : grid0.Coords, EltTy.bits .f32 = 32 ∨ (Rect.block (s := S4x4096x512) S4x128x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x128x4096.size a ≤ S4x4096x4096.size a
  hwx0_4 : ∀ i : grid0.Coords, EltTy.bits .f32 = 32 ∨ (Rect.block (s := S4x4096x4096) S4x128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x128.size a ≤ S4x4096.size a
  hwx0_5 : ∀ i : grid0.Coords, EltTy.bits .f32 = 32 ∨ (Rect.block (s := S4x4096) S4x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x128.size a ≤ S4x4096.size a
  hwx0_6 : ∀ i : grid0.Coords, EltTy.bits .f32 = 32 ∨ (Rect.block (s := S4x4096) S4x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x4096.size a
  hwx0_7 : ∀ i : grid0.Coords, EltTy.bits .f32 = 32 ∨ (Rect.block (s := S1x4096) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x4096.size a
  hwx0_8 : ∀ i : grid0.Coords, EltTy.bits .f32 = 32 ∨ (Rect.block (s := S1x4096) S1x128.size (cc0_transform_8 i) (hinb0_8 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x4096.size a
  hwx1_0 : ∀ i : grid1.Coords, EltTy.bits .f32 = 32 ∨ (Rect.block (s := S1x4096) S1x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x4096.size a
  hwx1_2 : ∀ i : grid1.Coords, EltTy.bits .f32 = 32 ∨ (Rect.block (s := S1x4096) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x128x4096.size a ≤ S4x4096x4096.size a
  hwx1_3 : ∀ i : grid1.Coords, EltTy.bits .f32 = 32 ∨ (Rect.block (s := S4x4096x4096) S4x128x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x128x4096.size a ≤ S4x4096x4096.size a
  hwx1_4 : ∀ i : grid1.Coords, EltTy.bits .f32 = 32 ∨ (Rect.block (s := S4x4096x4096) S4x128x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4x128.size a ≤ S4x4096.size a
  hwx1_5 : ∀ i : grid1.Coords, EltTy.bits .f32 = 32 ∨ (Rect.block (s := S4x4096) S4x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4x128.size a ≤ S4x4096.size a
  hwx1_6 : ∀ i : grid1.Coords, EltTy.bits .f32 = 32 ∨ (Rect.block (s := S4x4096) S4x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x4096.size a
  hwx1_7 : ∀ i : grid1.Coords, EltTy.bits .f32 = 32 ∨ (Rect.block (s := S1x4096) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x4096.size a
  hwx1_8 : ∀ i : grid1.Coords, EltTy.bits .f32 = 32 ∨ (Rect.block (s := S1x4096) S1x128.size (cc1_transform_8 i) (hinb1_8 i)).WholeWords (EltTy.packing .f32)

variable [Facts₀]

def dot_S1x512_S128x512_S1x128_1_1_0_0_n_n : DotDims S1x512 S128x512 S1x128 where
  lhsContracting := [1]
  rhsContracting := [1]
  lhsNonContracting := [0]
  rhsNonContracting := [0]
  lhsBatch := []
  rhsBatch := []
  wf := dot_S1x512_S128x512_S1x128_1_1_0_0_n_n_wf
def dot_S1x4096_S128x4096_S1x128_1_1_0_0_n_n : DotDims S1x4096 S128x4096 S1x128 where
  lhsContracting := [1]
  rhsContracting := [1]
  lhsNonContracting := [0]
  rhsNonContracting := [0]
  lhsBatch := []
  rhsBatch := []
  wf := dot_S1x4096_S128x4096_S1x128_1_1_0_0_n_n_wf
def dot_S1x4096_S4096x1_S1x1_1_0_0_1_n_n : DotDims S1x4096 S4096x1 S1x1 where
  lhsContracting := [1]
  rhsContracting := [0]
  lhsNonContracting := [0]
  rhsNonContracting := [1]
  lhsBatch := []
  rhsBatch := []
  wf := dot_S1x4096_S4096x1_S1x1_1_0_0_1_n_n_wf

abbrev win0_0 : Pipeline.Window sig grid0 :=
  Pipeline.Window.ofSpec (Memref.whole main_v0) S1x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4x128x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S4x128x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S4x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S4x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S1x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S1x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v9_0) S1x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S4x128x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S4x128x4096.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v16) S4x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v17) S4x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v18_0) S1x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v18_1) S1x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S512 : Shape := ⟨1, ![512]⟩
abbrev S2x1x4096 : Shape := ⟨3, ![2, 1, 4096]⟩
abbrev S16384x512 : Shape := ⟨2, ![16384, 512]⟩
abbrev S16384x4096 : Shape := ⟨2, ![16384, 4096]⟩
abbrev S16384 : Shape := ⟨1, ![16384]⟩
abbrev S1x4096 : Shape := ⟨2, ![1, 4096]⟩
abbrev S1 : Shape := ⟨1, ![1]⟩
abbrev S1x512 : Shape := ⟨2, ![1, 512]⟩
abbrev S1x1x4096 : Shape := ⟨3, ![1, 1, 4096]⟩
abbrev S512x16384 : Shape := ⟨2, ![512, 16384]⟩
abbrev S1x16384 : Shape := ⟨2, ![1, 16384]⟩
abbrev S4096x16384 : Shape := ⟨2, ![4096, 16384]⟩
abbrev S_ : Shape := ⟨0, ![]⟩
abbrev S4096x1 : Shape := ⟨2, ![4096, 1]⟩
abbrev S1x1 : Shape := ⟨2, ![1, 1]⟩

abbrev nBuf : Space → Nat
  | .hbm => 126
  | .vmem => 0
  | .smem => 0
  | _ => 0

abbrev bufTy : (tb : Table) → Fin (tcTables nBuf tb) → BufTy
  | .hbm, ⟨0, _⟩ => ⟨S512, .f32⟩
  | .hbm, ⟨1, _⟩ => ⟨S2x1x4096, .f32⟩
  | .hbm, ⟨2, _⟩ => ⟨S2x1x4096, .f32⟩
  | .hbm, ⟨3, _⟩ => ⟨S16384x512, .f32⟩
  | .hbm, ⟨4, _⟩ => ⟨S16384x4096, .f32⟩
  | .hbm, ⟨5, _⟩ => ⟨S16384, .f32⟩
  | .hbm, ⟨6, _⟩ => ⟨S16384, .f32⟩
  | .hbm, ⟨7, _⟩ => ⟨S16384x4096, .f32⟩
  | .hbm, ⟨8, _⟩ => ⟨S16384x4096, .f32⟩
  | .hbm, ⟨9, _⟩ => ⟨S16384, .f32⟩
  | .hbm, ⟨10, _⟩ => ⟨S16384, .f32⟩
  | .hbm, ⟨11, _⟩ => ⟨S1x4096, .f32⟩
  | .hbm, ⟨12, _⟩ => ⟨S1, .f32⟩
  | .hbm, ⟨13, _⟩ => ⟨S1x4096, .f32⟩
  | .hbm, ⟨14, _⟩ => ⟨S1, .f32⟩
  | .hbm, ⟨15, _⟩ => ⟨S1x512, .f32⟩
  | .hbm, ⟨16, _⟩ => ⟨S1x1x4096, .f32⟩
  | .hbm, ⟨17, _⟩ => ⟨S1x4096, .f32⟩
  | .hbm, ⟨18, _⟩ => ⟨S1x1x4096, .f32⟩
  | .hbm, ⟨19, _⟩ => ⟨S1x4096, .f32⟩
  | .hbm, ⟨20, _⟩ => ⟨S512x16384, .f32⟩
  | .hbm, ⟨21, _⟩ => ⟨S1x16384, .f32⟩
  | .hbm, ⟨22, _⟩ => ⟨S1x16384, .f32⟩
  | .hbm, ⟨23, _⟩ => ⟨S1x16384, .f32⟩
  | .hbm, ⟨24, _⟩ => ⟨S4096x16384, .f32⟩
  | .hbm, ⟨25, _⟩ => ⟨S1x16384, .f32⟩
  | .hbm, ⟨26, _⟩ => ⟨S1x16384, .f32⟩
  | .hbm, ⟨27, _⟩ => ⟨S1x16384, .f32⟩
  | .hbm, ⟨28, _⟩ => ⟨S1x16384, .f32⟩
  | .hbm, ⟨29, _⟩ => ⟨S1x4096, .f32⟩
  | .hbm, ⟨30, _⟩ => ⟨S1x4096, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S1x4096, .f32⟩
  | .hbm, ⟨35, _⟩ => ⟨S_, .f32⟩
  | .hbm, ⟨36, _⟩ => ⟨S1x4096, .f32⟩
  | .hbm, ⟨37, _⟩ => ⟨S1x4096, .f32⟩
  | .hbm, ⟨38, _⟩ => ⟨S_, .f32⟩
  | .hbm, ⟨39, _⟩ => ⟨S1x4096, .f32⟩
  | .hbm, ⟨40, _⟩ => ⟨S1x4096, .f32⟩
  | .hbm, ⟨41, _⟩ => ⟨S1x4096, .f32⟩
  | .hbm, ⟨42, _⟩ => ⟨S1x4096, .f32⟩
  | .hbm, ⟨43, _⟩ => ⟨S1x4096, .f32⟩
  | .hbm, ⟨44, _⟩ => ⟨S_, .f32⟩
  | .hbm, ⟨45, _⟩ => ⟨S1x4096, .f32⟩
  | .hbm, ⟨46, _⟩ => ⟨S1x4096, .f32⟩
  | .hbm, ⟨47, _⟩ => ⟨S_, .f32⟩
  | .hbm, ⟨48, _⟩ => ⟨S1x4096, .f32⟩
  | .hbm, ⟨49, _⟩ => ⟨S1x4096, .f32⟩
  | .hbm, ⟨50, _⟩ => ⟨S1x4096, .f32⟩
  | .hbm, ⟨51, _⟩ => ⟨S1x4096, .f32⟩
  | .hbm, ⟨52, _⟩ => ⟨S1x4096, .f32⟩
  | .hbm, ⟨53, _⟩ => ⟨S1x4096, .f32⟩
  | .hbm, ⟨54, _⟩ => ⟨S1x4096, .f32⟩
  | .hbm, ⟨55, _⟩ => ⟨S_, .f32⟩
  | .hbm, ⟨56, _⟩ => ⟨S1x4096, .f32⟩
  | .hbm, ⟨57, _⟩ => ⟨S1x4096, .f32⟩
  | .hbm, ⟨58, _⟩ => ⟨S_, .f32⟩
  | .hbm, ⟨59, _⟩ => ⟨S1x4096, .f32⟩
  | .hbm, ⟨60, _⟩ => ⟨S1x4096, .f32⟩
  | .hbm, ⟨61, _⟩ => ⟨S1x4096, .f32⟩
  | .hbm, ⟨62, _⟩ => ⟨S1x4096, .f32⟩
  | .hbm, ⟨63, _⟩ => ⟨S1x1x4096, .f32⟩
  | .hbm, ⟨64, _⟩ => ⟨S1x4096, .f32⟩
  | .hbm, ⟨65, _⟩ => ⟨S1x1x4096, .f32⟩
  | .hbm, ⟨66, _⟩ => ⟨S1x4096, .f32⟩
  | .hbm, ⟨67, _⟩ => ⟨S4096x16384, .f32⟩
  | .hbm, ⟨68, _⟩ => ⟨S1x16384, .f32⟩
  | .hbm, ⟨69, _⟩ => ⟨S1x16384, .f32⟩
  | .hbm, ⟨70, _⟩ => ⟨S1x16384, .f32⟩
  | .hbm, ⟨71, _⟩ => ⟨S4096x16384, .f32⟩
  | .hbm, ⟨72, _⟩ => ⟨S1x16384, .f32⟩
  | .hbm, ⟨73, _⟩ => ⟨S1x16384, .f32⟩
  | .hbm, ⟨74, _⟩ => ⟨S1x16384, .f32⟩
  | .hbm, ⟨75, _⟩ => ⟨S1x16384, .f32⟩
  | .hbm, ⟨76, _⟩ => ⟨S1x4096, .f32⟩
  | .hbm, ⟨77, _⟩ => ⟨S1x4096, .f32⟩
  | .hbm, ⟨78, _⟩ => ⟨S1x4096, .f32⟩
  | .hbm, ⟨79, _⟩ => ⟨S1x4096, .f32⟩
  | .hbm, ⟨80, _⟩ => ⟨S1x4096, .f32⟩
  | .hbm, ⟨81, _⟩ => ⟨S1x4096, .f32⟩
  | .hbm, ⟨82, _⟩ => ⟨S_, .f32⟩
  | .hbm, ⟨83, _⟩ => ⟨S1x4096, .f32⟩
  | .hbm, ⟨84, _⟩ => ⟨S1x4096, .f32⟩
  | .hbm, ⟨85, _⟩ => ⟨S_, .f32⟩
  | .hbm, ⟨86, _⟩ => ⟨S1x4096, .f32⟩
  | .hbm, ⟨87, _⟩ => ⟨S1x4096, .f32⟩
  | .hbm, ⟨88, _⟩ => ⟨S1x4096, .f32⟩
  | .hbm, ⟨89, _⟩ => ⟨S1x4096, .f32⟩
  | .hbm, ⟨90, _⟩ => ⟨S1x4096, .f32⟩
  | .hbm, ⟨91, _⟩ => ⟨S_, .f32⟩
  | .hbm, ⟨92, _⟩ => ⟨S1x4096, .f32⟩
  | .hbm, ⟨93, _⟩ => ⟨S1x4096, .f32⟩
  | .hbm, ⟨94, _⟩ => ⟨S_, .f32⟩
  | .hbm, ⟨95, _⟩ => ⟨S1x4096, .f32⟩
  | .hbm, ⟨96, _⟩ => ⟨S1x4096, .f32⟩
  | .hbm, ⟨97, _⟩ => ⟨S1x4096, .f32⟩
  | .hbm, ⟨98, _⟩ => ⟨S1x4096, .f32⟩
  | .hbm, ⟨99, _⟩ => ⟨S1x4096, .f32⟩
  | .hbm, ⟨100, _⟩ => ⟨S1x4096, .f32⟩
  | .hbm, ⟨101, _⟩ => ⟨S1x4096, .f32⟩
  | .hbm, ⟨102, _⟩ => ⟨S_, .f32⟩
  | .hbm, ⟨103, _⟩ => ⟨S1x4096, .f32⟩
  | .hbm, ⟨104, _⟩ => ⟨S1x4096, .f32⟩
  | .hbm, ⟨105, _⟩ => ⟨S_, .f32⟩
  | .hbm, ⟨106, _⟩ => ⟨S1x4096, .f32⟩
  | .hbm, ⟨107, _⟩ => ⟨S1x4096, .f32⟩
  | .hbm, ⟨108, _⟩ => ⟨S1x4096, .f32⟩
  | .hbm, ⟨109, _⟩ => ⟨S1x4096, .f32⟩
  | .hbm, ⟨110, _⟩ => ⟨S4096x1, .f32⟩
  | .hbm, ⟨111, _⟩ => ⟨S1x1, .f32⟩
  | .hbm, ⟨112, _⟩ => ⟨S1x1, .f32⟩
  | .hbm, ⟨113, _⟩ => ⟨S1x1, .f32⟩
  | .hbm, ⟨114, _⟩ => ⟨S4096x1, .f32⟩
  | .hbm, ⟨115, _⟩ => ⟨S1x1, .f32⟩
  | .hbm, ⟨116, _⟩ => ⟨S1x1, .f32⟩
  | .hbm, ⟨117, _⟩ => ⟨S1x1, .f32⟩
  | .hbm, ⟨118, _⟩ => ⟨S1x1, .f32⟩
  | .hbm, ⟨119, _⟩ => ⟨S1x1, .f32⟩
  | .hbm, ⟨120, _⟩ => ⟨S_, .f32⟩
  | .hbm, ⟨121, _⟩ => ⟨S1x1, .f32⟩
  | .hbm, ⟨122, _⟩ => ⟨S1x1, .f32⟩
  | .hbm, ⟨123, _⟩ => ⟨S_, .f32⟩
  | .hbm, ⟨124, _⟩ => ⟨S1x1, .f32⟩
  | .hbm, ⟨125, _⟩ => ⟨S1x1, .f32⟩
  | _, _ => ⟨S512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_cst_0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_v28 : Ref sig .tc := ⟨.hbm, 46, rfl⟩
abbrev main_cst_2 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_5 : Ref sig .tc := ⟨.hbm, 82, rfl⟩
abbrev main_v61 : Ref sig .tc := ⟨.hbm, 83, rfl⟩
abbrev main_v62 : Ref sig .tc := ⟨.hbm, 84, rfl⟩
abbrev main_cst_6 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_7 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_9 : Ref sig .tc := ⟨.hbm, 102, rfl⟩
abbrev main_v77 : Ref sig .tc := ⟨.hbm, 103, rfl⟩
abbrev main_v78 : Ref sig .tc := ⟨.hbm, 104, rfl⟩
abbrev main_cst_10 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_11 : Ref sig .tc := ⟨.hbm, 120, rfl⟩
abbrev main_v93 : Ref sig .tc := ⟨.hbm, 121, rfl⟩
abbrev main_v94 : Ref sig .tc := ⟨.hbm, 122, rfl⟩
abbrev main_cst_12 : Ref sig .tc := ⟨.hbm, 123, rfl⟩
abbrev main_v95 : Ref sig .tc := ⟨.hbm, 124, rfl⟩
abbrev main_v96 : Ref sig .tc := ⟨.hbm, 125, rfl⟩

abbrev nD : Nat := 1
abbrev τ : Topo := Topo.v7x

variable {F : FTy → Type} [FloatOps F]

class Facts₀ : Prop where
  shapeCasts_S512_S1x512 : S512.ShapeCasts S1x512
  slices_S2x1x4096_S1x1x4096_0_0_0 : S2x1x4096.Slices ![0, 0, 0] S1x1x4096
  shapeCasts_S1x1x4096_S1x4096 : S1x1x4096.ShapeCasts S1x4096
  transposes_S16384x512_S512x16384_1_0 : S16384x512.Transposes [1, 0] S512x16384
  bcast_S16384_S1x16384_1 : S16384.BroadcastsInDim S1x16384 (![1] : Fin 1 → Fin S1x16384.rank)
  transposes_S16384x4096_S4096x16384_1_0 : S16384x4096.Transposes [1, 0] S4096x16384
  slices_S1x16384_S1x4096_0_0 : S1x16384.Slices ![0, 0] S1x4096
  slices_S1x16384_S1x4096_0_4096 : S1x16384.Slices ![0, 4096] S1x4096
  slices_S1x16384_S1x4096_0_8192 : S1x16384.Slices ![0, 8192] S1x4096
  slices_S1x16384_S1x4096_0_12288 : S1x16384.Slices ![0, 12288] S1x4096
  bcast_S_S1x4096 : S_.BroadcastsInDim S1x4096 (![] : Fin 0 → Fin S1x4096.rank)
  slices_S2x1x4096_S1x1x4096_1_0_0 : S2x1x4096.Slices ![1, 0, 0] S1x1x4096
  transposes_S1x4096_S4096x1_1_0 : S1x4096.Transposes [1, 0] S4096x1
  bcast_S1_S1x1_1 : S1.BroadcastsInDim S1x1 (![1] : Fin 1 → Fin S1x1.rank)
  bcast_S_S1x1 : S_.BroadcastsInDim S1x1 (![] : Fin 0 → Fin S1x1.rank)
  dot_S1x512_S512x16384_S1x16384_1_0_0_1_n_n_wf : DotDims.WF S1x512 S512x16384 S1x16384 [1] [0] [0] [1] [] []
  dot_S1x4096_S4096x16384_S1x16384_1_0_0_1_n_n_wf : DotDims.WF S1x4096 S4096x16384 S1x16384 [1] [0] [0] [1] [] []
  dot_S1x4096_S4096x1_S1x1_1_0_0_1_n_n_wf : DotDims.WF S1x4096 S4096x1 S1x1 [1] [0] [0] [1] [] []

variable [Facts₀]

def dot_S1x512_S512x16384_S1x16384_1_0_0_1_n_n : DotDims S1x512 S512x16384 S1x16384 where
  lhsContracting := [1]
  rhsContracting := [0]
  lhsNonContracting := [0]
  rhsNonContracting := [1]
  lhsBatch := []
  rhsBatch := []
  wf := dot_S1x512_S512x16384_S1x16384_1_0_0_1_n_n_wf
def dot_S1x4096_S4096x16384_S1x16384_1_0_0_1_n_n : DotDims S1x4096 S4096x16384 S1x16384 where
  lhsContracting := [1]
  rhsContracting := [0]
  lhsNonContracting := [0]
  rhsNonContracting := [1]
  lhsBatch := []
  rhsBatch := []
  wf := dot_S1x4096_S4096x16384_S1x16384_1_0_0_1_n_n_wf
def dot_S1x4096_S4096x1_S1x1_1_0_0_1_n_n : DotDims S1x4096 S4096x1 S1x1 where
  lhsContracting := [1]
  rhsContracting := [0]
  lhsNonContracting := [0]
  rhsNonContracting := [1]
  lhsBatch := []
  rhsBatch := []
  wf := dot_S1x4096_S4096x1_S1x1_1_0_0_1_n_n_wf

class Facts : Prop extends Facts₀ where

variable [Facts]
-- ==== Proof.Cell.lean ====
/-
  One step of a long short-term memory cell over the extended reals, and the two-layer network built from it.

  A cell has an input vector `x` of length `K`, a hidden state `h` and a cell state `c` of length 4096, two weight
  families indexed by gate `g` (input, forget, candidate, output, in that order) and hidden unit `J`, and two bias
  families.  In the arrays the weights lie as matrices of 16384 = 4 · 4096 rows, gate `g`, unit `J` in row
  `g · 4096 + J`.  The pre-activation of gate `g` at unit `J` is

      (∑ₖ x k · wih g J k  +  ∑ₖ h k · whh g J k)  +  (bih g J + bhh g J),

  the new cell state at unit `J` is  σ(forget) · c J + σ(input) · tanh(candidate),  the new hidden state
  σ(output) · tanh(new cell state), with σ x = 1 / (1 + e⁻ˣ).  Two cells are stacked, the second reading the first's
  new hidden state; two affine read-outs of the second hidden state close the network, the first result through σ.

  A second grouping of the same four summands, ((∑ x·wih + bih) + ∑ h·whh) + bhh, is the same extended real: addition
  there is commutative and associative, infinities included, so no finiteness is used anywhere in this file.
-/
import Idealize.ShloMosaic.PureOps.Ideal.Laws
import Idealize.ShloMosaic.Lib.ValueIdx
import Mathlib.Tactic.Abel

noncomputable section

open scoped BigOperators

namespace Cert.Lstm

open Idealize.ShloMosaic Idealize.ShloMosaic.ValueIdx

/-- Row `g · 4096 + J` of a stacked four-gate matrix: gate `g`, hidden unit `J`. -/
def row (g : Fin 4) (J : Fin 4096) : Fin 16384 := ⟨g.val * 4096 + J.val, by omega⟩

@[simp] theorem row_val (g : Fin 4) (J : Fin 4096) : (row g J).val = g.val * 4096 + J.val := rfl

variable {K : ℕ}

/-- The pre-activation of gate `g` at unit `J`: both matrix–vector products first, the two biases together last. -/
def gate (x : Fin K → EReal) (h : Fin 4096 → EReal) (wih : Fin 4 → Fin 4096 → Fin K → EReal)
    (whh : Fin 4 → Fin 4096 → Fin 4096 → EReal) (bih bhh : Fin 4 → Fin 4096 → EReal) (g : Fin 4) (J : Fin 4096) : EReal :=
  ((∑ k : Fin K, x k * wih g J k) + (∑ k : Fin 4096, h k * whh g J k)) + (bih g J + bhh g J)

/-- The same four summands taken left to right: product, bias, product, bias. -/
theorem gate_eq_leftToRight (x : Fin K → EReal) (h : Fin 4096 → EReal) (wih : Fin 4 → Fin 4096 → Fin K → EReal)
    (whh : Fin 4 → Fin 4096 → Fin 4096 → EReal) (bih bhh : Fin 4 → Fin 4096 → EReal) (g : Fin 4) (J : Fin 4096) :
    (((∑ k : Fin K, x k * wih g J k) + bih g J) + (∑ k : Fin 4096, h k * whh g J k)) + bhh g J
      = gate x h wih whh bih bhh g J := by
  unfold gate; abel

/-- The new cell state at unit `J`. -/
def cellNext (x : Fin K → EReal) (h c : Fin 4096 → EReal) (wih : Fin 4 → Fin 4096 → Fin K → EReal)
    (whh : Fin 4 → Fin 4096 → Fin 4096 → EReal) (bih bhh : Fin 4 → Fin 4096 → EReal) (J : Fin 4096) : EReal :=
  Ideal.logistic (gate x h wih whh bih bhh 1 J) * c J
    + Ideal.logistic (gate x h wih whh bih bhh 0 J) * Ideal.tanh (gate x h wih whh bih bhh 2 J)

/-- The new hidden state at unit `J`. -/
def hiddenNext (x : Fin K → EReal) (h c : Fin 4096 → EReal) (wih : Fin 4 → Fin 4096 → Fin K → EReal)
    (whh : Fin 4 → Fin 4096 → Fin 4096 → EReal) (bih bhh : Fin 4 → Fin 4096 → EReal) (J : Fin 4096) : EReal :=
  Ideal.logistic (gate x h wih whh bih bhh 3 J) * Ideal.tanh (cellNext x h c wih whh bih bhh J)

/-- An affine read-out of a hidden state: ∑ₖ h k · w k + b. -/
def readout (h : Fin 4096 → EReal) (w : Fin 4096 → EReal) (b : EReal) : EReal :=
  (∑ k : Fin 4096, h k * w k) + b

/-- σ spelled with a quotient, a sum and an exponential is the one function `Ideal.logistic`. -/
theorem logistic_spelled (x : EReal) : Ideal.div 1 (1 + Ideal.exp (-x)) = Ideal.logistic x := rfl

/-! ## The network as a function of its fifteen argument arrays -/

/-- A stacked weight matrix read by gate and unit. -/
def byGate {K : ℕ} (w : (⟨2, ![16384, K]⟩ : Shape).Idx → EReal) : Fin 4 → Fin 4096 → Fin K → EReal :=
  fun g J k => w (ix2 (row g J) k)

/-- A stacked bias vector read by gate and unit. -/
def biasByGate (b : (⟨1, ![16384]⟩ : Shape).Idx → EReal) : Fin 4 → Fin 4096 → EReal :=
  fun g J => b (ix1 (row g J))

/-- Layer `l` of a pair of stacked states. -/
def layer (s : (⟨3, ![2, 1, 4096]⟩ : Shape).Idx → EReal) (l : Fin 2) : Fin 4096 → EReal :=
  fun k => s (ix3 l 0 k)

section Network

variable (a0 : (⟨1, ![512]⟩ : Shape).Idx → EReal) (a1 a2 : (⟨3, ![2, 1, 4096]⟩ : Shape).Idx → EReal)
  (a3 : (⟨2, ![16384, 512]⟩ : Shape).Idx → EReal) (a4 : (⟨2, ![16384, 4096]⟩ : Shape).Idx → EReal)
  (a5 a6 : (⟨1, ![16384]⟩ : Shape).Idx → EReal) (a7 a8 : (⟨2, ![16384, 4096]⟩ : Shape).Idx → EReal)
  (a9 a10 : (⟨1, ![16384]⟩ : Shape).Idx → EReal) (a11 : (⟨2, ![1, 4096]⟩ : Shape).Idx → EReal)
  (a12 : (⟨1, ![1]⟩ : Shape).Idx → EReal) (a13 : (⟨2, ![1, 4096]⟩ : Shape).Idx → EReal)
  (a14 : (⟨1, ![1]⟩ : Shape).Idx → EReal)

/-- The first cell's new hidden state. -/
def hidden1 : Fin 4096 → EReal :=
  hiddenNext (fun k => a0 (ix1 k)) (layer a1 0) (layer a2 0) (byGate a3) (byGate a4) (biasByGate a5) (biasByGate a6)

/-- The second cell's new hidden state: its input is the first cell's. -/
def hidden2 : Fin 4096 → EReal :=
  hiddenNext (hidden1 a0 a1 a2 a3 a4 a5 a6) (layer a1 1) (layer a2 1) (byGate a7) (byGate a8) (biasByGate a9) (biasByGate a10)

/-- The linear result. -/
def linearOut : EReal :=
  readout (hidden2 a0 a1 a2 a3 a4 a5 a6 a7 a8 a9 a10) (fun k => a11 (ix2 0 k)) (a12 (ix1 0))

/-- The squashed result. -/
def squashedOut : EReal :=
  Ideal.logistic (readout (hidden2 a0 a1 a2 a3 a4 a5 a6 a7 a8 a9 a10) (fun k => a13 (ix2 0 k)) (a14 (ix1 0)))

end Network

end Cert.Lstm

end
-- ==== Proof.LibMatmulRows.lean ====
/-
  A matrix product that contracts the LAST axis of both rank-2 operands, read at one entry over the extended reals.

  The dimension numbers are those of `DotDims.transposedRhs M K N`: an M×K left operand against an N×K right operand
  (the right operand is used as it lies, rows against rows), into an M×N result. Started from the zero accumulator,
  entry (p, q) of the product is the plain sum over k of x[p, k] · y[q, k]: addition of extended reals is commutative
  and associative and the accumulator's zero is the neutral element, so no rounding and no chunk order is left.
  The contraction index (a one-axis index set) is re-indexed by its coordinate in `Fin K`.
-/
import Idealize.ShloMosaic.Lib.ValueIdx
import Idealize.ShloMosaic.PureOps.Ideal.Laws

noncomputable section

open scoped BigOperators

namespace Idealize.ShloMosaic.MatmulRows

open Idealize.ShloMosaic Idealize.ShloMosaic.ValueIdx

variable {M K N : Nat}

/-- The left operand is read at row `i 0` of the result index … -/
theorem lhs_row (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch by simp [DotDims.transposedRhs]),
    dif_pos (show (0 : Fin 2) ∈ (DotDims.transposedRhs M K N).lhsNonContracting by simp [DotDims.transposedRhs])]
  rfl

/-- … and at the contraction position on its last axis. -/
theorem lhs_col (i : (⟨2, ![M, N]⟩ : Shape).Idx) (q : (DotDims.transposedRhs M K N).contr.Idx) :
    ((DotDims.transposedRhs M K N).lhsIdx i q 1).val = (q ⟨0, by rw [DotDims.rank_contr]; exact Nat.one_pos⟩).val :=
  (DotDims.transposedRhs M K N).lhsIdx_val_of_single rfl i q

/-- The right operand is read at row `i 1` of the result index … -/
theorem rhs_row (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch by simp [DotDims.transposedRhs]),
    dif_pos (show (0 : Fin 2) ∈ (DotDims.transposedRhs M K N).rhsNonContracting by simp [DotDims.transposedRhs])]
  rfl

/-- … and at the same contraction position on its last axis. -/
theorem rhs_col (i : (⟨2, ![M, N]⟩ : Shape).Idx) (q : (DotDims.transposedRhs M K N).contr.Idx) :
    ((DotDims.transposedRhs M K N).rhsIdx i q 1).val = (q ⟨0, by rw [DotDims.rank_contr]; exact Nat.one_pos⟩).val :=
  (DotDims.transposedRhs M K N).rhsIdx_val_of_single rfl i q

/-- Entry (p, q) of x · yᵀ from the zero accumulator: the sum over k of x[p, k] · y[q, k]. -/
theorem matmul_zero_apply {φ₁ φ₂ : FTy} (prec : Option ContractPrecision)
    (x : FVec Ideal ⟨2, ![M, K]⟩ φ₁) (y : FVec Ideal ⟨2, ![N, K]⟩ φ₂) (p : Fin M) (q : Fin N) :
    FloatOps.matmul (DotDims.transposedRhs M K N) prec x y (constant ⟨2, ![M, N]⟩ .f32 0x00000000#32) (ix2 p q)
      = ∑ k : Fin K, x (ix2 p k) * y (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k)
      = ix2 p k := funext fun a => Fin.ext (by
    match a with
    | ⟨0, _⟩ => exact lhs_row _ _
    | ⟨1, _⟩ => exact (lhs_col _ _).trans hk)
  have er : (DotDims.transposedRhs M K N).rhsIdx (ix2 p q) ((contrEquiv1 (DotDims.transposedRhs M K N) K rfl rfl).symm k)
      = ix2 q k := funext fun a => Fin.ext (by
    match a with
    | ⟨0, _⟩ => exact rhs_row _ _
    | ⟨1, _⟩ => exact (rhs_col _ _).trans hk)
  rw [el, er]

end Idealize.ShloMosaic.MatmulRows

end
-- ==== Proof.Tile.lean ====
/-
  What one grid point of a cell's kernel leaves in its hidden-state block, entry by entry.

  At a grid point the body holds the whole input row `x` (1 × K), the whole previous hidden row `h` (1 × 4096), a
  128-wide block of the previous cell state, and for each of the four gates a 128 × K and a 128 × 4096 block of weight
  rows and a 128-wide block of each bias.  Entry `j` of the block it writes is

      σ(pre 3 j) · tanh( σ(pre 1 j) · c j + σ(pre 0 j) · tanh(pre 2 j) ),
      pre g j = (∑ₖ x k · wih g j k + ∑ₖ h k · whh g j k) + (bih g j + bhh g j):

  a product against a zero accumulator is the plain sum, a change of float format is the identity, and the reshapes
  between 1 × 128 × K and 128 × K, and between 1 × 128 and 128, move no entry.
-/
import proofs.«165172_j23545010717534_1_alg».proof.Proof.Gen.KernelIdeal.Frame
import proofs.«165172_j23545010717534_1_alg».proof.Proof.Cell
import proofs.«165172_j23545010717534_1_alg».proof.Proof.LibMatmulRows
import Idealize.ShloMosaic.Lib.Pipeline.Value

noncomputable section

open scoped BigOperators

namespace Cert.KernelIdeal.Tile

open Cert.KernelIdeal Cert.KernelIdeal.Gen Idealize.ShloMosaic Idealize.ShloMosaic.ValueIdx

variable {K : ℕ}

/-- Gate `g`'s pre-activation at entry `j` of the block, from the blocks the body holds. -/
def gateT (x : (⟨2, ![1, K]⟩ : Shape).Idx → EReal) (h : (⟨2, ![1, 4096]⟩ : Shape).Idx → EReal)
    (wih : (⟨3, ![4, 128, K]⟩ : Shape).Idx → EReal) (whh : (⟨3, ![4, 128, 4096]⟩ : Shape).Idx → EReal)
    (bih bhh : (⟨2, ![4, 128]⟩ : Shape).Idx → EReal) (g : Fin 4) (j : Fin 128) : EReal :=
  ((∑ k : Fin K, x (ix2 0 k) * wih (ix3 g j k)) + (∑ k : Fin 4096, h (ix2 0 k) * whh (ix3 g j k)))
    + (bih (ix2 g j) + bhh (ix2 g j))

/-- The new cell state at entry `j`. -/
def cellT (x : (⟨2, ![1, K]⟩ : Shape).Idx → EReal) (h : (⟨2, ![1, 4096]⟩ : Shape).Idx → EReal)
    (wih : (⟨3, ![4, 128, K]⟩ : Shape).Idx → EReal) (whh : (⟨3, ![4, 128, 4096]⟩ : Shape).Idx → EReal)
    (bih bhh : (⟨2, ![4, 128]⟩ : Shape).Idx → EReal) (c : (⟨2, ![1, 128]⟩ : Shape).Idx → EReal) (j : Fin 128) : EReal :=
  Ideal.logistic (gateT x h wih whh bih bhh 1 j) * c (ix2 0 j)
    + Ideal.logistic (gateT x h wih whh bih bhh 0 j) * Ideal.tanh (gateT x h wih whh bih bhh 2 j)

/-- The new hidden state at entry `j`. -/
def hiddenT (x : (⟨2, ![1, K]⟩ : Shape).Idx → EReal) (h : (⟨2, ![1, 4096]⟩ : Shape).Idx → EReal)
    (wih : (⟨3, ![4, 128, K]⟩ : Shape).Idx → EReal) (whh : (⟨3, ![4, 128, 4096]⟩ : Shape).Idx → EReal)
    (bih bhh : (⟨2, ![4, 128]⟩ : Shape).Idx → EReal) (c : (⟨2, ![1, 128]⟩ : Shape).Idx → EReal) (j : Fin 128) : EReal :=
  Ideal.logistic (gateT x h wih whh bih bhh 3 j) * Ideal.tanh (cellT x h wih whh bih bhh c j)

/-- A pair of zeros is the constant zero. -/
theorem hz2 : (![0, 0] : Fin 2 → Nat) = fun _ => 0 := funext fun a => by fin_cases a <;> rfl

/-- The index (0, j, k) of a 1 × 128 × K block is the index (j, k) of its 128 × K matrix with a leading zero. -/
theorem cons_ix2 (j : Fin 128) (k : Fin K) :
    (Fin.cons ⟨0, Nat.one_pos⟩ (ix2 j k : (⟨2, ![128, K]⟩ : Shape).Idx) : (⟨3, Matrix.vecCons 1 ![128, K]⟩ : Shape).Idx)
      = ix3 0 j k := by
  funext a
  match a with
  | ⟨0, _⟩ => rfl
  | ⟨1, _⟩ => rfl
  | ⟨2, _⟩ => rfl

/-- A row against a 1 × 128 × K block of weight rows, from the zero accumulator: entry j is ∑ₖ v k · w j k.
    The block is first read as a 128 × K matrix and its format changed; neither moves or alters an entry. -/
theorem prod_apply {φ : FTy} (v : FVec Ideal ⟨2, ![1, K]⟩ φ) (w : (⟨3, ![1, 128, K]⟩ : Shape).Idx → EReal)
    (h : (⟨3, ![1, 128, K]⟩ : Shape).ShapeCasts ⟨2, ![128, K]⟩) (hb : FTy.bf16.bits < FTy.f32.bits) (j : Fin 128) :
    matmul (DotDims.transposedRhs 1 K 128) none v
        (truncf (F := Ideal) (φ := .f32) .bf16 (shapeCast ⟨2, ![128, K]⟩ w h) hb) (constant ⟨2, ![1, 128]⟩ .f32 0x00000000#32) (ix2 0 j)
      = ∑ k : Fin K, v (ix2 0 k) * w (ix3 0 j k) := by
  refine (MatmulRows.matmul_zero_apply none v _ 0 j).trans ?_
  refine Finset.sum_congr rfl fun k _ => ?_
  rw [truncf_apply, shapeCast_dropUnit_apply ![128, K] w h (ix2 j k), cons_ix2]

/-- Gate g's slab of a 4 × 128 × K block read at (0, j, k) is the block at (g, j, k). -/
theorem ld_slab (x : (⟨3, ![4, 128, K]⟩ : Shape).Idx → EReal) (g : Fin 4)
    (inb : ∀ a, (![g.val, 0, 0] : Fin 3 → ℕ) a + (![1, 128, K] : Fin 3 → ℕ) a ≤ (⟨3, ![4, 128, K]⟩ : Shape).size a)
    (j : Fin 128) (k : Fin K) :
    View.ld (Val := Elt Ideal) (e' := .f32) x (Rect.unit (s := ⟨3, ![4, 128, K]⟩) ![g.val, 0, 0] ![1, 128, K] inb) (ix3 0 j k) = x (ix3 g j k) := by
  show x _ = x _
  congr 1
  funext a
  apply Fin.ext
  match a with
  | ⟨0, _⟩ => show g.val + 1 * 0 = g.val; omega
  | ⟨1, _⟩ => show 0 + 1 * j.val = j.val; omega
  | ⟨2, _⟩ => show 0 + 1 * k.val = k.val; omega

/-- Gate g's row of a 4 × 128 block read at (0, j) is the block at (g, j). -/
theorem ld_row (x : (⟨2, ![4, 128]⟩ : Shape).Idx → EReal) (g : Fin 4)
    (inb : ∀ a, (![g.val, 0] : Fin 2 → ℕ) a + (![1, 128] : Fin 2 → ℕ) a ≤ (⟨2, ![4, 128]⟩ : Shape).size a)
    (j : Fin 128) :
    View.ld (Val := Elt Ideal) (e' := .f32) x (Rect.unit (s := ⟨2, ![4, 128]⟩) ![g.val, 0] ![1, 128] inb) (ix2 0 j) = x (ix2 g j) := by
  show x _ = x _
  congr 1
  funext a
  apply Fin.ext
  match a with
  | ⟨0, _⟩ => show g.val + 1 * 0 = g.val; omega
  | ⟨1, _⟩ => show 0 + 1 * j.val = j.val; omega

/-- The sum of four blocks, two and two, read at an entry. -/
theorem add4_apply (P Q B C : FVec Ideal S1x128 .f32) (j : Fin 128) :
    addf (addf P Q) (addf B C) (ix2 0 j) = (P (ix2 0 j) + Q (ix2 0 j)) + (B (ix2 0 j) + C (ix2 0 j)) := rfl

/-- A gate's pre-activation from blocks that agree, entry by entry, with the slabs and rows of gate g. -/
theorem gateT_of_blocks {x : (⟨2, ![1, K]⟩ : Shape).Idx → EReal} {h : (⟨2, ![1, 4096]⟩ : Shape).Idx → EReal}
    {wih : (⟨3, ![4, 128, K]⟩ : Shape).Idx → EReal} {whh : (⟨3, ![4, 128, 4096]⟩ : Shape).Idx → EReal}
    {bih bhh : (⟨2, ![4, 128]⟩ : Shape).Idx → EReal} {g : Fin 4} {j : Fin 128}
    {vx : (⟨2, ![1, K]⟩ : Shape).Idx → EReal} {vh : (⟨2, ![1, 4096]⟩ : Shape).Idx → EReal}
    {w : (⟨3, ![1, 128, K]⟩ : Shape).Idx → EReal} {u : (⟨3, ![1, 128, 4096]⟩ : Shape).Idx → EReal}
    {b c : (⟨2, ![1, 128]⟩ : Shape).Idx → EReal}
    (hx : ∀ k, vx (ix2 0 k) = x (ix2 0 k)) (hh : ∀ k, vh (ix2 0 k) = h (ix2 0 k))
    (hw : ∀ k, w (ix3 0 j k) = wih (ix3 g j k)) (hu : ∀ k, u (ix3 0 j k) = whh (ix3 g j k))
    (hb : b (ix2 0 j) = bih (ix2 g j)) (hc : c (ix2 0 j) = bhh (ix2 g j)) :
    ((∑ k : Fin K, vx (ix2 0 k) * w (ix3 0 j k)) + (∑ k : Fin 4096, vh (ix2 0 k) * u (ix3 0 j k)))
        + (b (ix2 0 j) + c (ix2 0 j))
      = gateT x h wih whh bih bhh g j := by
  unfold gateT
  simp only [hx, hh, hw, hu, hb, hc]

/-- σ of a block times tanh of (σ · block + σ · tanh), read at an entry. -/
theorem hidden_apply (A p0 p1 p2 cs : FVec Ideal S1x128 .f32) (j : Fin 128) :
    mulf (logistic A) (tanh (addf (mulf (logistic p1) cs) (mulf (logistic p0) (tanh p2)))) (ix2 0 j)
      = Ideal.logistic (A (ix2 0 j))
          * Ideal.tanh (Ideal.logistic (p1 (ix2 0 j)) * cs (ix2 0 j) + Ideal.logistic (p0 (ix2 0 j)) * Ideal.tanh (p2 (ix2 0 j))) := rfl

/-! ## The first cell's kernel (K = 512) -/

/-- The input row in the product's format: no entry changes. -/
theorem k0_pay3_apply (v0 : Vec Ideal S1x512 .f32) (i : S1x512.Idx) : k0_pay3 v0 i = v0 i := by
  unfold k0_pay3
  show shapeCast S1x512 v0 _ i = v0 i
  rw [shapeCast_self]

/-- The hidden row in the product's format: no entry changes. -/
theorem k0_pay4_apply (v3 : Vec Ideal S1x4096 .f32) (i : S1x4096.Idx) : k0_pay4 v3 i = v3 i := by
  unfold k0_pay4
  show shapeCast S1x4096 v3 _ i = v3 i
  rw [shapeCast_self]

/-- Input row against a block of input weights, the row given in the product's format. -/
theorem k0_xw (v : FVec Ideal S1x512 .bf16) (w : Vec Ideal S1x128x512 .f32) (h) (hb) (j : Fin 128) :
    matmul dot_S1x512_S128x512_S1x128_1_1_0_0_n_n none v (truncf (F := Ideal) (φ := .f32) .bf16 (shapeCast S128x512 w h) hb)
        (constant S1x128 .f32 0x00000000#32) (ix2 0 j)
      = ∑ k : Fin 512, v (ix2 0 k) * w (ix3 0 j k) :=
  prod_apply (K := 512) v w h hb j

/-- Hidden row against a block of hidden weights, the row given in the product's format. -/
theorem k0_hw (v : FVec Ideal S1x4096 .bf16) (w : Vec Ideal S1x128x4096 .f32) (h) (hb) (j : Fin 128) :
    matmul dot_S1x4096_S128x4096_S1x128_1_1_0_0_n_n none v (truncf (F := Ideal) (φ := .f32) .bf16 (shapeCast S128x4096 w h) hb)
        (constant S1x128 .f32 0x00000000#32) (ix2 0 j)
      = ∑ k : Fin 4096, v (ix2 0 k) * w (ix3 0 j k) :=
  prod_apply (K := 4096) v w h hb j

/-- Gate 0's pre-activation from the blocks loaded for it. -/
theorem k0_pay5_apply (v0 : Vec Ideal S1x512 .f32) (v3 : Vec Ideal S1x4096 .f32) (w : Vec Ideal S1x128x512 .f32)
    (u : Vec Ideal S1x128x4096 .f32) (b c : Vec Ideal S1x128 .f32) (j : Fin 128) :
    k0_pay5 v0 v3 w u b c (ix2 0 j)
      = ((∑ k : Fin 512, v0 (ix2 0 k) * w (ix3 0 j k)) + (∑ k : Fin 4096, v3 (ix2 0 k) * u (ix3 0 j k)))
          + (b (ix2 0 j) + c (ix2 0 j)) := by
  unfold k0_pay5
  refine (add4_apply _ _ _ _ j).trans ?_
  rw [k0_xw, k0_hw, shapeCast_shapeCast, shapeCast_shapeCast]
  simp only [k0_pay3_apply, k0_pay4_apply]

/-- Gate 1's pre-activation from the blocks loaded for it. -/
theorem k0_pay9_apply (v0 : Vec Ideal S1x512 .f32) (v3 : Vec Ideal S1x4096 .f32) (w : Vec Ideal S1x128x512 .f32)
    (u : Vec Ideal S1x128x4096 .f32) (b c : Vec Ideal S1x128 .f32) (j : Fin 128) :
    k0_pay9 (k0_pay6 v0 w) (k0_pay7 v3 u) (k0_pay8 b) c (ix2 0 j)
      = ((∑ k : Fin 512, v0 (ix2 0 k) * w (ix3 0 j k)) + (∑ k : Fin 4096, v3 (ix2 0 k) * u (ix3 0 j k)))
          + (b (ix2 0 j) + c (ix2 0 j)) := by
  unfold k0_pay9 k0_pay6 k0_pay7 k0_pay8
  refine (add4_apply _ _ _ _ j).trans ?_
  rw [k0_xw, k0_hw, shapeCast_shapeCast, shapeCast_shapeCast]
  simp only [k0_pay3_apply, k0_pay4_apply]

/-- Gate 2's pre-activation from the blocks loaded for it. -/
theorem k0_pay10_apply (v0 : Vec Ideal S1x512 .f32) (v3 : Vec Ideal S1x4096 .f32) (w : Vec Ideal S1x128x512 .f32)
    (u : Vec Ideal S1x128x4096 .f32) (b c : Vec Ideal S1x128 .f32) (j : Fin 128) :
    k0_pay10 (k0_pay3 v0) (k0_pay4 v3) w u b c (ix2 0 j)
      = ((∑ k : Fin 512, v0 (ix2 0 k) * w (ix3 0 j k)) + (∑ k : Fin 4096, v3 (ix2 0 k) * u (ix3 0 j k)))
          + (b (ix2 0 j) + c (ix2 0 j)) := by
  unfold k0_pay10
  refine (add4_apply _ _ _ _ j).trans ?_
  rw [k0_xw, k0_hw, shapeCast_shapeCast, shapeCast_shapeCast]
  simp only [k0_pay3_apply, k0_pay4_apply]

/-- The stored block: gate 3's pre-activation is assembled here, then σ of it times tanh of the new cell state. -/
theorem k0_pay2_apply (p0 p1 p2 : FVec Ideal S1x128 .f32) (v0 : Vec Ideal S1x512 .f32) (v3 : Vec Ideal S1x4096 .f32)
    (w : Vec Ideal S1x128x512 .f32) (u : Vec Ideal S1x128x4096 .f32) (b c cs : Vec Ideal S1x128 .f32) (j : Fin 128) :
    k0_pay2 p0 p1 p2 (k0_pay11 (k0_pay3 v0) w) (k0_pay12 (k0_pay4 v3) u) (k0_pay13 b) c cs (ix2 0 j)
      = Ideal.logistic (((∑ k : Fin 512, v0 (ix2 0 k) * w (ix3 0 j k)) + (∑ k : Fin 4096, v3 (ix2 0 k) * u (ix3 0 j k)))
            + (b (ix2 0 j) + c (ix2 0 j)))
          * Ideal.tanh (Ideal.logistic (p1 (ix2 0 j)) * cs (ix2 0 j)
              + Ideal.logistic (p0 (ix2 0 j)) * Ideal.tanh (p2 (ix2 0 j))) := by
  unfold k0_pay2 k0_pay1 k0_pay11 k0_pay12 k0_pay13
  refine (hidden_apply _ _ _ _ _ j).trans ?_
  rw [add4_apply, k0_xw, k0_hw, shapeCast_shapeCast, shapeCast_shapeCast, shapeCast_self]
  simp only [k0_pay3_apply, k0_pay4_apply]

/-! ## The second cell's kernel (K = 4096) -/

/-- The input row in the product's format: no entry changes. -/
theorem k1_pay3_apply (v0 : Vec Ideal S1x4096 .f32) (i : S1x4096.Idx) : k1_pay3 v0 i = v0 i := by
  unfold k1_pay3
  show shapeCast S1x4096 v0 _ i = v0 i
  rw [shapeCast_self]

/-- The hidden row in the product's format: no entry changes. -/
theorem k1_pay4_apply (v3 : Vec Ideal S1x4096 .f32) (i : S1x4096.Idx) : k1_pay4 v3 i = v3 i := by
  unfold k1_pay4
  show shapeCast S1x4096 v3 _ i = v3 i
  rw [shapeCast_self]

/-- Input row against a block of input weights, the row given in the product's format. -/
theorem k1_xw (v : FVec Ideal S1x4096 .bf16) (w : Vec Ideal S1x128x4096 .f32) (h) (hb) (j : Fin 128) :
    matmul dot_S1x4096_S128x4096_S1x128_1_1_0_0_n_n none v (truncf (F := Ideal) (φ := .f32) .bf16 (shapeCast S128x4096 w h) hb)
        (constant S1x128 .f32 0x00000000#32) (ix2 0 j)
      = ∑ k : Fin 4096, v (ix2 0 k) * w (ix3 0 j k) :=
  prod_apply (K := 4096) v w h hb j

/-- Hidden row against a block of hidden weights, the row given in the product's format. -/
theorem k1_hw (v : FVec Ideal S1x4096 .bf16) (w : Vec Ideal S1x128x4096 .f32) (h) (hb) (j : Fin 128) :
    matmul dot_S1x4096_S128x4096_S1x128_1_1_0_0_n_n none v (truncf (F := Ideal) (φ := .f32) .bf16 (shapeCast S128x4096 w h) hb)
        (constant S1x128 .f32 0x00000000#32) (ix2 0 j)
      = ∑ k : Fin 4096, v (ix2 0 k) * w (ix3 0 j k) :=
  prod_apply (K := 4096) v w h hb j

/-- Gate 0's pre-activation from the blocks loaded for it. -/
theorem k1_pay5_apply (v0 : Vec Ideal S1x4096 .f32) (v3 : Vec Ideal S1x4096 .f32) (w : Vec Ideal S1x128x4096 .f32)
    (u : Vec Ideal S1x128x4096 .f32) (b c : Vec Ideal S1x128 .f32) (j : Fin 128) :
    k1_pay5 v0 v3 w u b c (ix2 0 j)
      = ((∑ k : Fin 4096, v0 (ix2 0 k) * w (ix3 0 j k)) + (∑ k : Fin 4096, v3 (ix2 0 k) * u (ix3 0 j k)))
          + (b (ix2 0 j) + c (ix2 0 j)) := by
  unfold k1_pay5
  refine (add4_apply _ _ _ _ j).trans ?_
  rw [k1_xw, k1_hw, shapeCast_shapeCast, shapeCast_shapeCast]
  simp only [k1_pay3_apply, k1_pay4_apply]

/-- Gate 1's pre-activation from the blocks loaded for it. -/
theorem k1_pay9_apply (v0 : Vec Ideal S1x4096 .f32) (v3 : Vec Ideal S1x4096 .f32) (w : Vec Ideal S1x128x4096 .f32)
    (u : Vec Ideal S1x128x4096 .f32) (b c : Vec Ideal S1x128 .f32) (j : Fin 128) :
    k1_pay9 (k1_pay6 v0 w) (k1_pay7 v3 u) (k1_pay8 b) c (ix2 0 j)
      = ((∑ k : Fin 4096, v0 (ix2 0 k) * w (ix3 0 j k)) + (∑ k : Fin 4096, v3 (ix2 0 k) * u (ix3 0 j k)))
          + (b (ix2 0 j) + c (ix2 0 j)) := by
  unfold k1_pay9 k1_pay6 k1_pay7 k1_pay8
  refine (add4_apply _ _ _ _ j).trans ?_
  rw [k1_xw, k1_hw, shapeCast_shapeCast, shapeCast_shapeCast]
  simp only [k1_pay3_apply, k1_pay4_apply]

/-- Gate 2's pre-activation from the blocks loaded for it. -/
theorem k1_pay10_apply (v0 : Vec Ideal S1x4096 .f32) (v3 : Vec Ideal S1x4096 .f32) (w : Vec Ideal S1x128x4096 .f32)
    (u : Vec Ideal S1x128x4096 .f32) (b c : Vec Ideal S1x128 .f32) (j : Fin 128) :
    k1_pay10 (k1_pay3 v0) (k1_pay4 v3) w u b c (ix2 0 j)
      = ((∑ k : Fin 4096, v0 (ix2 0 k) * w (ix3 0 j k)) + (∑ k : Fin 4096, v3 (ix2 0 k) * u (ix3 0 j k)))
          + (b (ix2 0 j) + c (ix2 0 j)) := by
  unfold k1_pay10
  refine (add4_apply _ _ _ _ j).trans ?_
  rw [k1_xw, k1_hw, shapeCast_shapeCast, shapeCast_shapeCast]
  simp only [k1_pay3_apply, k1_pay4_apply]

/-- The stored block: gate 3's pre-activation is assembled here, then σ of it times tanh of the new cell state. -/
theorem k1_pay2_apply (p0 p1 p2 : FVec Ideal S1x128 .f32) (v0 : Vec Ideal S1x4096 .f32) (v3 : Vec Ideal S1x4096 .f32)
    (w : Vec Ideal S1x128x4096 .f32) (u : Vec Ideal S1x128x4096 .f32) (b c cs : Vec Ideal S1x128 .f32) (j : Fin 128) :
    k1_pay2 p0 p1 p2 (k1_pay11 (k1_pay3 v0) w) (k1_pay12 (k1_pay4 v3) u) (k1_pay13 b) c cs (ix2 0 j)
      = Ideal.logistic (((∑ k : Fin 4096, v0 (ix2 0 k) * w (ix3 0 j k)) + (∑ k : Fin 4096, v3 (ix2 0 k) * u (ix3 0 j k)))
            + (b (ix2 0 j) + c (ix2 0 j)))
          * Ideal.tanh (Ideal.logistic (p1 (ix2 0 j)) * cs (ix2 0 j)
              + Ideal.logistic (p0 (ix2 0 j)) * Ideal.tanh (p2 (ix2 0 j))) := by
  unfold k1_pay2 k1_pay1 k1_pay11 k1_pay12 k1_pay13
  refine (hidden_apply _ _ _ _ _ j).trans ?_
  rw [add4_apply, k1_xw, k1_hw, shapeCast_shapeCast, shapeCast_shapeCast, shapeCast_self]
  simp only [k1_pay3_apply, k1_pay4_apply]

/-- The first cell's kernel (K = 512): entry `j` of the hidden-state block it leaves. -/
theorem out0_7_apply (x0 : Vec Ideal S1x512 .f32) (x1 : Vec Ideal S1x4096 .f32) (x2 : Vec Ideal S1x128 .f32)
    (x3 : Vec Ideal S4x128x512 .f32) (x4 : Vec Ideal S4x128x4096 .f32) (x5 x6 : Vec Ideal S4x128 .f32) (j : Fin 128) :
    out0_7 (F := Ideal) x0 x1 x2 x3 x4 x5 x6 (ix2 0 j) = hiddenT x0 x1 x3 x4 x5 x6 x2 j := by
  have hx : ∀ k, View.ld x0 r0_0 (ix2 0 k) = x0 (ix2 0 k) := fun k => congrFun (View.ld_unit_zero hz2 _ x0) _
  have hh : ∀ k, View.ld x1 r0_1 (ix2 0 k) = x1 (ix2 0 k) := fun k => congrFun (View.ld_unit_zero hz2 _ x1) _
  have hc : View.ld x2 r0_14 (ix2 0 j) = x2 (ix2 0 j) := congrFun (View.ld_unit_zero hz2 _ x2) _
  have g0 := (k0_pay5_apply (View.ld x0 r0_0) (View.ld x1 r0_1) (View.ld x3 r0_2) (View.ld x4 r0_3)
    (View.ld x5 r0_4) (View.ld x6 r0_4) j).trans
    (gateT_of_blocks (x := x0) (h := x1) (wih := x3) (whh := x4) (bih := x5) (bhh := x6) (g := 0) hx hh
      (fun k => ld_slab x3 0 _ j k) (fun k => ld_slab x4 0 _ j k) (ld_row x5 0 _ j) (ld_row x6 0 _ j))
  have g1 := (k0_pay9_apply (View.ld x0 r0_0) (View.ld x1 r0_1) (View.ld x3 r0_5) (View.ld x4 r0_6)
    (View.ld x5 r0_7) (View.ld x6 r0_7) j).trans
    (gateT_of_blocks (x := x0) (h := x1) (wih := x3) (whh := x4) (bih := x5) (bhh := x6) (g := 1) hx hh
      (fun k => ld_slab x3 1 _ j k) (fun k => ld_slab x4 1 _ j k) (ld_row x5 1 _ j) (ld_row x6 1 _ j))
  have g2 := (k0_pay10_apply (View.ld x0 r0_0) (View.ld x1 r0_1) (View.ld x3 r0_8) (View.ld x4 r0_9)
    (View.ld x5 r0_10) (View.ld x6 r0_10) j).trans
    (gateT_of_blocks (x := x0) (h := x1) (wih := x3) (whh := x4) (bih := x5) (bhh := x6) (g := 2) hx hh
      (fun k => ld_slab x3 2 _ j k) (fun k => ld_slab x4 2 _ j k) (ld_row x5 2 _ j) (ld_row x6 2 _ j))
  have g3 := gateT_of_blocks (x := x0) (h := x1) (wih := x3) (whh := x4) (bih := x5) (bhh := x6) (g := 3) (j := j)
      (vx := View.ld x0 r0_0) (vh := View.ld x1 r0_1) (w := View.ld x3 r0_11) (u := View.ld x4 r0_12)
      (b := View.ld x5 r0_13) (c := View.ld x6 r0_13) hx hh
      (fun k => ld_slab x3 3 _ j k) (fun k => ld_slab x4 3 _ j k) (ld_row x5 3 _ j) (ld_row x6 3 _ j)
  unfold out0_7
  rw [View.canon_unit_zero hz2, k0_pay2_apply, g0, g1, g2, g3, hc]
  rfl

/-- The second cell's kernel (K = 4096): entry `j` of the hidden-state block it leaves. -/
theorem out1_7_apply (x0 : Vec Ideal S1x4096 .f32) (x1 : Vec Ideal S1x4096 .f32) (x2 : Vec Ideal S1x128 .f32)
    (x3 : Vec Ideal S4x128x4096 .f32) (x4 : Vec Ideal S4x128x4096 .f32) (x5 x6 : Vec Ideal S4x128 .f32) (j : Fin 128) :
    out1_7 (F := Ideal) x0 x1 x2 x3 x4 x5 x6 (ix2 0 j) = hiddenT x0 x1 x3 x4 x5 x6 x2 j := by
  have hx : ∀ k, View.ld x0 r1_0 (ix2 0 k) = x0 (ix2 0 k) := fun k => congrFun (View.ld_unit_zero hz2 _ x0) _
  have hh : ∀ k, View.ld x1 r1_0 (ix2 0 k) = x1 (ix2 0 k) := fun k => congrFun (View.ld_unit_zero hz2 _ x1) _
  have hc : View.ld x2 r1_9 (ix2 0 j) = x2 (ix2 0 j) := congrFun (View.ld_unit_zero hz2 _ x2) _
  have g0 := (k1_pay5_apply (View.ld x0 r1_0) (View.ld x1 r1_0) (View.ld x3 r1_1) (View.ld x4 r1_1)
    (View.ld x5 r1_2) (View.ld x6 r1_2) j).trans
    (gateT_of_blocks (x := x0) (h := x1) (wih := x3) (whh := x4) (bih := x5) (bhh := x6) (g := 0) hx hh
      (fun k => ld_slab x3 0 _ j k) (fun k => ld_slab x4 0 _ j k) (ld_row x5 0 _ j) (ld_row x6 0 _ j))
  have g1 := (k1_pay9_apply (View.ld x0 r1_0) (View.ld x1 r1_0) (View.ld x3 r1_3) (View.ld x4 r1_3)
    (View.ld x5 r1_4) (View.ld x6 r1_4) j).trans
    (gateT_of_blocks (x := x0) (h := x1) (wih := x3) (whh := x4) (bih := x5) (bhh := x6) (g := 1) hx hh
      (fun k => ld_slab x3 1 _ j k) (fun k => ld_slab x4 1 _ j k) (ld_row x5 1 _ j) (ld_row x6 1 _ j))
  have g2 := (k1_pay10_apply (View.ld x0 r1_0) (View.ld x1 r1_0) (View.ld x3 r1_5) (View.ld x4 r1_5)
    (View.ld x5 r1_6) (View.ld x6 r1_6) j).trans
    (gateT_of_blocks (x := x0) (h := x1) (wih := x3) (whh := x4) (bih := x5) (bhh := x6) (g := 2) hx hh
      (fun k => ld_slab x3 2 _ j k) (fun k => ld_slab x4 2 _ j k) (ld_row x5 2 _ j) (ld_row x6 2 _ j))
  have g3 := gateT_of_blocks (x := x0) (h := x1) (wih := x3) (whh := x4) (bih := x5) (bhh := x6) (g := 3) (j := j)
      (vx := View.ld x0 r1_0) (vh := View.ld x1 r1_0) (w := View.ld x3 r1_7) (u := View.ld x4 r1_7)
      (b := View.ld x5 r1_8) (c := View.ld x6 r1_8) hx hh
      (fun k => ld_slab x3 3 _ j k) (fun k => ld_slab x4 3 _ j k) (ld_row x5 3 _ j) (ld_row x6 3 _ j)
  unfold out1_7
  rw [View.canon_unit_zero hz2, k1_pay2_apply, g0, g1, g2, g3, hc]
  rfl

end Cert.KernelIdeal.Tile

end
-- ==== Proof.Blocks.lean ====
/-
  From blocks to arrays: what each cell's kernel leaves in its hidden-state array, as one function of the arrays the
  region finds.

  The grid has 32 points; point `t` reads the whole input and hidden rows, and columns 128·t … 128·t + 127 of the
  cell state, of every gate's weight rows and of every gate's biases, and writes columns 128·t … 128·t + 127 of the
  hidden-state row.  The 32 written blocks tile the row, so after the run entry `J` of the row is the cell's new hidden
  state at unit `J`, computed from the arrays as the region found them.
-/
import proofs.«165172_j23545010717534_1_alg».proof.Proof.Tile
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

/-! ## A block's entry is the array's entry

  If every entry the block formulas read at block entry `j` is the entry the array formulas read at unit `J` — the
  two whole rows entry by entry, and column `j` of each blocked operand against column `J` of its array —, the block's
  new hidden state at `j` is the cell's at `J`: the two formulas are the same sums, products, σ and tanh of equal
  entries. -/

/-- Gate by gate: equal summands give equal pre-activations. -/
theorem gateT_eq_gate {K : ℕ} (x : (⟨2, ![1, K]⟩ : Shape).Idx → EReal) (h : (⟨2, ![1, 4096]⟩ : Shape).Idx → EReal)
    (wih : (⟨3, ![4, 128, K]⟩ : Shape).Idx → EReal) (whh : (⟨3, ![4, 128, 4096]⟩ : Shape).Idx → EReal)
    (bih bhh : (⟨2, ![4, 128]⟩ : Shape).Idx → EReal)
    (X : Fin K → EReal) (H : Fin 4096 → EReal) (Wih : Fin 4 → Fin 4096 → Fin K → EReal)
    (Whh : Fin 4 → Fin 4096 → Fin 4096 → EReal) (Bih Bhh : Fin 4 → Fin 4096 → EReal) (j : Fin 128) (J : Fin 4096)
    (hx : ∀ k, x (ix2 0 k) = X k) (hh : ∀ k, h (ix2 0 k) = H k)
    (hwih : ∀ g k, wih (ix3 g j k) = Wih g J k) (hwhh : ∀ g k, whh (ix3 g j k) = Whh g J k)
    (hbih : ∀ g, bih (ix2 g j) = Bih g J) (hbhh : ∀ g, bhh (ix2 g j) = Bhh g J) (g : Fin 4) :
    Tile.gateT x h wih whh bih bhh g j = Cert.Lstm.gate X H Wih Whh Bih Bhh g J := by
  unfold Tile.gateT Cert.Lstm.gate
  simp only [hx, hh, hwih, hwhh, hbih, hbhh]

/-- The new hidden state of the block at `j` is the cell's at `J`. -/
theorem hiddenT_eq_hiddenNext {K : ℕ} (x : (⟨2, ![1, K]⟩ : Shape).Idx → EReal) (h : (⟨2, ![1, 4096]⟩ : Shape).Idx → EReal)
    (wih : (⟨3, ![4, 128, K]⟩ : Shape).Idx → EReal) (whh : (⟨3, ![4, 128, 4096]⟩ : Shape).Idx → EReal)
    (bih bhh : (⟨2, ![4, 128]⟩ : Shape).Idx → EReal) (c : (⟨2, ![1, 128]⟩ : Shape).Idx → EReal)
    (X : Fin K → EReal) (H C : Fin 4096 → EReal) (Wih : Fin 4 → Fin 4096 → Fin K → EReal)
    (Whh : Fin 4 → Fin 4096 → Fin 4096 → EReal) (Bih Bhh : Fin 4 → Fin 4096 → EReal) (j : Fin 128) (J : Fin 4096)
    (hx : ∀ k, x (ix2 0 k) = X k) (hh : ∀ k, h (ix2 0 k) = H k)
    (hwih : ∀ g k, wih (ix3 g j k) = Wih g J k) (hwhh : ∀ g k, whh (ix3 g j k) = Whh g J k)
    (hbih : ∀ g, bih (ix2 g j) = Bih g J) (hbhh : ∀ g, bhh (ix2 g j) = Bhh g J) (hc : c (ix2 0 j) = C J) :
    Tile.hiddenT x h wih whh bih bhh c j = Cert.Lstm.hiddenNext X H C Wih Whh Bih Bhh J := by
  have hg := gateT_eq_gate x h wih whh bih bhh X H Wih Whh Bih Bhh j J hx hh hwih hwhh hbih hbhh
  unfold Tile.hiddenT Tile.cellT Cert.Lstm.hiddenNext Cert.Lstm.cellNext
  rw [hg 0, hg 1, hg 2, hg 3, hc]

/-! ## The first cell

  Point `t`'s block indices: the input row and the hidden row are block (0, 0) at every point; the cell-state row, the
  two bias tables and the written hidden-state row are block (0, t); the two weight arrays are block (0, t, 0). -/

theorem idx0_0 : ∀ t : Fin cfg0.N, win0_0.index t (0 : Fin 2) = 0 ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = t.val :=
  (by decide +kernel : ∀ t : Fin grid0.N, _)
theorem idx0_3 : ∀ t : Fin cfg0.N,
    win0_3.index t (0 : Fin 3) = 0 ∧ win0_3.index t (1 : Fin 3) = t.val ∧ win0_3.index t (2 : Fin 3) = 0 :=
  (by decide +kernel : ∀ t : Fin grid0.N, _)
theorem idx0_4 : ∀ t : Fin cfg0.N,
    win0_4.index t (0 : Fin 3) = 0 ∧ win0_4.index t (1 : Fin 3) = t.val ∧ win0_4.index t (2 : Fin 3) = 0 :=
  (by decide +kernel : ∀ t : Fin grid0.N, _)
theorem idx0_5 : ∀ t : Fin cfg0.N, win0_5.index t (0 : Fin 2) = 0 ∧ win0_5.index t (1 : Fin 2) = t.val :=
  (by decide +kernel : ∀ t : Fin grid0.N, _)
theorem idx0_6 : ∀ t : Fin cfg0.N, win0_6.index t (0 : Fin 2) = 0 ∧ win0_6.index t (1 : Fin 2) = t.val :=
  (by decide +kernel : ∀ t : Fin grid0.N, _)
theorem idx0_7 : ∀ t : Fin cfg0.N, win0_7.index t (0 : Fin 2) = 0 ∧ win0_7.index t (1 : Fin 2) = t.val :=
  (by decide +kernel : ∀ t : Fin grid0.N, _)

/-- The input row's block is the whole row. -/
theorem inputRow0 (c : Dev nD) (t : Fin cfg0.N) (k : Fin 512) :
    (iblk0 (F := Ideal) V c 0 t : Vec Ideal S1x512 .f32) (ix2 0 k) = V c main_v0 (ix2 0 k) := by
  obtain ⟨e0, e1⟩ := idx0_0 t
  unfold iblk0
  rw [View.read_apply]
  show V c main_v0 _ = V c main_v0 _
  congr 1
  funext a
  apply Fin.ext
  match a with
  | ⟨0, _⟩ => show win0_0.index t (0 : Fin 2) * 1 + 1 * 0 = 0; rw [e0]
  | ⟨1, _⟩ => show win0_0.index t (1 : Fin 2) * 512 + 1 * k.val = k.val; rw [e1]; omega

/-- The hidden row's block is the whole row. -/
theorem hiddenRow0 (c : Dev nD) (t : Fin cfg0.N) (k : Fin 4096) :
    (iblk0 (F := Ideal) V c 1 t : Vec Ideal S1x4096 .f32) (ix2 0 k) = V c main_v2 (ix2 0 k) := by
  obtain ⟨e0, e1⟩ := idx0_1 t
  unfold iblk0
  rw [View.read_apply]
  show V c main_v2 _ = V c main_v2 _
  congr 1
  funext a
  apply Fin.ext
  match a with
  | ⟨0, _⟩ => show win0_1.index t (0 : Fin 2) * 1 + 1 * 0 = 0; rw [e0]
  | ⟨1, _⟩ => show win0_1.index t (1 : Fin 2) * 4096 + 1 * k.val = k.val; rw [e1]; omega

/-- Entry `j` of the cell-state block at point `t` is entry 128·t + j of the row. -/
theorem cellRow0 (c : Dev nD) (t : Fin cfg0.N) (j : Fin 128) (J : Fin 4096) (hJ : J.val = 128 * t.val + j.val) :
    (iblk0 (F := Ideal) V c 2 t : Vec Ideal S1x128 .f32) (ix2 0 j) = V c main_v4 (ix2 0 J) := by
  obtain ⟨e0, e1⟩ := idx0_2 t
  unfold iblk0
  rw [View.read_apply]
  show V c main_v4 _ = V c main_v4 _
  congr 1
  funext a
  apply Fin.ext
  match a with
  | ⟨0, _⟩ => show win0_2.index t (0 : Fin 2) * 1 + 1 * 0 = 0; rw [e0]
  | ⟨1, _⟩ => show win0_2.index t (1 : Fin 2) * 128 + 1 * j.val = J.val; rw [e1, hJ]; omega

/-- Row `j` of gate `g` in the input weights' block at point `t` is row 128·t + j of gate `g` in the array. -/
theorem inputWeights0 (c : Dev nD) (t : Fin cfg0.N) (g : Fin 4) (j : Fin 128) (k : Fin 512) (J : Fin 4096)
    (hJ : J.val = 128 * t.val + j.val) :
    (iblk0 (F := Ideal) V c 3 t : Vec Ideal S4x128x512 .f32) (ix3 g j k) = V c main_v5 (ix3 g J k) := by
  obtain ⟨e0, e1, e2⟩ := idx0_3 t
  unfold iblk0
  rw [View.read_apply]
  show V c main_v5 _ = V c main_v5 _
  congr 1
  funext a
  apply Fin.ext
  match a with
  | ⟨0, _⟩ => show win0_3.index t (0 : Fin 3) * 4 + 1 * g.val = g.val; rw [e0]; omega
  | ⟨1, _⟩ => show win0_3.index t (1 : Fin 3) * 128 + 1 * j.val = J.val; rw [e1, hJ]; omega
  | ⟨2, _⟩ => show win0_3.index t (2 : Fin 3) * 512 + 1 * k.val = k.val; rw [e2]; omega

/-- Row `j` of gate `g` in the hidden weights' block at point `t` is row 128·t + j of gate `g` in the array. -/
theorem hiddenWeights0 (c : Dev nD) (t : Fin cfg0.N) (g : Fin 4) (j : Fin 128) (k : Fin 4096) (J : Fin 4096)
    (hJ : J.val = 128 * t.val + j.val) :
    (iblk0 (F := Ideal) V c 4 t : Vec Ideal S4x128x4096 .f32) (ix3 g j k) = V c main_v6 (ix3 g J k) := by
  obtain ⟨e0, e1, e2⟩ := idx0_4 t
  unfold iblk0
  rw [View.read_apply]
  show V c main_v6 _ = V c main_v6 _
  congr 1
  funext a
  apply Fin.ext
  match a with
  | ⟨0, _⟩ => show win0_4.index t (0 : Fin 3) * 4 + 1 * g.val = g.val; rw [e0]; omega
  | ⟨1, _⟩ => show win0_4.index t (1 : Fin 3) * 128 + 1 * j.val = J.val; rw [e1, hJ]; omega
  | ⟨2, _⟩ => show win0_4.index t (2 : Fin 3) * 4096 + 1 * k.val = k.val; rw [e2]; omega

/-- Entry `j` of gate `g` in the input bias block at point `t` is entry 128·t + j of gate `g` in the table. -/
theorem inputBias0 (c : Dev nD) (t : Fin cfg0.N) (g : Fin 4) (j : Fin 128) (J : Fin 4096)
    (hJ : J.val = 128 * t.val + j.val) :
    (iblk0 (F := Ideal) V c 5 t : Vec Ideal S4x128 .f32) (ix2 g j) = V c main_v7 (ix2 g J) := by
  obtain ⟨e0, e1⟩ := idx0_5 t
  unfold iblk0
  rw [View.read_apply]
  show V c main_v7 _ = V c main_v7 _
  congr 1
  funext a
  apply Fin.ext
  match a with
  | ⟨0, _⟩ => show win0_5.index t (0 : Fin 2) * 4 + 1 * g.val = g.val; rw [e0]; omega
  | ⟨1, _⟩ => show win0_5.index t (1 : Fin 2) * 128 + 1 * j.val = J.val; rw [e1, hJ]; omega

/-- Entry `j` of gate `g` in the hidden bias block at point `t` is entry 128·t + j of gate `g` in the table. -/
theorem hiddenBias0 (c : Dev nD) (t : Fin cfg0.N) (g : Fin 4) (j : Fin 128) (J : Fin 4096)
    (hJ : J.val = 128 * t.val + j.val) :
    (iblk0 (F := Ideal) V c 6 t : Vec Ideal S4x128 .f32) (ix2 g j) = V c main_v8 (ix2 g J) := by
  obtain ⟨e0, e1⟩ := idx0_6 t
  unfold iblk0
  rw [View.read_apply]
  show V c main_v8 _ = V c main_v8 _
  congr 1
  funext a
  apply Fin.ext
  match a with
  | ⟨0, _⟩ => show win0_6.index t (0 : Fin 2) * 4 + 1 * g.val = g.val; rw [e0]; omega
  | ⟨1, _⟩ => show win0_6.index t (1 : Fin 2) * 128 + 1 * j.val = J.val; rw [e1, hJ]; omega

/-- The first cell's new hidden state, unit by unit along the row, from the arrays the region finds. -/
abbrev row0 (c : Dev nD) : S1x4096.Idx → EReal := fun i =>
  Cert.Lstm.hiddenNext (fun k => V c main_v0 (ix2 0 k)) (fun k => V c main_v2 (ix2 0 k)) (fun k => V c main_v4 (ix2 0 k))
    (fun g J k => V c main_v5 (ix3 g J k)) (fun g J k => V c main_v6 (ix3 g J k))
    (fun g J => V c main_v7 (ix2 g J)) (fun g J => V c main_v8 (ix2 g J)) (i 1)

/-- Entry `y` of what point `t` leaves in the hidden-state block is the cell's new hidden state at the unit the
    block's place in the row gives `y`: unit 128·t + y. -/
theorem written0 (c : Dev nD) (t : Fin cfg0.N) (y : S1x128.Idx) :
    out0_7 (F := Ideal) (iblk0 V c 0 t) (iblk0 V c 1 t) (iblk0 V c 2 t) (iblk0 V c 3 t) (iblk0 V c 4 t)
        (iblk0 V c 5 t) (iblk0 V c 6 t) y
      = row0 V c (((cfg0.win 7).blk t).view.emb y) := by
  obtain ⟨p, j, rfl⟩ : ∃ (p : Fin 1) (j : Fin 128), y = ix2 p j := ⟨y 0, y 1, eq_ix2 y⟩
  obtain rfl : p = 0 := Subsingleton.elim _ _
  obtain ⟨-, e1⟩ := idx0_7 t
  have hN : cfg0.N = 32 := N_0
  have ht : t.val < 32 := hN ▸ t.isLt
  rw [Tile.out0_7_apply]
  have hJ : ((((cfg0.win 7).blk t).view.emb (ix2 (0 : Fin 1) j) : S1x4096.Idx) 1).val = 128 * t.val + j.val := by
    show win0_7.index t (1 : Fin 2) * 128 + 1 * j.val = _
    rw [e1]; omega
  exact hiddenT_eq_hiddenNext _ _ _ _ _ _ _ _ _ _ _ _ _ _ j _
    (fun k => inputRow0 V c t k) (fun k => hiddenRow0 V c t k)
    (fun g k => inputWeights0 V c t g j k _ hJ) (fun g k => hiddenWeights0 V c t g j k _ hJ)
    (fun g => inputBias0 V c t g j _ hJ) (fun g => hiddenBias0 V c t g j _ hJ) (cellRow0 V c t j _ hJ)

/-- What point `t` writes back is block `t` of that row. -/
theorem writeBack0 (c : Dev nD) (t : Fin cfg0.N) :
    (dat0 (F := Ideal) V c).flushed 7 t = ((cfg0.win 7).blk t).view.read (Elt Ideal) (row0 V c) := by
  show (cfg0.win 7).cut (grid0.coords t) ((dat0 V c).after 7 t) = _
  rw [after0_7]
  funext y
  exact written0 V c t y

/-- An index of the row is in point `t`'s block iff each coordinate is in the block's range on its axis. -/
theorem mem_block0 (t : Fin cfg0.N) (i : S1x4096.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v9_0).slice (win0_7.rect t)).set ↔ _
  rw [View.set_slice_whole, Rect.mem_set_unit]
  exact Iff.rfl

/-- The 32 blocks tile the row: column `J` is in the block of point `J / 128`. -/
theorem tiled0 (i : S1x4096.Idx) :
    ∃ t : Fin cfg0.N, (cfg0.win 7).flush t = true ∧ i ∈ ((cfg0.win 7).blk t).view.set := by
  have hi0 : (i 0).val < 1 := (i 0).isLt
  have hi1 : (i 1).val < 4096 := (i 1).isLt
  have hN : cfg0.N = 32 := N_0
  obtain ⟨t, ht⟩ : ∃ t : Fin cfg0.N, t.val = (i 1).val / 128 := ⟨⟨(i 1).val / 128, by omega⟩, rfl⟩
  obtain ⟨e0, e1⟩ := idx0_7 t
  refine ⟨t, flush0_7 t, ?_⟩
  rw [mem_block0]
  intro a
  match a with
  | ⟨0, _⟩ => show win0_7.index t (0 : Fin 2) * 1 ≤ (i 0).val ∧ (i 0).val < win0_7.index t (0 : Fin 2) * 1 + 1; rw [e0]; omega
  | ⟨1, _⟩ => show win0_7.index t (1 : Fin 2) * 128 ≤ (i 1).val ∧ (i 1).val < win0_7.index t (1 : Fin 2) * 128 + 128; rw [e1]; omega

/-- The first cell's hidden-state array after its region. -/
theorem arr0_7 (c : Dev nD) :
    (dat0 (F := Ideal) V c).arrAt 7 cfg0.N = fun i : S1x4096.Idx =>
      Cert.Lstm.hiddenNext (fun k => V c main_v0 (ix2 0 k)) (fun k => V c main_v2 (ix2 0 k)) (fun k => V c main_v4 (ix2 0 k))
        (fun g J k => V c main_v5 (ix3 g J k)) (fun g J k => V c main_v6 (ix3 g J k))
        (fun g J => V c main_v7 (ix2 g J)) (fun g J => V c main_v8 (ix2 g J)) (i 1) :=
  (dat0 V c).arrAt_eq_of_cover 7 (row0 V c) (fun t _ => writeBack0 V c t) tiled0

/-! ## The second cell

  Point `t`'s block indices: the input row and the hidden row are block (0, 0) at every point; the cell-state row, the
  two bias tables and the written hidden-state row are block (0, t); the two weight arrays are block (0, t, 0). -/

theorem idx1_0 : ∀ t : Fin cfg1.N, win1_0.index t (0 : Fin 2) = 0 ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = t.val :=
  (by decide +kernel : ∀ t : Fin grid1.N, _)
theorem idx1_3 : ∀ t : Fin cfg1.N,
    win1_3.index t (0 : Fin 3) = 0 ∧ win1_3.index t (1 : Fin 3) = t.val ∧ win1_3.index t (2 : Fin 3) = 0 :=
  (by decide +kernel : ∀ t : Fin grid1.N, _)
theorem idx1_4 : ∀ t : Fin cfg1.N,
    win1_4.index t (0 : Fin 3) = 0 ∧ win1_4.index t (1 : Fin 3) = t.val ∧ win1_4.index t (2 : Fin 3) = 0 :=
  (by decide +kernel : ∀ t : Fin grid1.N, _)
theorem idx1_5 : ∀ t : Fin cfg1.N, win1_5.index t (0 : Fin 2) = 0 ∧ win1_5.index t (1 : Fin 2) = t.val :=
  (by decide +kernel : ∀ t : Fin grid1.N, _)
theorem idx1_6 : ∀ t : Fin cfg1.N, win1_6.index t (0 : Fin 2) = 0 ∧ win1_6.index t (1 : Fin 2) = t.val :=
  (by decide +kernel : ∀ t : Fin grid1.N, _)
theorem idx1_7 : ∀ t : Fin cfg1.N, win1_7.index t (0 : Fin 2) = 0 ∧ win1_7.index t (1 : Fin 2) = t.val :=
  (by decide +kernel : ∀ t : Fin grid1.N, _)

/-- The input row's block is the whole row. -/
theorem inputRow1 (c : Dev nD) (t : Fin cfg1.N) (k : Fin 4096) :
    (iblk1 (F := Ideal) V c 0 t : Vec Ideal S1x4096 .f32) (ix2 0 k) = V c main_v9_0 (ix2 0 k) := by
  obtain ⟨e0, e1⟩ := idx1_0 t
  unfold iblk1
  rw [View.read_apply]
  show V c main_v9_0 _ = V c main_v9_0 _
  congr 1
  funext a
  apply Fin.ext
  match a with
  | ⟨0, _⟩ => show win1_0.index t (0 : Fin 2) * 1 + 1 * 0 = 0; rw [e0]
  | ⟨1, _⟩ => show win1_0.index t (1 : Fin 2) * 4096 + 1 * k.val = k.val; rw [e1]; omega

/-- The hidden row's block is the whole row. -/
theorem hiddenRow1 (c : Dev nD) (t : Fin cfg1.N) (k : Fin 4096) :
    (iblk1 (F := Ideal) V c 1 t : Vec Ideal S1x4096 .f32) (ix2 0 k) = V c main_v11 (ix2 0 k) := by
  obtain ⟨e0, e1⟩ := idx1_1 t
  unfold iblk1
  rw [View.read_apply]
  show V c main_v11 _ = V c main_v11 _
  congr 1
  funext a
  apply Fin.ext
  match a with
  | ⟨0, _⟩ => show win1_1.index t (0 : Fin 2) * 1 + 1 * 0 = 0; rw [e0]
  | ⟨1, _⟩ => show win1_1.index t (1 : Fin 2) * 4096 + 1 * k.val = k.val; rw [e1]; omega

/-- Entry `j` of the cell-state block at point `t` is entry 128·t + j of the row. -/
theorem cellRow1 (c : Dev nD) (t : Fin cfg1.N) (j : Fin 128) (J : Fin 4096) (hJ : J.val = 128 * t.val + j.val) :
    (iblk1 (F := Ideal) V c 2 t : Vec Ideal S1x128 .f32) (ix2 0 j) = V c main_v13 (ix2 0 J) := by
  obtain ⟨e0, e1⟩ := idx1_2 t
  unfold iblk1
  rw [View.read_apply]
  show V c main_v13 _ = V c main_v13 _
  congr 1
  funext a
  apply Fin.ext
  match a with
  | ⟨0, _⟩ => show win1_2.index t (0 : Fin 2) * 1 + 1 * 0 = 0; rw [e0]
  | ⟨1, _⟩ => show win1_2.index t (1 : Fin 2) * 128 + 1 * j.val = J.val; rw [e1, hJ]; omega

/-- Row `j` of gate `g` in the input weights' block at point `t` is row 128·t + j of gate `g` in the array. -/
theorem inputWeights1 (c : Dev nD) (t : Fin cfg1.N) (g : Fin 4) (j : Fin 128) (k : Fin 4096) (J : Fin 4096)
    (hJ : J.val = 128 * t.val + j.val) :
    (iblk1 (F := Ideal) V c 3 t : Vec Ideal S4x128x4096 .f32) (ix3 g j k) = V c main_v14 (ix3 g J k) := by
  obtain ⟨e0, e1, e2⟩ := idx1_3 t
  unfold iblk1
  rw [View.read_apply]
  show V c main_v14 _ = V c main_v14 _
  congr 1
  funext a
  apply Fin.ext
  match a with
  | ⟨0, _⟩ => show win1_3.index t (0 : Fin 3) * 4 + 1 * g.val = g.val; rw [e0]; omega
  | ⟨1, _⟩ => show win1_3.index t (1 : Fin 3) * 128 + 1 * j.val = J.val; rw [e1, hJ]; omega
  | ⟨2, _⟩ => show win1_3.index t (2 : Fin 3) * 4096 + 1 * k.val = k.val; rw [e2]; omega

/-- Row `j` of gate `g` in the hidden weights' block at point `t` is row 128·t + j of gate `g` in the array. -/
theorem hiddenWeights1 (c : Dev nD) (t : Fin cfg1.N) (g : Fin 4) (j : Fin 128) (k : Fin 4096) (J : Fin 4096)
    (hJ : J.val = 128 * t.val + j.val) :
    (iblk1 (F := Ideal) V c 4 t : Vec Ideal S4x128x4096 .f32) (ix3 g j k) = V c main_v15 (ix3 g J k) := by
  obtain ⟨e0, e1, e2⟩ := idx1_4 t
  unfold iblk1
  rw [View.read_apply]
  show V c main_v15 _ = V c main_v15 _
  congr 1
  funext a
  apply Fin.ext
  match a with
  | ⟨0, _⟩ => show win1_4.index t (0 : Fin 3) * 4 + 1 * g.val = g.val; rw [e0]; omega
  | ⟨1, _⟩ => show win1_4.index t (1 : Fin 3) * 128 + 1 * j.val = J.val; rw [e1, hJ]; omega
  | ⟨2, _⟩ => show win1_4.index t (2 : Fin 3) * 4096 + 1 * k.val = k.val; rw [e2]; omega

/-- Entry `j` of gate `g` in the input bias block at point `t` is entry 128·t + j of gate `g` in the table. -/
theorem inputBias1 (c : Dev nD) (t : Fin cfg1.N) (g : Fin 4) (j : Fin 128) (J : Fin 4096)
    (hJ : J.val = 128 * t.val + j.val) :
    (iblk1 (F := Ideal) V c 5 t : Vec Ideal S4x128 .f32) (ix2 g j) = V c main_v16 (ix2 g J) := by
  obtain ⟨e0, e1⟩ := idx1_5 t
  unfold iblk1
  rw [View.read_apply]
  show V c main_v16 _ = V c main_v16 _
  congr 1
  funext a
  apply Fin.ext
  match a with
  | ⟨0, _⟩ => show win1_5.index t (0 : Fin 2) * 4 + 1 * g.val = g.val; rw [e0]; omega
  | ⟨1, _⟩ => show win1_5.index t (1 : Fin 2) * 128 + 1 * j.val = J.val; rw [e1, hJ]; omega

/-- Entry `j` of gate `g` in the hidden bias block at point `t` is entry 128·t + j of gate `g` in the table. -/
theorem hiddenBias1 (c : Dev nD) (t : Fin cfg1.N) (g : Fin 4) (j : Fin 128) (J : Fin 4096)
    (hJ : J.val = 128 * t.val + j.val) :
    (iblk1 (F := Ideal) V c 6 t : Vec Ideal S4x128 .f32) (ix2 g j) = V c main_v17 (ix2 g J) := by
  obtain ⟨e0, e1⟩ := idx1_6 t
  unfold iblk1
  rw [View.read_apply]
  show V c main_v17 _ = V c main_v17 _
  congr 1
  funext a
  apply Fin.ext
  match a with
  | ⟨0, _⟩ => show win1_6.index t (0 : Fin 2) * 4 + 1 * g.val = g.val; rw [e0]; omega
  | ⟨1, _⟩ => show win1_6.index t (1 : Fin 2) * 128 + 1 * j.val = J.val; rw [e1, hJ]; omega

/-- The second cell's new hidden state, unit by unit along the row, from the arrays the region finds. -/
abbrev row1 (c : Dev nD) : S1x4096.Idx → EReal := fun i =>
  Cert.Lstm.hiddenNext (fun k => V c main_v9_0 (ix2 0 k)) (fun k => V c main_v11 (ix2 0 k)) (fun k => V c main_v13 (ix2 0 k))
    (fun g J k => V c main_v14 (ix3 g J k)) (fun g J k => V c main_v15 (ix3 g J k))
    (fun g J => V c main_v16 (ix2 g J)) (fun g J => V c main_v17 (ix2 g J)) (i 1)

/-- Entry `y` of what point `t` leaves in the hidden-state block is the cell's new hidden state at the unit the
    block's place in the row gives `y`: unit 128·t + y. -/
theorem written1 (c : Dev nD) (t : Fin cfg1.N) (y : S1x128.Idx) :
    out1_7 (F := Ideal) (iblk1 V c 0 t) (iblk1 V c 1 t) (iblk1 V c 2 t) (iblk1 V c 3 t) (iblk1 V c 4 t)
        (iblk1 V c 5 t) (iblk1 V c 6 t) y
      = row1 V c (((cfg1.win 7).blk t).view.emb y) := by
  obtain ⟨p, j, rfl⟩ : ∃ (p : Fin 1) (j : Fin 128), y = ix2 p j := ⟨y 0, y 1, eq_ix2 y⟩
  obtain rfl : p = 0 := Subsingleton.elim _ _
  obtain ⟨-, e1⟩ := idx1_7 t
  have hN : cfg1.N = 32 := N_1
  have ht : t.val < 32 := hN ▸ t.isLt
  rw [Tile.out1_7_apply]
  have hJ : ((((cfg1.win 7).blk t).view.emb (ix2 (0 : Fin 1) j) : S1x4096.Idx) 1).val = 128 * t.val + j.val := by
    show win1_7.index t (1 : Fin 2) * 128 + 1 * j.val = _
    rw [e1]; omega
  exact hiddenT_eq_hiddenNext _ _ _ _ _ _ _ _ _ _ _ _ _ _ j _
    (fun k => inputRow1 V c t k) (fun k => hiddenRow1 V c t k)
    (fun g k => inputWeights1 V c t g j k _ hJ) (fun g k => hiddenWeights1 V c t g j k _ hJ)
    (fun g => inputBias1 V c t g j _ hJ) (fun g => hiddenBias1 V c t g j _ hJ) (cellRow1 V c t j _ hJ)

/-- What point `t` writes back is block `t` of that row. -/
theorem writeBack1 (c : Dev nD) (t : Fin cfg1.N) :
    (dat1 (F := Ideal) V c).flushed 7 t = ((cfg1.win 7).blk t).view.read (Elt Ideal) (row1 V c) := by
  show (cfg1.win 7).cut (grid1.coords t) ((dat1 V c).after 7 t) = _
  rw [after1_7]
  funext y
  exact written1 V c t y

/-- An index of the row is in point `t`'s block iff each coordinate is in the block's range on its axis. -/
theorem mem_block1 (t : Fin cfg1.N) (i : S1x4096.Idx) :
    i ∈ ((cfg1.win 7).blk t).view.set ↔ ∀ a : Fin 2, win1_7.index t a * S1x128.size a ≤ (i a).val ∧ (i a).val < win1_7.index t a * S1x128.size a + S1x128.size a := by
  show i ∈ ((View.whole main_v18_0).slice (win1_7.rect t)).set ↔ _
  rw [View.set_slice_whole, Rect.mem_set_unit]
  exact Iff.rfl

/-- The 32 blocks tile the row: column `J` is in the block of point `J / 128`. -/
theorem tiled1 (i : S1x4096.Idx) :
    ∃ t : Fin cfg1.N, (cfg1.win 7).flush t = true ∧ i ∈ ((cfg1.win 7).blk t).view.set := by
  have hi0 : (i 0).val < 1 := (i 0).isLt
  have hi1 : (i 1).val < 4096 := (i 1).isLt
  have hN : cfg1.N = 32 := N_1
  obtain ⟨t, ht⟩ : ∃ t : Fin cfg1.N, t.val = (i 1).val / 128 := ⟨⟨(i 1).val / 128, by omega⟩, rfl⟩
  obtain ⟨e0, e1⟩ := idx1_7 t
  refine ⟨t, flush1_7 t, ?_⟩
  rw [mem_block1]
  intro a
  match a with
  | ⟨0, _⟩ => show win1_7.index t (0 : Fin 2) * 1 ≤ (i 0).val ∧ (i 0).val < win1_7.index t (0 : Fin 2) * 1 + 1; rw [e0]; omega
  | ⟨1, _⟩ => show win1_7.index t (1 : Fin 2) * 128 ≤ (i 1).val ∧ (i 1).val < win1_7.index t (1 : Fin 2) * 128 + 128; rw [e1]; omega

/-- The second cell's hidden-state array after its region. -/
theorem arr1_7 (c : Dev nD) :
    (dat1 (F := Ideal) V c).arrAt 7 cfg1.N = fun i : S1x4096.Idx =>
      Cert.Lstm.hiddenNext (fun k => V c main_v9_0 (ix2 0 k)) (fun k => V c main_v11 (ix2 0 k)) (fun k => V c main_v13 (ix2 0 k))
        (fun g J k => V c main_v14 (ix3 g J k)) (fun g J k => V c main_v15 (ix3 g J k))
        (fun g J => V c main_v16 (ix2 g J)) (fun g J => V c main_v17 (ix2 g J)) (i 1) :=
  (dat1 V c).arrAt_eq_of_cover 7 (row1 V c) (fun t _ => writeBack1 V c t) tiled1

end Cert.KernelIdeal.Blocks

end
-- ==== Proof.Entry.lean ====
/-
  The arrays each cell's region finds, read back to the launch memory.

  Before the first region the host reshapes the input vector to a row, cuts layer 0 out of the two stacked states,
  and views each 16384-row weight matrix as 4 × 4096 rows and each 16384-long bias as 4 × 4096: entry (g, J, k) of a
  viewed matrix is entry (g · 4096 + J, k) of the argument.  Before the second region it does the same with layer 1
  and the second cell's weights; the second region's input row is the hidden-state array the first region left.

  A view keeps the row-major position of every entry, so each of these readings is one equation between row-major
  positions: (g · 4096 + J) · K + k on both sides for a matrix, g · 4096 + J for a bias, k for a row.  A cut adds its
  offset, here the layer, on the first axis.
-/
import proofs.«165172_j23545010717534_1_alg».proof.Proof.Gen.KernelIdeal.Frame
import proofs.«165172_j23545010717534_1_alg».proof.Proof.Cell
import Idealize.ShloMosaic.Lib.Pipeline.Value

set_option maxRecDepth 16384

noncomputable section

namespace Cert.KernelIdeal.Entry

open Cert.KernelIdeal Cert.KernelIdeal.Gen Cert.Lstm Idealize.ShloMosaic Idealize.ShloMosaic.TcCoe Idealize.ShloMosaic.ValueIdx

variable (m : (ℓ : Loc nD τ sig) → Buf (Elt Ideal) ℓ) (ρ : Dev nD → PrngReg)

/-! ## A view or a cut read at an index -/

/-- A matrix of 16384 rows viewed as 4 × 4096 rows: entry (g, J, k) of the view is entry (g · 4096 + J, k). -/
theorem rows_view_apply {K : ℕ} {α : Type} (x : (⟨2, ![16384, K]⟩ : Shape).Idx → α)
    (h : (⟨2, ![16384, K]⟩ : Shape).ShapeCasts ⟨3, ![4, 4096, K]⟩) (g : Fin 4) (J : Fin 4096) (k : Fin K) :
    shapeCast ⟨3, ![4, 4096, K]⟩ x h (ix3 g J k) = x (ix2 (row g J) k) := by
  refine shapeCast_apply x h _ _ ?_
  rw [Shape.rowMajor_val_two, Shape.rowMajor_val_three]
  show (row g J).val * K + k.val = (g.val * 4096 + J.val) * K + k.val
  rw [row_val]

/-- A vector of 16384 entries viewed as 4 × 4096: entry (g, J) of the view is entry g · 4096 + J. -/
theorem bias_view_apply {α : Type} (x : (⟨1, ![16384]⟩ : Shape).Idx → α)
    (h : (⟨1, ![16384]⟩ : Shape).ShapeCasts ⟨2, ![4, 4096]⟩) (g : Fin 4) (J : Fin 4096) :
    shapeCast ⟨2, ![4, 4096]⟩ x h (ix2 g J) = x (ix1 (row g J)) := by
  refine shapeCast_apply x h _ _ ?_
  rw [Shape.rowMajor_val_one, Shape.rowMajor_val_two]
  show (row g J).val = g.val * 4096 + J.val
  rw [row_val]

/-- A vector viewed as a single row: entry (0, k) of the view is entry k. -/
theorem row_view_apply {n : ℕ} {α : Type} (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) := by
  refine shapeCast_apply x h _ _ ?_
  rw [Shape.rowMajor_val_one, Shape.rowMajor_val_two]
  show k.val = 0 * n + k.val
  omega

/-- Layer `l` cut out of a pair of stacked states and viewed as a row: entry (0, k) of the row is entry (l, 0, k) of
    the pair. The cut's offset is `l` on the first axis and nothing on the other two. -/
theorem layer_view_apply {α : Type} (x : (⟨3, ![2, 1, 4096]⟩ : Shape).Idx → α) (off : Fin 3 → ℕ) (l : Fin 2)
    (hs : (⟨3, ![2, 1, 4096]⟩ : Shape).Slices off ⟨3, ![1, 1, 4096]⟩)
    (hc : (⟨3, ![1, 1, 4096]⟩ : Shape).ShapeCasts ⟨2, ![1, 4096]⟩)
    (h0 : off 0 = l.val) (h1 : off 1 = 0) (h2 : off 2 = 0) (k : Fin 4096) :
    shapeCast ⟨2, ![1, 4096]⟩ (extractStridedSlice ⟨3, ![1, 1, 4096]⟩ off x hs) hc (ix2 0 k) = x (ix3 l 0 k) := by
  refine (shapeCast_apply _ hc _ (ix3 0 0 k) ?_).trans ?_
  · rw [Shape.rowMajor_val_three, Shape.rowMajor_val_two]
    show (0 * 1 + 0) * 4096 + k.val = 0 * 4096 + k.val
    omega
  · refine extractStridedSlice_apply off x hs _ _ fun a => ?_
    match a with
    | ⟨0, _⟩ => show l.val = off 0 + 0; omega
    | ⟨1, _⟩ => show 0 = off 1 + 0; omega
    | ⟨2, _⟩ => show k.val = off 2 + k.val; omega

/-! ## What the first region finds -/

theorem first_x (c : Dev nD) (k : Fin 512) :
    V1 m ρ c main_v0 (ix2 0 k) = m ((c : Thread nD τ).loc main_arg0) (ix1 k) := by
  have e : (V1 m ρ c main_v0 : S1x512.Idx → EReal)
      = shapeCast _ (m ((c : Thread nD τ).loc main_arg0)) shapeCasts_S512_S1x512 := by
    show StableHlo.after hostOps0 _ (Proc.devRef .tc main_v0) = _
    after_results
    rfl
  rw [e]
  exact row_view_apply _ _ k
theorem first_h (c : Dev nD) (k : Fin 4096) :
    V1 m ρ c main_v2 (ix2 0 k) = m ((c : Thread nD τ).loc main_arg1) (ix3 0 0 k) := by
  have e : (V1 m ρ c main_v2 : S1x4096.Idx → EReal)
      = shapeCast _ (extractStridedSlice S1x1x4096 ![0, 0, 0] (m ((c : Thread nD τ).loc main_arg1))
          slices_S2x1x4096_S1x1x4096_0_0_0) shapeCasts_S1x1x4096_S1x4096 := by
    show StableHlo.after hostOps0 _ (Proc.devRef .tc main_v2) = _
    after_results
    rfl
  rw [e]
  exact layer_view_apply _ _ 0 _ _ rfl rfl rfl k
theorem first_c (c : Dev nD) (k : Fin 4096) :
    V1 m ρ c main_v4 (ix2 0 k) = m ((c : Thread nD τ).loc main_arg2) (ix3 0 0 k) := by
  have e : (V1 m ρ c main_v4 : S1x4096.Idx → EReal)
      = shapeCast _ (extractStridedSlice S1x1x4096 ![0, 0, 0] (m ((c : Thread nD τ).loc main_arg2))
          slices_S2x1x4096_S1x1x4096_0_0_0) shapeCasts_S1x1x4096_S1x4096 := by
    show StableHlo.after hostOps0 _ (Proc.devRef .tc main_v4) = _
    after_results
    rfl
  rw [e]
  exact layer_view_apply _ _ 0 _ _ rfl rfl rfl k
theorem first_wih (c : Dev nD) (g : Fin 4) (J : Fin 4096) (k : Fin 512) :
    V1 m ρ c main_v5 (ix3 g J k) = m ((c : Thread nD τ).loc main_arg3) (ix2 (row g J) k) := by
  have e : (V1 m ρ c main_v5 : S4x4096x512.Idx → EReal)
      = shapeCast _ (m ((c : Thread nD τ).loc main_arg3)) shapeCasts_S16384x512_S4x4096x512 := by
    show StableHlo.after hostOps0 _ (Proc.devRef .tc main_v5) = _
    after_results
    rfl
  rw [e]
  exact rows_view_apply _ _ g J k
theorem first_whh (c : Dev nD) (g : Fin 4) (J : Fin 4096) (k : Fin 4096) :
    V1 m ρ c main_v6 (ix3 g J k) = m ((c : Thread nD τ).loc main_arg4) (ix2 (row g J) k) := by
  have e : (V1 m ρ c main_v6 : S4x4096x4096.Idx → EReal)
      = shapeCast _ (m ((c : Thread nD τ).loc main_arg4)) shapeCasts_S16384x4096_S4x4096x4096 := by
    show StableHlo.after hostOps0 _ (Proc.devRef .tc main_v6) = _
    after_results
    rfl
  rw [e]
  exact rows_view_apply _ _ g J k
theorem first_bih (c : Dev nD) (g : Fin 4) (J : Fin 4096) :
    V1 m ρ c main_v7 (ix2 g J) = m ((c : Thread nD τ).loc main_arg5) (ix1 (row g J)) := by
  have e : (V1 m ρ c main_v7 : S4x4096.Idx → EReal)
      = shapeCast _ (m ((c : Thread nD τ).loc main_arg5)) shapeCasts_S16384_S4x4096 := by
    show StableHlo.after hostOps0 _ (Proc.devRef .tc main_v7) = _
    after_results
    rfl
  rw [e]
  exact bias_view_apply _ _ g J
theorem first_bhh (c : Dev nD) (g : Fin 4) (J : Fin 4096) :
    V1 m ρ c main_v8 (ix2 g J) = m ((c : Thread nD τ).loc main_arg6) (ix1 (row g J)) := by
  have e : (V1 m ρ c main_v8 : S4x4096.Idx → EReal)
      = shapeCast _ (m ((c : Thread nD τ).loc main_arg6)) shapeCasts_S16384_S4x4096 := by
    show StableHlo.after hostOps0 _ (Proc.devRef .tc main_v8) = _
    after_results
    rfl
  rw [e]
  exact bias_view_apply _ _ g J

/-! ## An argument is never written

No host operation writes an argument array and no window of the first region names one, so at every stretch an
argument still holds the launch memory. -/

/-- The arrays the first host stretch writes. -/
abbrev written0 : List (Ref sig .tc) :=
  [main_v0, main_v1, main_v2, main_v3, main_v4, main_v5, main_v6, main_v7, main_v8]

theorem hostOps0_writes : (hostOps0 : List (HloOp τ sig (Elt Ideal))).Forall fun op =>
    op.writes ⊆ (written0.map (Proc.devRef (τ := τ) .tc)).toFinset := by
  simp only [List.Forall, StableHlo.unary_writes, StableHlo.reshape_writes, Finset.singleton_subset_iff,
    List.mem_toFinset]
  repeat' apply And.intro
  all_goals exact List.mem_map_of_mem (by decide)

/-- An array outside that list, named by no window of the first region, holds at the start of the second stretch what
    the launch memory held. -/
theorem arg_second (c : Dev nD) (b : Ref sig .tc) (h0 : b ∉ written0) (hw : ∀ w, Pipeline.arrRef spec0 w ≠ b) :
    W2 m ρ c (Proc.devRef .tc b) = m ((c : Thread nD τ).loc b) :=
  (W2_of_ne m ρ c b hw).trans (StableHlo.after_of_writes_sub hostOps0 _ hostOps0_writes h0)

/-- The arrays the second host stretch writes. -/
abbrev written1 : List (Ref sig .tc) :=
  [main_v10, main_v11, main_v12, main_v13, main_v14, main_v15, main_v16, main_v17]

theorem hostOps1_writes : (hostOps1 : List (HloOp τ sig (Elt Ideal))).Forall fun op =>
    op.writes ⊆ (written1.map (Proc.devRef (τ := τ) .tc)).toFinset := by
  simp only [List.Forall, StableHlo.unary_writes, StableHlo.reshape_writes, Finset.singleton_subset_iff,
    List.mem_toFinset]
  repeat' apply And.intro
  all_goals exact List.mem_map_of_mem (by decide)

/-! ## What the second region finds -/

/-- Its input row is the hidden-state array the first region left: the second host stretch does not write that array,
    and it is the first region's window 7. -/
theorem second_x (c : Dev nD) :
    V3 m ρ c main_v9_0 = (dat0 (F := Ideal) (V1 m ρ) c).arrAt 7 cfg0.N := by
  refine Eq.trans ?_ (W2_arr m ρ c 7)
  show V3 m ρ c main_v9_0 = W2 m ρ c (Proc.devRef .tc main_v9_0)
  exact StableHlo.after_of_writes_sub hostOps1 _ hostOps1_writes (by decide)
theorem second_h (c : Dev nD) (k : Fin 4096) :
    V3 m ρ c main_v11 (ix2 0 k) = m ((c : Thread nD τ).loc main_arg1) (ix3 1 0 k) := by
  have e : (V3 m ρ c main_v11 : S1x4096.Idx → EReal)
      = shapeCast _ (extractStridedSlice S1x1x4096 ![1, 0, 0] (m ((c : Thread nD τ).loc main_arg1))
          slices_S2x1x4096_S1x1x4096_1_0_0) shapeCasts_S1x1x4096_S1x4096 := by
    show StableHlo.after hostOps1 _ (Proc.devRef .tc main_v11) = _
    after_results
    rw [arg_second m ρ c main_arg1 (by decide) (by decide)]
    rfl
  rw [e]
  exact layer_view_apply _ _ 1 _ _ rfl rfl rfl k
theorem second_c (c : Dev nD) (k : Fin 4096) :
    V3 m ρ c main_v13 (ix2 0 k) = m ((c : Thread nD τ).loc main_arg2) (ix3 1 0 k) := by
  have e : (V3 m ρ c main_v13 : S1x4096.Idx → EReal)
      = shapeCast _ (extractStridedSlice S1x1x4096 ![1, 0, 0] (m ((c : Thread nD τ).loc main_arg2))
          slices_S2x1x4096_S1x1x4096_1_0_0) shapeCasts_S1x1x4096_S1x4096 := by
    show StableHlo.after hostOps1 _ (Proc.devRef .tc main_v13) = _
    after_results
    rw [arg_second m ρ c main_arg2 (by decide) (by decide)]
    rfl
  rw [e]
  exact layer_view_apply _ _ 1 _ _ rfl rfl rfl k
theorem second_wih (c : Dev nD) (g : Fin 4) (J : Fin 4096) (k : Fin 4096) :
    V3 m ρ c main_v14 (ix3 g J k) = m ((c : Thread nD τ).loc main_arg7) (ix2 (row g J) k) := by
  have e : (V3 m ρ c main_v14 : S4x4096x4096.Idx → EReal)
      = shapeCast _ (m ((c : Thread nD τ).loc main_arg7)) shapeCasts_S16384x4096_S4x4096x4096 := by
    show StableHlo.after hostOps1 _ (Proc.devRef .tc main_v14) = _
    after_results
    rw [arg_second m ρ c main_arg7 (by decide) (by decide)]
    rfl
  rw [e]
  exact rows_view_apply _ _ g J k
theorem second_whh (c : Dev nD) (g : Fin 4) (J : Fin 4096) (k : Fin 4096) :
    V3 m ρ c main_v15 (ix3 g J k) = m ((c : Thread nD τ).loc main_arg8) (ix2 (row g J) k) := by
  have e : (V3 m ρ c main_v15 : S4x4096x4096.Idx → EReal)
      = shapeCast _ (m ((c : Thread nD τ).loc main_arg8)) shapeCasts_S16384x4096_S4x4096x4096 := by
    show StableHlo.after hostOps1 _ (Proc.devRef .tc main_v15) = _
    after_results
    rw [arg_second m ρ c main_arg8 (by decide) (by decide)]
    rfl
  rw [e]
  exact rows_view_apply _ _ g J k
theorem second_bih (c : Dev nD) (g : Fin 4) (J : Fin 4096) :
    V3 m ρ c main_v16 (ix2 g J) = m ((c : Thread nD τ).loc main_arg9) (ix1 (row g J)) := by
  have e : (V3 m ρ c main_v16 : S4x4096.Idx → EReal)
      = shapeCast _ (m ((c : Thread nD τ).loc main_arg9)) shapeCasts_S16384_S4x4096 := by
    show StableHlo.after hostOps1 _ (Proc.devRef .tc main_v16) = _
    after_results
    rw [arg_second m ρ c main_arg9 (by decide) (by decide)]
    rfl
  rw [e]
  exact bias_view_apply _ _ g J
theorem second_bhh (c : Dev nD) (g : Fin 4) (J : Fin 4096) :
    V3 m ρ c main_v17 (ix2 g J) = m ((c : Thread nD τ).loc main_arg10) (ix1 (row g J)) := by
  have e : (V3 m ρ c main_v17 : S4x4096.Idx → EReal)
      = shapeCast _ (m ((c : Thread nD τ).loc main_arg10)) shapeCasts_S16384_S4x4096 := by
    show StableHlo.after hostOps1 _ (Proc.devRef .tc main_v17) = _
    after_results
    rw [arg_second m ρ c main_arg10 (by decide) (by decide)]
    rfl
  rw [e]
  exact bias_view_apply _ _ g J

end Cert.KernelIdeal.Entry

end
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.Head.lean ====
/-
  The network's two read-outs, from the hidden-state array the second region left.

  After the second region the host contracts that row with each of two weight rows (transposed to columns), adds the
  matching one-entry bias, and passes the second sum through σ spelled as 1 / (1 + e⁻ˣ).  A host product at the exact
  instance is the plain sum over the contracted axis, so each result is an affine read-out of the hidden state.
-/
import proofs.«165172_j23545010717534_1_alg».proof.Proof.Gen.KernelIdeal.Frame
import proofs.«165172_j23545010717534_1_alg».proof.Proof.Cell
import proofs.«165172_j23545010717534_1_alg».proof.Proof.LibPlainProduct
import Idealize.ShloMosaic.Lib.Pipeline.Value

set_option maxRecDepth 16384

noncomputable section

open scoped BigOperators

namespace Cert.KernelIdeal.Head

open Cert.KernelIdeal Cert.KernelIdeal.Gen Cert.Lstm Idealize.ShloMosaic Idealize.ShloMosaic.TcCoe Idealize.ShloMosaic.ValueIdx

variable (m : (ℓ : Loc nD τ sig) → Buf (Elt Ideal) ℓ) (ρ : Dev nD → PrngReg)

/-- After the second region its hidden-state array holds what the pipeline left there. -/
theorem hidden_after (c : Dev nD) :
    W4 m ρ c (Proc.devRef .tc main_v18_0) = (dat1 (F := Ideal) (V3 m ρ) c).arrAt 7 cfg1.N :=
  W4_arr m ρ c 7

/-! ## The read-outs' weights and biases are as launched when the last host operations start

No host operation before them and neither region writes an argument array. -/

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg11) := rfl

theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg12) := rfl

theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg13) := rfl

theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg14) := rfl

/-! ## The closing operations read at the one entry of a 1 × 1 result -/

/-- Both extents are 1, so the result has the one index (0, 0). -/
theorem idx_eq (i : S1x1.Idx) : i = ix2 0 0 := by
  funext a
  match a with
  | ⟨0, _⟩ => exact Fin.ext (by have := idx2_lt0 i; show (i 0).val = 0; omega)
  | ⟨1, _⟩ => exact Fin.ext (by have := idx2_lt1 i; show (i 1).val = 0; omega)

/-- The printed dimension numbers are those of a plain 1 × 4096 by 4096 × 1 product. -/
theorem dot_eq : dot_S1x4096_S4096x1_S1x1_1_0_0_1_n_n = DotDims.plain 1 4096 1 := rfl

/-- The product of a row with a transposed row: the sum over k of h (0, k) · w (0, k). -/
theorem product_apply (h w : FVec Ideal S1x4096 .f32) (i : S1x1.Idx) :
    Host.dotGeneral dot_S1x4096_S4096x1_S1x1_1_0_0_1_n_n none h (transpose S4096x1 [1, 0] w transposes_S1x4096_S4096x1_1_0) i
      = ∑ k : Fin 4096, h (ix2 0 k) * w (ix2 0 k) := by
  rw [idx_eq i]
  show FloatOps.dotGeneral (DotDims.plain 1 4096 1) none .single h _ (ix2 0 0) = _
  rw [Cert.LibPlainProduct.dotGeneral_plain_apply]
  refine Finset.sum_congr rfl fun k _ => ?_
  rw [transpose_apply [1, 0] w transposes_S1x4096_S4096x1_1_0 (ix2 k 0) (ix2 0 k) (fun b => match b with
    | ⟨0, _⟩ => rfl
    | ⟨1, _⟩ => rfl)]

/-- A one-entry bias broadcast to 1 × 1 is that entry. -/
theorem bias_apply (b : FVec Ideal S1 .f32) (i : S1x1.Idx) :
    broadcastInDim S1x1 ![1] bcast_S1_S1x1_1 b i = b (ix1 0) :=
  broadcastInDim_apply _ bcast_S1_S1x1_1 b i (ix1 0) (fun a => match a with
    | ⟨0, _⟩ => by show 0 = if (1 : Nat) = 1 then 0 else (i 1).val; rw [if_pos rfl])

/-- Product plus bias at the one entry is the affine read-out. -/
theorem affine_apply (h w : FVec Ideal S1x4096 .f32) (b : FVec Ideal S1 .f32) (i : S1x1.Idx) :
    addf (Host.dotGeneral dot_S1x4096_S4096x1_S1x1_1_0_0_1_n_n none h (transpose S4096x1 [1, 0] w transposes_S1x4096_S4096x1_1_0))
        (broadcastInDim S1x1 ![1] bcast_S1_S1x1_1 b) i
      = readout (fun k => h (ix2 0 k)) (fun k => w (ix2 0 k)) (b (ix1 0)) := by
  show Host.dotGeneral dot_S1x4096_S4096x1_S1x1_1_0_0_1_n_n none h (transpose S4096x1 [1, 0] w transposes_S1x4096_S4096x1_1_0) i
      + broadcastInDim S1x1 ![1] bcast_S1_S1x1_1 b i = _
  rw [product_apply, bias_apply]
  rfl

/-- The linear result. -/
theorem linear (c : Dev nD) :
    W5 m ρ c (Proc.devRef .tc main_v22) = fun _ =>
      readout (fun k => W4 m ρ c (Proc.devRef .tc main_v18_0) (ix2 0 k))
        (fun k => m ((c : Thread nD τ).loc main_arg11) (ix2 0 k)) (m ((c : Thread nD τ).loc main_arg12) (ix1 0)) := by
  show StableHlo.after hostOps2 (W4 m ρ c) (Proc.devRef .tc main_v22) = _
  after_results
  rw [W4_main_arg11, W4_main_arg12]
  funext i
  exact affine_apply _ _ _ i

/-! ## σ spelled with a quotient -/

/-- The word 0x3F800000 is the float 1. -/
theorem ofBits_one : Ideal.ofBits .f32 0x3F800000#32 = 1 := by
  simp [Ideal.ofBits, Ideal.ieee, -EReal.coe_mul]; norm_num

/-- The constant 1 broadcast to 1 × 1. -/
theorem one_apply (i : S1x1.Idx) :
    broadcastInDim S1x1 ![] bcast_S_S1x1 (constant (F := Ideal) S_ .f32 0x3F800000#32) i = 1 :=
  (broadcastInDim_apply _ bcast_S_S1x1 (constant (F := Ideal) S_ .f32 0x3F800000#32) i ix0 (fun a => a.elim0)).trans ofBits_one

/-- 1 / (1 + e⁻ˣ) entry by entry is σ. -/
theorem sigma_apply (x : FVec Ideal S1x1 .f32) (i : S1x1.Idx) :
    Host.divf (broadcastInDim S1x1 ![] bcast_S_S1x1 (constant (F := Ideal) S_ .f32 0x3F800000#32))
        (addf (broadcastInDim S1x1 ![] bcast_S_S1x1 (constant (F := Ideal) S_ .f32 0x3F800000#32)) (Host.exp (Host.negf x))) i
      = Ideal.logistic (x i) := by
  show Ideal.div (broadcastInDim S1x1 ![] bcast_S_S1x1 (constant (F := Ideal) S_ .f32 0x3F800000#32) i)
      (broadcastInDim S1x1 ![] bcast_S_S1x1 (constant (F := Ideal) S_ .f32 0x3F800000#32) i + Ideal.exp (-(x i))) = _
  rw [one_apply]
  exact logistic_spelled (x i)

/-- The squashed result. -/
theorem squashed (c : Dev nD) :
    W5 m ρ c (Proc.devRef .tc main_v32) = fun _ =>
      Ideal.logistic (readout (fun k => W4 m ρ c (Proc.devRef .tc main_v18_0) (ix2 0 k))
        (fun k => m ((c : Thread nD τ).loc main_arg13) (ix2 0 k)) (m ((c : Thread nD τ).loc main_arg14) (ix1 0))) := by
  show StableHlo.after hostOps2 (W4 m ρ c) (Proc.devRef .tc main_v32) = _
  after_results
  rw [W4_main_arg13, W4_main_arg14]
  funext i
  refine (sigma_apply _ i).trans ?_
  exact congrArg Ideal.logistic (affine_apply _ _ _ i)

end Cert.KernelIdeal.Head

end
-- ==== Proof.KernelValue.lean ====
/-
  The kernel program's two results as the network function of the launch arrays.

  The first region leaves the first cell's new hidden state in its hidden-state array, computed from what the host
  laid out before it; the second region reads that array as its input row and leaves the second cell's new hidden
  state; the host's closing operations read the two results off it.  Each array a region finds is an argument read
  through a reshape or a cut, so the whole is the stacked network of the fifteen arguments.
-/
import proofs.«165172_j23545010717534_1_alg».proof.Proof.Results
import proofs.«165172_j23545010717534_1_alg».proof.Proof.Blocks
import proofs.«165172_j23545010717534_1_alg».proof.Proof.Entry
import proofs.«165172_j23545010717534_1_alg».proof.Proof.Head

set_option maxRecDepth 16384

noncomputable section

open scoped BigOperators

namespace Cert.KernelIdeal.Val

open Cert.KernelIdeal Cert.KernelIdeal.Gen Cert.Lstm Idealize.ShloMosaic Idealize.ShloMosaic.TcCoe Idealize.ShloMosaic.ValueIdx

variable (m : (ℓ : Loc nD τ sig) → Buf (Elt Ideal) ℓ) (ρ : Dev nD → PrngReg)

/-- The first cell's new hidden state, as a function of the unit, from the arrays the first region finds: each of
    them is an argument read through a reshape or a cut. -/
theorem hidden1_fn (c : Dev nD) :
    hiddenNext (fun k => V1 m ρ c main_v0 (ix2 0 k)) (fun k => V1 m ρ c main_v2 (ix2 0 k)) (fun k => V1 m ρ c main_v4 (ix2 0 k))
        (fun g J k => V1 m ρ c main_v5 (ix3 g J k)) (fun g J k => V1 m ρ c main_v6 (ix3 g J k))
        (fun g J => V1 m ρ c main_v7 (ix2 g J)) (fun g J => V1 m ρ c main_v8 (ix2 g J))
      = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have hx : (fun k => V1 m ρ c main_v0 (ix2 0 k)) = fun k => m ((c : Thread nD τ).loc main_arg0) (ix1 k) :=
    funext fun k => Entry.first_x m ρ c k
  have hh : (fun k => V1 m ρ c main_v2 (ix2 0 k)) = layer (m ((c : Thread nD τ).loc main_arg1)) 0 :=
    funext fun k => Entry.first_h m ρ c k
  have hc : (fun k => V1 m ρ c main_v4 (ix2 0 k)) = layer (m ((c : Thread nD τ).loc main_arg2)) 0 :=
    funext fun k => Entry.first_c m ρ c k
  have hwih : (fun g J k => V1 m ρ c main_v5 (ix3 g J k)) = byGate (m ((c : Thread nD τ).loc main_arg3)) :=
    funext fun g => funext fun J => funext fun k => Entry.first_wih m ρ c g J k
  have hwhh : (fun g J k => V1 m ρ c main_v6 (ix3 g J k)) = byGate (m ((c : Thread nD τ).loc main_arg4)) :=
    funext fun g => funext fun J => funext fun k => Entry.first_whh m ρ c g J k
  have hbih : (fun g J => V1 m ρ c main_v7 (ix2 g J)) = biasByGate (m ((c : Thread nD τ).loc main_arg5)) :=
    funext fun g => funext fun J => Entry.first_bih m ρ c g J
  have hbhh : (fun g J => V1 m ρ c main_v8 (ix2 g J)) = biasByGate (m ((c : Thread nD τ).loc main_arg6)) :=
    funext fun g => funext fun J => Entry.first_bhh m ρ c g J
  rw [hx, hh, hc, hwih, hwhh, hbih, hbhh]
  rfl

/-- After the first region its hidden-state array holds the first cell's new hidden state. -/
theorem hidden1_eq (c : Dev nD) :
    (dat0 (F := Ideal) (V1 m ρ) c).arrAt 7 cfg0.N = fun i : S1x4096.Idx =>
      hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 1) := by
  rw [Blocks.arr0_7]
  funext i
  exact congrFun (hidden1_fn m ρ c) (i 1)

/-- The second cell's new hidden state from the arrays the second region finds: its input row is the array the
    first region left. -/
theorem hidden2_fn (c : Dev nD) :
    hiddenNext (fun k => V3 m ρ c main_v9_0 (ix2 0 k)) (fun k => V3 m ρ c main_v11 (ix2 0 k)) (fun k => V3 m ρ c main_v13 (ix2 0 k))
        (fun g J k => V3 m ρ c main_v14 (ix3 g J k)) (fun g J k => V3 m ρ c main_v15 (ix3 g J k))
        (fun g J => V3 m ρ c main_v16 (ix2 g J)) (fun g J => V3 m ρ c main_v17 (ix2 g J))
      = hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have hx : (fun k => V3 m ρ c main_v9_0 (ix2 0 k)) = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
    funext k
    rw [Entry.second_x, hidden1_eq]
  have hh : (fun k => V3 m ρ c main_v11 (ix2 0 k)) = layer (m ((c : Thread nD τ).loc main_arg1)) 1 :=
    funext fun k => Entry.second_h m ρ c k
  have hc : (fun k => V3 m ρ c main_v13 (ix2 0 k)) = layer (m ((c : Thread nD τ).loc main_arg2)) 1 :=
    funext fun k => Entry.second_c m ρ c k
  have hwih : (fun g J k => V3 m ρ c main_v14 (ix3 g J k)) = byGate (m ((c : Thread nD τ).loc main_arg7)) :=
    funext fun g => funext fun J => funext fun k => Entry.second_wih m ρ c g J k
  have hwhh : (fun g J k => V3 m ρ c main_v15 (ix3 g J k)) = byGate (m ((c : Thread nD τ).loc main_arg8)) :=
    funext fun g => funext fun J => funext fun k => Entry.second_whh m ρ c g J k
  have hbih : (fun g J => V3 m ρ c main_v16 (ix2 g J)) = biasByGate (m ((c : Thread nD τ).loc main_arg9)) :=
    funext fun g => funext fun J => Entry.second_bih m ρ c g J
  have hbhh : (fun g J => V3 m ρ c main_v17 (ix2 g J)) = biasByGate (m ((c : Thread nD τ).loc main_arg10)) :=
    funext fun g => funext fun J => Entry.second_bhh m ρ c g J
  rw [hx, hh, hc, hwih, hwhh, hbih, hbhh]
  rfl

/-- After the second region its hidden-state array holds the second cell's new hidden state. -/
theorem hidden2_eq (c : Dev nD) :
    (dat1 (F := Ideal) (V3 m ρ) c).arrAt 7 cfg1.N = fun i : S1x4096.Idx =>
      hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 1) := by
  rw [Blocks.arr1_7]
  funext i
  exact congrFun (hidden2_fn m ρ c) (i 1)

/-- The row the closing operations read is the second cell's new hidden state. -/
theorem hidden_row (c : Dev nD) :
    (fun k => W4 m ρ c (Proc.devRef .tc main_v18_0) (ix2 0 k)) = hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext k
  rw [Head.hidden_after, hidden2_eq]

/-- The linear result. -/
theorem linear_eq (c : Dev nD) :
    W5 m ρ c (Proc.devRef .tc main_v22) = fun _ => linearOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [Head.linear, hidden_row]
  rfl

/-- The squashed result. -/
theorem squashed_eq (c : Dev nD) :
    W5 m ρ c (Proc.devRef .tc main_v32) = fun _ => squashedOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) := by
  rw [Head.squashed, hidden_row]
  rfl

end Cert.KernelIdeal.Val

end
-- ==== Proof.RefCell1.lean ====
/-
  The reference's first cell, read stage by stage.

  The reference multiplies the input row by the transposed 16384 × 512 matrix and the previous hidden row by the
  transposed 16384 × 4096 matrix, adds the biases in the order product, bias, product, bias, cuts the 16384-long
  row into the four gates at 0, 4096, 8192 and 12288, and applies σ (as 1 / (1 + e⁻ˣ)) and tanh.  Entry `J` of its new
  hidden row is the cell's new hidden state at unit `J`: entry (k, g · 4096 + J) of a transposed matrix is entry
  (g · 4096 + J, k) of the matrix, and the four summands regroup freely on the extended reals.
-/
import proofs.«165172_j23545010717534_1_alg».proof.Proof.Gen.ReferenceIdeal.Read
import proofs.«165172_j23545010717534_1_alg».proof.Proof.Cell

set_option maxRecDepth 16384

noncomputable section

open scoped BigOperators

namespace Cert.ReferenceIdeal.Cell1

open Cert.ReferenceIdeal Cert.ReferenceIdeal.Gen Cert.ReferenceIdeal.Read Cert.Lstm Idealize.ShloMosaic Idealize.ShloMosaic.TcCoe Idealize.ShloMosaic.ValueIdx

/-! ## The operands of the two products and the two biases, read at an index -/

/-- The word 0x3F800000 is the real number one. -/
theorem one_word : Ideal.ofBits .f32 0x3F800000#32 = 1 := by
  simp [Ideal.ofBits, Ideal.ieee, -EReal.coe_mul]; norm_num

/-- Entry (0, k) of the input reshaped to a row is entry k of the input. -/
theorem input_row (a0 : (⟨S512, .f32⟩ : BufTy).Contents (Elt Ideal)) (r : Fin 16384) (k : Fin 512) :
    val_main_v0 (F := Ideal) a0 (lidx_main_v6 (ix2 0 r) k) = a0 (ix1 k) := by
  rw [val_main_v0_apply]
  congr 1
  funext a
  match a with
  | ⟨0, _⟩ => exact Fin.ext (by show 0 * 512 + k.val = k.val; omega)

/-- Entry (k, r) of the transposed input weights is entry (r, k) of the weights. -/
theorem wih_transposed (a3 : (⟨S16384x512, .f32⟩ : BufTy).Contents (Elt Ideal)) (r : Fin 16384) (k : Fin 512) :
    val_main_v5 (F := Ideal) a3 (ridx_main_v6 (ix2 0 r) k) = a3 (ix2 r k) := by
  rw [val_main_v5_apply]
  congr 1
  funext a
  match a with
  | ⟨0, _⟩ => rfl
  | ⟨1, _⟩ => rfl

/-- Entry (0, k) of layer 0 of the hidden states, as a row, is entry (0, 0, k) of the states. -/
theorem hidden_row (a1 : (⟨S2x1x4096, .f32⟩ : BufTy).Contents (Elt Ideal)) (r : Fin 16384) (k : Fin 4096) :
    val_main_v2 (F := Ideal) a1 (lidx_main_v10 (ix2 0 r) k) = layer a1 0 k := by
  rw [val_main_v2_apply, val_main_v1_apply]
  unfold layer
  congr 1
  funext a
  match a with
  | ⟨0, _⟩ => rfl
  | ⟨1, _⟩ => rfl
  | ⟨2, _⟩ => exact Fin.ext (by show (0 * 4096 + k.val) % 4096 = k.val; omega)

/-- Entry (k, r) of the transposed hidden weights is entry (r, k) of the weights. -/
theorem whh_transposed (a4 : (⟨S16384x4096, .f32⟩ : BufTy).Contents (Elt Ideal)) (r : Fin 16384) (k : Fin 4096) :
    val_main_v9 (F := Ideal) a4 (ridx_main_v10 (ix2 0 r) k) = a4 (ix2 r k) := by
  rw [val_main_v9_apply]
  congr 1
  funext a
  match a with
  | ⟨0, _⟩ => rfl
  | ⟨1, _⟩ => rfl

/-- Entry (0, r) of the first bias broadcast to a row is entry r of the bias. -/
theorem bih_row (a5 : (⟨S16384, .f32⟩ : BufTy).Contents (Elt Ideal)) (r : Fin 16384) :
    val_main_v7 (F := Ideal) a5 (ix2 0 r) = a5 (ix1 r) := by
  rw [val_main_v7_apply]
  congr 1
  funext a
  match a with
  | ⟨0, _⟩ => rfl

/-- Entry (0, r) of the second bias broadcast to a row is entry r of the bias. -/
theorem bhh_row (a6 : (⟨S16384, .f32⟩ : BufTy).Contents (Elt Ideal)) (r : Fin 16384) :
    val_main_v12 (F := Ideal) a6 (ix2 0 r) = a6 (ix1 r) := by
  rw [val_main_v12_apply]
  congr 1
  funext a
  match a with
  | ⟨0, _⟩ => rfl

/-! ## The row of pre-activations -/

/-- Entry (0, g · 4096 + J) of the reference's row of pre-activations is the pre-activation of gate `g` at unit `J`:
    the reference adds product, bias, product, bias from left to right. -/
theorem preact_eq (a0 : (⟨S512, .f32⟩ : BufTy).Contents (Elt Ideal)) (a1 : (⟨S2x1x4096, .f32⟩ : BufTy).Contents (Elt Ideal)) (a3 : (⟨S16384x512, .f32⟩ : BufTy).Contents (Elt Ideal)) (a4 : (⟨S16384x4096, .f32⟩ : BufTy).Contents (Elt Ideal)) (a5 a6 : (⟨S16384, .f32⟩ : BufTy).Contents (Elt Ideal)) (g : Fin 4) (J : Fin 4096) :
    val_main_v13 (F := Ideal) a0 a1 a3 a4 a5 a6 (ix2 0 (row g J))
      = gate (fun k => a0 (ix1 k)) (layer a1 0) (byGate a3) (byGate a4) (biasByGate a5) (biasByGate a6) g J := by
  rw [← gate_eq_leftToRight, val_main_v13_apply, val_main_v11_apply, val_main_v8_apply, val_main_v6_apply,
    val_main_v10_apply, bih_row, bhh_row]
  simp only [input_row, wih_transposed, hidden_row, whh_transposed, Ideal.addf_def]
  rfl

/-! ## The four gates are the four quarters of that row -/

theorem gate0_eq (a0 : (⟨S512, .f32⟩ : BufTy).Contents (Elt Ideal)) (a1 : (⟨S2x1x4096, .f32⟩ : BufTy).Contents (Elt Ideal)) (a3 : (⟨S16384x512, .f32⟩ : BufTy).Contents (Elt Ideal)) (a4 : (⟨S16384x4096, .f32⟩ : BufTy).Contents (Elt Ideal)) (a5 a6 : (⟨S16384, .f32⟩ : BufTy).Contents (Elt Ideal)) (J : Fin 4096) :
    val_main_v14 (F := Ideal) a0 a1 a3 a4 a5 a6 (ix2 0 J)
      = gate (fun k => a0 (ix1 k)) (layer a1 0) (byGate a3) (byGate a4) (biasByGate a5) (biasByGate a6) 0 J := by
  rw [← preact_eq, val_main_v14_apply]
  congr 1
  funext a
  match a with
  | ⟨0, _⟩ => rfl
  | ⟨1, _⟩ => exact Fin.ext (by show J.val = 0 * 4096 + J.val; omega)

theorem gate1_eq (a0 : (⟨S512, .f32⟩ : BufTy).Contents (Elt Ideal)) (a1 : (⟨S2x1x4096, .f32⟩ : BufTy).Contents (Elt Ideal)) (a3 : (⟨S16384x512, .f32⟩ : BufTy).Contents (Elt Ideal)) (a4 : (⟨S16384x4096, .f32⟩ : BufTy).Contents (Elt Ideal)) (a5 a6 : (⟨S16384, .f32⟩ : BufTy).Contents (Elt Ideal)) (J : Fin 4096) :
    val_main_v15 (F := Ideal) a0 a1 a3 a4 a5 a6 (ix2 0 J)
      = gate (fun k => a0 (ix1 k)) (layer a1 0) (byGate a3) (byGate a4) (biasByGate a5) (biasByGate a6) 1 J := by
  rw [← preact_eq, val_main_v15_apply]
  congr 1
  funext a
  match a with
  | ⟨0, _⟩ => rfl
  | ⟨1, _⟩ => exact Fin.ext (by show 4096 + J.val = 1 * 4096 + J.val; omega)

theorem gate2_eq (a0 : (⟨S512, .f32⟩ : BufTy).Contents (Elt Ideal)) (a1 : (⟨S2x1x4096, .f32⟩ : BufTy).Contents (Elt Ideal)) (a3 : (⟨S16384x512, .f32⟩ : BufTy).Contents (Elt Ideal)) (a4 : (⟨S16384x4096, .f32⟩ : BufTy).Contents (Elt Ideal)) (a5 a6 : (⟨S16384, .f32⟩ : BufTy).Contents (Elt Ideal)) (J : Fin 4096) :
    val_main_v16 (F := Ideal) a0 a1 a3 a4 a5 a6 (ix2 0 J)
      = gate (fun k => a0 (ix1 k)) (layer a1 0) (byGate a3) (byGate a4) (biasByGate a5) (biasByGate a6) 2 J := by
  rw [← preact_eq, val_main_v16_apply]
  congr 1
  funext a
  match a with
  | ⟨0, _⟩ => rfl
  | ⟨1, _⟩ => exact Fin.ext (by show 8192 + J.val = 2 * 4096 + J.val; omega)

theorem gate3_eq (a0 : (⟨S512, .f32⟩ : BufTy).Contents (Elt Ideal)) (a1 : (⟨S2x1x4096, .f32⟩ : BufTy).Contents (Elt Ideal)) (a3 : (⟨S16384x512, .f32⟩ : BufTy).Contents (Elt Ideal)) (a4 : (⟨S16384x4096, .f32⟩ : BufTy).Contents (Elt Ideal)) (a5 a6 : (⟨S16384, .f32⟩ : BufTy).Contents (Elt Ideal)) (J : Fin 4096) :
    val_main_v17 (F := Ideal) a0 a1 a3 a4 a5 a6 (ix2 0 J)
      = gate (fun k => a0 (ix1 k)) (layer a1 0) (byGate a3) (byGate a4) (biasByGate a5) (biasByGate a6) 3 J := by
  rw [← preact_eq, val_main_v17_apply]
  congr 1
  funext a
  match a with
  | ⟨0, _⟩ => rfl
  | ⟨1, _⟩ => exact Fin.ext (by show 12288 + J.val = 3 * 4096 + J.val; omega)

/-! ## σ spelled negate, exponential, one plus, one over -/

/-- A row filled with the word of one reads one everywhere. -/
theorem ones20 (i : S1x4096.Idx) : val_main_v20 (F := Ideal) i = 1 := by
  rw [val_main_v20_apply, val_main_cst_apply, Ideal.ofBits_def, one_word]
theorem ones22 (i : S1x4096.Idx) : val_main_v22 (F := Ideal) i = 1 := by
  rw [val_main_v22_apply, val_main_cst_0_apply, Ideal.ofBits_def, one_word]
theorem ones27 (i : S1x4096.Idx) : val_main_v27 (F := Ideal) i = 1 := by
  rw [val_main_v27_apply, val_main_cst_1_apply, Ideal.ofBits_def, one_word]
theorem ones29 (i : S1x4096.Idx) : val_main_v29 (F := Ideal) i = 1 := by
  rw [val_main_v29_apply, val_main_cst_2_apply, Ideal.ofBits_def, one_word]
theorem ones36 (i : S1x4096.Idx) : val_main_v36 (F := Ideal) i = 1 := by
  rw [val_main_v36_apply, val_main_cst_3_apply, Ideal.ofBits_def, one_word]
theorem ones38 (i : S1x4096.Idx) : val_main_v38 (F := Ideal) i = 1 := by
  rw [val_main_v38_apply, val_main_cst_4_apply, Ideal.ofBits_def, one_word]

/-- The forget gate's activation is σ of its pre-activation. -/
theorem sigma_forget (a0 : (⟨S512, .f32⟩ : BufTy).Contents (Elt Ideal)) (a1 : (⟨S2x1x4096, .f32⟩ : BufTy).Contents (Elt Ideal)) (a3 : (⟨S16384x512, .f32⟩ : BufTy).Contents (Elt Ideal)) (a4 : (⟨S16384x4096, .f32⟩ : BufTy).Contents (Elt Ideal)) (a5 a6 : (⟨S16384, .f32⟩ : BufTy).Contents (Elt Ideal)) (i : S1x4096.Idx) :
    val_main_v23 (F := Ideal) a0 a1 a3 a4 a5 a6 i = Ideal.logistic (val_main_v15 (F := Ideal) a0 a1 a3 a4 a5 a6 i) := by
  rw [val_main_v23_apply, val_main_v21_apply, val_main_v19_apply, val_main_v18_apply, ones20, ones22]
  rfl

/-- The input gate's activation is σ of its pre-activation. -/
theorem sigma_input (a0 : (⟨S512, .f32⟩ : BufTy).Contents (Elt Ideal)) (a1 : (⟨S2x1x4096, .f32⟩ : BufTy).Contents (Elt Ideal)) (a3 : (⟨S16384x512, .f32⟩ : BufTy).Contents (Elt Ideal)) (a4 : (⟨S16384x4096, .f32⟩ : BufTy).Contents (Elt Ideal)) (a5 a6 : (⟨S16384, .f32⟩ : BufTy).Contents (Elt Ideal)) (i : S1x4096.Idx) :
    val_main_v30 (F := Ideal) a0 a1 a3 a4 a5 a6 i = Ideal.logistic (val_main_v14 (F := Ideal) a0 a1 a3 a4 a5 a6 i) := by
  rw [val_main_v30_apply, val_main_v28_apply, val_main_v26_apply, val_main_v25_apply, ones27, ones29]
  rfl

/-- The output gate's activation is σ of its pre-activation. -/
theorem sigma_output (a0 : (⟨S512, .f32⟩ : BufTy).Contents (Elt Ideal)) (a1 : (⟨S2x1x4096, .f32⟩ : BufTy).Contents (Elt Ideal)) (a3 : (⟨S16384x512, .f32⟩ : BufTy).Contents (Elt Ideal)) (a4 : (⟨S16384x4096, .f32⟩ : BufTy).Contents (Elt Ideal)) (a5 a6 : (⟨S16384, .f32⟩ : BufTy).Contents (Elt Ideal)) (i : S1x4096.Idx) :
    val_main_v39 (F := Ideal) a0 a1 a3 a4 a5 a6 i = Ideal.logistic (val_main_v17 (F := Ideal) a0 a1 a3 a4 a5 a6 i) := by
  rw [val_main_v39_apply, val_main_v37_apply, val_main_v35_apply, val_main_v34_apply, ones36, ones38]
  rfl

/-! ## The previous cell state, the new cell state, the new hidden row -/

/-- Entry (0, J) of layer 0 of the cell states, as a row, is entry (0, 0, J) of the states. -/
theorem cell_row (a2 : (⟨S2x1x4096, .f32⟩ : BufTy).Contents (Elt Ideal)) (J : Fin 4096) :
    val_main_v4 (F := Ideal) a2 (ix2 0 J) = layer a2 0 J := by
  rw [val_main_v4_apply, val_main_v3_apply]
  unfold layer
  congr 1
  funext a
  match a with
  | ⟨0, _⟩ => rfl
  | ⟨1, _⟩ => rfl
  | ⟨2, _⟩ => exact Fin.ext (by show (0 * 4096 + J.val) % 4096 = J.val; omega)

/-- Entry (0, J) of the reference's new cell state is the cell's. -/
theorem cell1_eq (a0 : (⟨S512, .f32⟩ : BufTy).Contents (Elt Ideal)) (a1 a2 : (⟨S2x1x4096, .f32⟩ : BufTy).Contents (Elt Ideal)) (a3 : (⟨S16384x512, .f32⟩ : BufTy).Contents (Elt Ideal)) (a4 : (⟨S16384x4096, .f32⟩ : BufTy).Contents (Elt Ideal)) (a5 a6 : (⟨S16384, .f32⟩ : BufTy).Contents (Elt Ideal)) (J : Fin 4096) :
    val_main_v33 (F := Ideal) a0 a1 a2 a3 a4 a5 a6 (ix2 0 J)
      = cellNext (fun k => a0 (ix1 k)) (layer a1 0) (layer a2 0) (byGate a3) (byGate a4) (biasByGate a5) (biasByGate a6) J := by
  rw [val_main_v33_apply, val_main_v24_apply, val_main_v32_apply, val_main_v31_apply, sigma_forget, sigma_input,
    gate0_eq, gate1_eq, gate2_eq, cell_row]
  rfl

/-- The reference's first new hidden row (`main_v41`) is the first cell's new hidden state. -/
theorem hidden1_eq (a0 : (⟨S512, .f32⟩ : BufTy).Contents (Elt Ideal)) (a1 : (⟨S2x1x4096, .f32⟩ : BufTy).Contents (Elt Ideal)) (a2 : (⟨S2x1x4096, .f32⟩ : BufTy).Contents (Elt Ideal)) (a3 : (⟨S16384x512, .f32⟩ : BufTy).Contents (Elt Ideal)) (a4 : (⟨S16384x4096, .f32⟩ : BufTy).Contents (Elt Ideal)) (a5 : (⟨S16384, .f32⟩ : BufTy).Contents (Elt Ideal)) (a6 : (⟨S16384, .f32⟩ : BufTy).Contents (Elt Ideal)) :
    val_main_v41 (F := Ideal) a0 a1 a2 a3 a4 a5 a6 = fun i : S1x4096.Idx => hidden1 a0 a1 a2 a3 a4 a5 a6 (i 1) := by
  funext i
  obtain ⟨p, J, rfl⟩ : ∃ (p : Fin 1) (J : Fin 4096), i = ix2 p J := ⟨i 0, i 1, eq_ix2 i⟩
  obtain rfl : p = 0 := Subsingleton.elim _ _
  show val_main_v41 (F := Ideal) a0 a1 a2 a3 a4 a5 a6 (ix2 0 J) = hidden1 a0 a1 a2 a3 a4 a5 a6 J
  rw [val_main_v41_apply, val_main_v40_apply, sigma_output, gate3_eq, cell1_eq]
  rfl

end Cert.ReferenceIdeal.Cell1

end
-- ==== Proof.RefCell2.lean ====
/-
  The reference's second cell, read stage by stage.

  The same chain of operations as the first cell, with the first cell's new hidden row as the input row, layer 1 of
  the two stacked states, and the second cell's weights and biases.  Entry (0, g · 4096 + J) of the 16384-long row of
  pre-activations is the pre-activation of gate g at unit J: entry (k, g · 4096 + J) of a transposed matrix is entry
  (g · 4096 + J, k) of the matrix, and the four summands, taken left to right, regroup freely on the extended reals.
  The four slices at 0, 4096, 8192 and 12288 are the four gates, 1 / (1 + e⁻ˣ) is σ, and the products and the sum that
  follow are the cell's new cell state and new hidden state.
-/
import proofs.«165172_j23545010717534_1_alg».proof.Proof.RefCell1

set_option maxRecDepth 16384

noncomputable section

open scoped BigOperators

namespace Cert.ReferenceIdeal.Cell2

open Cert.ReferenceIdeal Cert.ReferenceIdeal.Gen Cert.ReferenceIdeal.Read Cert.Lstm Idealize.ShloMosaic Idealize.ShloMosaic.TcCoe Idealize.ShloMosaic.ValueIdx

/-- The word of the literal 1.0 denotes the extended real 1. -/
theorem one_word : Ideal.ofBits .f32 0x3F800000#32 = 1 := by
  simp [Ideal.ofBits, Ideal.ieee, -EReal.coe_mul]; norm_num

/-! ## Indices -/

/-- The contraction's left operand is read at (0, k). -/
theorem lidx47 (r : Fin 16384) (k : Fin 4096) : lidx_main_v47 (ix2 0 r) k = ix2 0 k :=
  funext fun a => by match a with | ⟨0, _⟩ => rfl | ⟨1, _⟩ => rfl

/-- Entry (k, r) of the transposed matrix is entry (r, k) of the matrix. -/
theorem ridx47 (r : Fin 16384) (k : Fin 4096) : idx_main_v46 (ridx_main_v47 (ix2 0 r) k) = ix2 r k :=
  funext fun a => by match a with | ⟨0, _⟩ => rfl | ⟨1, _⟩ => rfl

/-- The contraction's left operand is read at (0, k). -/
theorem lidx51 (r : Fin 16384) (k : Fin 4096) : lidx_main_v51 (ix2 0 r) k = ix2 0 k :=
  funext fun a => by match a with | ⟨0, _⟩ => rfl | ⟨1, _⟩ => rfl

/-- Entry (k, r) of the transposed matrix is entry (r, k) of the matrix. -/
theorem ridx51 (r : Fin 16384) (k : Fin 4096) : idx_main_v50 (ridx_main_v51 (ix2 0 r) k) = ix2 r k :=
  funext fun a => by match a with | ⟨0, _⟩ => rfl | ⟨1, _⟩ => rfl

/-- A bias broadcast to a row is read at the column. -/
theorem idx48 (r : Fin 16384) : idx_main_v48 (ix2 0 r) = ix1 r :=
  funext fun a => by match a with | ⟨0, _⟩ => rfl

/-- A bias broadcast to a row is read at the column. -/
theorem idx53 (r : Fin 16384) : idx_main_v53 (ix2 0 r) = ix1 r :=
  funext fun a => by match a with | ⟨0, _⟩ => rfl

/-- Entry (0, k) of layer 1 as a row is entry (1, 0, k) of the stacked states. -/
theorem idx43 (k : Fin 4096) : idx_main_v42 (idx_main_v43 (ix2 0 k)) = ix3 1 0 k :=
  funext fun a => Fin.ext (by
    match a with
    | ⟨0, _⟩ => rfl
    | ⟨1, _⟩ => rfl
    | ⟨2, _⟩ => show (0 * 4096 + k.val) % 4096 = k.val; omega)

/-- Entry (0, k) of layer 1 as a row is entry (1, 0, k) of the stacked states. -/
theorem idx45 (k : Fin 4096) : idx_main_v44 (idx_main_v45 (ix2 0 k)) = ix3 1 0 k :=
  funext fun a => Fin.ext (by
    match a with
    | ⟨0, _⟩ => rfl
    | ⟨1, _⟩ => rfl
    | ⟨2, _⟩ => show (0 * 4096 + k.val) % 4096 = k.val; omega)

/-- The slice at 0 is gate 0. -/
theorem idx55 (J : Fin 4096) : idx_main_v55 (ix2 0 J) = ix2 0 (row 0 J) :=
  funext fun a => Fin.ext (by
    match a with
    | ⟨0, _⟩ => rfl
    | ⟨1, _⟩ => show J.val = 0 * 4096 + J.val; omega)

/-- The slice at 4096 is gate 1. -/
theorem idx56 (J : Fin 4096) : idx_main_v56 (ix2 0 J) = ix2 0 (row 1 J) :=
  funext fun a => Fin.ext (by
    match a with
    | ⟨0, _⟩ => rfl
    | ⟨1, _⟩ => show 4096 + J.val = 1 * 4096 + J.val; omega)

/-- The slice at 8192 is gate 2. -/
theorem idx57 (J : Fin 4096) : idx_main_v57 (ix2 0 J) = ix2 0 (row 2 J) :=
  funext fun a => Fin.ext (by
    match a with
    | ⟨0, _⟩ => rfl
    | ⟨1, _⟩ => show 8192 + J.val = 2 * 4096 + J.val; omega)

/-- The slice at 12288 is gate 3. -/
theorem idx58 (J : Fin 4096) : idx_main_v58 (ix2 0 J) = ix2 0 (row 3 J) :=
  funext fun a => Fin.ext (by
    match a with
    | ⟨0, _⟩ => rfl
    | ⟨1, _⟩ => show 12288 + J.val = 3 * 4096 + J.val; omega)

/-! ## The two state rows -/

/-- The previous hidden row is layer 1 of the first stacked state. -/
theorem prevHidden (a1 : (⟨S2x1x4096, .f32⟩ : BufTy).Contents (Elt Ideal)) (k : Fin 4096) :
    val_main_v43 (F := Ideal) a1 (ix2 0 k) = layer a1 1 k := by
  rw [val_main_v43_apply, val_main_v42_apply, idx43]; rfl

/-- The previous cell row is layer 1 of the second stacked state. -/
theorem prevCell (a2 : (⟨S2x1x4096, .f32⟩ : BufTy).Contents (Elt Ideal)) (k : Fin 4096) :
    val_main_v45 (F := Ideal) a2 (ix2 0 k) = layer a2 1 k := by
  rw [val_main_v45_apply, val_main_v44_apply, idx45]; rfl

/-! ## The four gates -/

/-- Entry (0, g · 4096 + J) of the row of pre-activations is the pre-activation of gate g at unit J. -/
theorem gates_eq (a0 : (⟨S512, .f32⟩ : BufTy).Contents (Elt Ideal)) (a1 : (⟨S2x1x4096, .f32⟩ : BufTy).Contents (Elt Ideal)) (a2 : (⟨S2x1x4096, .f32⟩ : BufTy).Contents (Elt Ideal)) (a3 : (⟨S16384x512, .f32⟩ : BufTy).Contents (Elt Ideal)) (a4 : (⟨S16384x4096, .f32⟩ : BufTy).Contents (Elt Ideal)) (a5 : (⟨S16384, .f32⟩ : BufTy).Contents (Elt Ideal)) (a6 : (⟨S16384, .f32⟩ : BufTy).Contents (Elt Ideal)) (a7 : (⟨S16384x4096, .f32⟩ : BufTy).Contents (Elt Ideal)) (a8 : (⟨S16384x4096, .f32⟩ : BufTy).Contents (Elt Ideal)) (a9 : (⟨S16384, .f32⟩ : BufTy).Contents (Elt Ideal)) (a10 : (⟨S16384, .f32⟩ : BufTy).Contents (Elt Ideal)) (g : Fin 4) (J : Fin 4096) :
    val_main_v54 (F := Ideal) a0 a1 a2 a3 a4 a5 a6 a7 a8 a9 a10 (ix2 0 (row g J))
      = gate (hidden1 a0 a1 a2 a3 a4 a5 a6) (layer a1 1) (byGate a7) (byGate a8) (biasByGate a9) (biasByGate a10) g J := by
  rw [val_main_v54_apply, val_main_v52_apply, val_main_v49_apply, val_main_v47_apply, val_main_v51_apply,
    val_main_v48_apply, val_main_v53_apply, idx48, idx53]
  have e1 : ∀ k : Fin 4096,
      val_main_v41 (F := Ideal) a0 a1 a2 a3 a4 a5 a6 (lidx_main_v47 (ix2 0 (row g J)) k)
          * val_main_v46 (F := Ideal) a7 (ridx_main_v47 (ix2 0 (row g J)) k)
        = hidden1 a0 a1 a2 a3 a4 a5 a6 k * byGate a7 g J k := fun k => by
    rw [Cell1.hidden1_eq, val_main_v46_apply, lidx47, ridx47]; rfl
  have e2 : ∀ k : Fin 4096,
      val_main_v43 (F := Ideal) a1 (lidx_main_v51 (ix2 0 (row g J)) k)
          * val_main_v50 (F := Ideal) a8 (ridx_main_v51 (ix2 0 (row g J)) k)
        = layer a1 1 k * byGate a8 g J k := fun k => by
    rw [val_main_v50_apply, lidx51, ridx51, prevHidden]; rfl
  simp only [e1, e2, Ideal.addf_def]
  exact gate_eq_leftToRight (hidden1 a0 a1 a2 a3 a4 a5 a6) (layer a1 1) (byGate a7) (byGate a8) (biasByGate a9) (biasByGate a10) g J

/-! ## σ, spelled 1 / (1 + e⁻ˣ) -/

section Cell
variable (a0 : (⟨S512, .f32⟩ : BufTy).Contents (Elt Ideal)) (a1 : (⟨S2x1x4096, .f32⟩ : BufTy).Contents (Elt Ideal)) (a2 : (⟨S2x1x4096, .f32⟩ : BufTy).Contents (Elt Ideal)) (a3 : (⟨S16384x512, .f32⟩ : BufTy).Contents (Elt Ideal)) (a4 : (⟨S16384x4096, .f32⟩ : BufTy).Contents (Elt Ideal)) (a5 : (⟨S16384, .f32⟩ : BufTy).Contents (Elt Ideal)) (a6 : (⟨S16384, .f32⟩ : BufTy).Contents (Elt Ideal)) (a7 : (⟨S16384x4096, .f32⟩ : BufTy).Contents (Elt Ideal)) (a8 : (⟨S16384x4096, .f32⟩ : BufTy).Contents (Elt Ideal)) (a9 : (⟨S16384, .f32⟩ : BufTy).Contents (Elt Ideal)) (a10 : (⟨S16384, .f32⟩ : BufTy).Contents (Elt Ideal)) (J : Fin 4096)

/-- The forget gate's σ. -/
theorem sigma1 (i : S1x4096.Idx) : val_main_v64 (F := Ideal) a0 a1 a2 a3 a4 a5 a6 a7 a8 a9 a10 i = Ideal.logistic (val_main_v56 (F := Ideal) a0 a1 a2 a3 a4 a5 a6 a7 a8 a9 a10 i) := by
  rw [val_main_v64_apply, val_main_v63_apply, val_main_cst_6_apply, val_main_v62_apply, val_main_v61_apply,
    val_main_cst_5_apply, val_main_v60_apply, val_main_v59_apply]
  simp only [Ideal.hostDivf_def, Ideal.addf_def, Ideal.hostUnary_exp_def, Ideal.hostNegf_def, Ideal.negf_def,
    Ideal.ofBits_def, one_word]
  exact logistic_spelled _

/-- The input gate's σ. -/
theorem sigma0 (i : S1x4096.Idx) : val_main_v71 (F := Ideal) a0 a1 a2 a3 a4 a5 a6 a7 a8 a9 a10 i = Ideal.logistic (val_main_v55 (F := Ideal) a0 a1 a2 a3 a4 a5 a6 a7 a8 a9 a10 i) := by
  rw [val_main_v71_apply, val_main_v70_apply, val_main_cst_8_apply, val_main_v69_apply, val_main_v68_apply,
    val_main_cst_7_apply, val_main_v67_apply, val_main_v66_apply]
  simp only [Ideal.hostDivf_def, Ideal.addf_def, Ideal.hostUnary_exp_def, Ideal.hostNegf_def, Ideal.negf_def,
    Ideal.ofBits_def, one_word]
  exact logistic_spelled _

/-- The output gate's σ. -/
theorem sigma3 (i : S1x4096.Idx) : val_main_v80 (F := Ideal) a0 a1 a2 a3 a4 a5 a6 a7 a8 a9 a10 i = Ideal.logistic (val_main_v58 (F := Ideal) a0 a1 a2 a3 a4 a5 a6 a7 a8 a9 a10 i) := by
  rw [val_main_v80_apply, val_main_v79_apply, val_main_cst_10_apply, val_main_v78_apply, val_main_v77_apply,
    val_main_cst_9_apply, val_main_v76_apply, val_main_v75_apply]
  simp only [Ideal.hostDivf_def, Ideal.addf_def, Ideal.hostUnary_exp_def, Ideal.hostNegf_def, Ideal.negf_def,
    Ideal.ofBits_def, one_word]
  exact logistic_spelled _

/-! ## The four slices -/

/-- The slice at 0 is the input gate. -/
theorem slice0 : val_main_v55 (F := Ideal) a0 a1 a2 a3 a4 a5 a6 a7 a8 a9 a10 (ix2 0 J)
    = gate (hidden1 a0 a1 a2 a3 a4 a5 a6) (layer a1 1) (byGate a7) (byGate a8) (biasByGate a9) (biasByGate a10) 0 J := by
  rw [val_main_v55_apply, idx55, gates_eq]

/-- The slice at 4096 is the forget gate. -/
theorem slice1 : val_main_v56 (F := Ideal) a0 a1 a2 a3 a4 a5 a6 a7 a8 a9 a10 (ix2 0 J)
    = gate (hidden1 a0 a1 a2 a3 a4 a5 a6) (layer a1 1) (byGate a7) (byGate a8) (biasByGate a9) (biasByGate a10) 1 J := by
  rw [val_main_v56_apply, idx56, gates_eq]

/-- The slice at 8192 is the candidate. -/
theorem slice2 : val_main_v57 (F := Ideal) a0 a1 a2 a3 a4 a5 a6 a7 a8 a9 a10 (ix2 0 J)
    = gate (hidden1 a0 a1 a2 a3 a4 a5 a6) (layer a1 1) (byGate a7) (byGate a8) (biasByGate a9) (biasByGate a10) 2 J := by
  rw [val_main_v57_apply, idx57, gates_eq]

/-- The slice at 12288 is the output gate. -/
theorem slice3 : val_main_v58 (F := Ideal) a0 a1 a2 a3 a4 a5 a6 a7 a8 a9 a10 (ix2 0 J)
    = gate (hidden1 a0 a1 a2 a3 a4 a5 a6) (layer a1 1) (byGate a7) (byGate a8) (biasByGate a9) (biasByGate a10) 3 J := by
  rw [val_main_v58_apply, idx58, gates_eq]

/-! ## The new cell state and the new hidden state -/

/-- Entry (0, J) of the new cell row is the second cell's new cell state at unit J. -/
theorem cell2_eq : val_main_v74 (F := Ideal) a0 a1 a2 a3 a4 a5 a6 a7 a8 a9 a10 (ix2 0 J)
    = cellNext (hidden1 a0 a1 a2 a3 a4 a5 a6) (layer a1 1) (layer a2 1) (byGate a7) (byGate a8) (biasByGate a9) (biasByGate a10) J := by
  rw [val_main_v74_apply, val_main_v65_apply, val_main_v73_apply, val_main_v72_apply, sigma1, sigma0, slice0, slice1,
    slice2, prevCell]
  rfl

end Cell

/-- The reference's second new hidden row (`main_v82`) is the second cell's new hidden state. -/
theorem hidden2_eq (a0 : (⟨S512, .f32⟩ : BufTy).Contents (Elt Ideal)) (a1 : (⟨S2x1x4096, .f32⟩ : BufTy).Contents (Elt Ideal)) (a2 : (⟨S2x1x4096, .f32⟩ : BufTy).Contents (Elt Ideal)) (a3 : (⟨S16384x512, .f32⟩ : BufTy).Contents (Elt Ideal)) (a4 : (⟨S16384x4096, .f32⟩ : BufTy).Contents (Elt Ideal)) (a5 : (⟨S16384, .f32⟩ : BufTy).Contents (Elt Ideal)) (a6 : (⟨S16384, .f32⟩ : BufTy).Contents (Elt Ideal)) (a7 : (⟨S16384x4096, .f32⟩ : BufTy).Contents (Elt Ideal)) (a8 : (⟨S16384x4096, .f32⟩ : BufTy).Contents (Elt Ideal)) (a9 : (⟨S16384, .f32⟩ : BufTy).Contents (Elt Ideal)) (a10 : (⟨S16384, .f32⟩ : BufTy).Contents (Elt Ideal)) :
    val_main_v82 (F := Ideal) a0 a1 a2 a3 a4 a5 a6 a7 a8 a9 a10 = fun i : S1x4096.Idx => hidden2 a0 a1 a2 a3 a4 a5 a6 a7 a8 a9 a10 (i 1) := by
  funext i
  obtain ⟨p, q, rfl⟩ : ∃ (p : Fin 1) (q : Fin 4096), i = ix2 p q := ⟨i 0, i 1, eq_ix2 i⟩
  obtain rfl : p = 0 := Subsingleton.elim _ _
  rw [val_main_v82_apply, val_main_v81_apply, sigma3, slice3, cell2_eq]
  rfl

end Cert.ReferenceIdeal.Cell2

end
-- ==== Proof.RefOutputs.lean ====
/-
  The reference's two results.

  Each is the second hidden row contracted with a transposed 1 × 4096 weight row plus a one-entry bias; the first
  result passes that through σ spelled as 1 / (1 + e⁻ˣ), which is the one function `Ideal.logistic`.
-/
import proofs.«165172_j23545010717534_1_alg».proof.Proof.RefCell2

set_option maxRecDepth 16384

noncomputable section

open scoped BigOperators

namespace Cert.ReferenceIdeal.Outputs

open Cert.ReferenceIdeal Cert.ReferenceIdeal.Gen Cert.ReferenceIdeal.Read Cert.Lstm Idealize.ShloMosaic Idealize.ShloMosaic.TcCoe Idealize.ShloMosaic.ValueIdx

/-- The 32-bit word 0x3F800000 is the number one. -/
theorem one_bits : Ideal.ofBits .f32 0x3F800000#32 = 1 := by
  simp [Ideal.ofBits, Ideal.ieee, -EReal.coe_mul]; norm_num

/-! ## Index equations

  The contraction reads the hidden row at column `k` and the transposed weight at row `k`, column `i 1`; transposing
  back, that is the weight row's entry `(i 1, k)`, and a 1 × 4096 array has only row 0.  The bias has one entry. -/

/-- Through the transpose, the weight row is read at `(0, k)` (linear result). -/
theorem widx84 (i : S1x1.Idx) (k : Fin 4096) : idx_main_v83 (ridx_main_v84 i k) = ix2 0 k :=
  funext fun a => Fin.ext (by
    match a with
    | ⟨0, _⟩ => have h : (i 1).val < 1 := (i 1).isLt; show (i 1).val = 0; omega
    | ⟨1, _⟩ => rfl)

/-- Through the transpose, the weight row is read at `(0, k)` (squashed result). -/
theorem widx88 (i : S1x1.Idx) (k : Fin 4096) : idx_main_v87 (ridx_main_v88 i k) = ix2 0 k :=
  funext fun a => Fin.ext (by
    match a with
    | ⟨0, _⟩ => have h : (i 1).val < 1 := (i 1).isLt; show (i 1).val = 0; omega
    | ⟨1, _⟩ => rfl)

/-- The one-entry bias is read at its entry 0 (linear result). -/
theorem bidx85 (i : S1x1.Idx) : idx_main_v85 i = ix1 0 :=
  funext fun a => by match a with | ⟨0, _⟩ => rfl

/-- The one-entry bias is read at its entry 0 (squashed result). -/
theorem bidx89 (i : S1x1.Idx) : idx_main_v89 i = ix1 0 :=
  funext fun a => by match a with | ⟨0, _⟩ => rfl

/-! ## The two affine read-outs at an index -/

/-- The linear result's one entry: the contraction of the second hidden row with the weight row, plus the bias. -/
theorem linear_apply (a0 : (⟨S512, .f32⟩ : BufTy).Contents (Elt Ideal)) (a1 : (⟨S2x1x4096, .f32⟩ : BufTy).Contents (Elt Ideal)) (a2 : (⟨S2x1x4096, .f32⟩ : BufTy).Contents (Elt Ideal)) (a3 : (⟨S16384x512, .f32⟩ : BufTy).Contents (Elt Ideal)) (a4 : (⟨S16384x4096, .f32⟩ : BufTy).Contents (Elt Ideal)) (a5 : (⟨S16384, .f32⟩ : BufTy).Contents (Elt Ideal)) (a6 : (⟨S16384, .f32⟩ : BufTy).Contents (Elt Ideal)) (a7 : (⟨S16384x4096, .f32⟩ : BufTy).Contents (Elt Ideal)) (a8 : (⟨S16384x4096, .f32⟩ : BufTy).Contents (Elt Ideal)) (a9 : (⟨S16384, .f32⟩ : BufTy).Contents (Elt Ideal)) (a10 : (⟨S16384, .f32⟩ : BufTy).Contents (Elt Ideal)) (a11 : (⟨S1x4096, .f32⟩ : BufTy).Contents (Elt Ideal)) (a12 : (⟨S1, .f32⟩ : BufTy).Contents (Elt Ideal)) (i : S1x1.Idx) :
    val_main_v86 (F := Ideal) a0 a1 a2 a3 a4 a5 a6 a7 a8 a9 a10 a11 a12 i = linearOut a0 a1 a2 a3 a4 a5 a6 a7 a8 a9 a10 a11 a12 := by
  rw [val_main_v86_apply, val_main_v84_apply, val_main_v85_apply, Cell2.hidden2_eq]
  simp only [val_main_v83_apply, widx84, bidx85, Ideal.addf_def]
  rfl

/-- The squashed result's argument: the same read-out with the other weight row and bias. -/
theorem pre_apply (a0 : (⟨S512, .f32⟩ : BufTy).Contents (Elt Ideal)) (a1 : (⟨S2x1x4096, .f32⟩ : BufTy).Contents (Elt Ideal)) (a2 : (⟨S2x1x4096, .f32⟩ : BufTy).Contents (Elt Ideal)) (a3 : (⟨S16384x512, .f32⟩ : BufTy).Contents (Elt Ideal)) (a4 : (⟨S16384x4096, .f32⟩ : BufTy).Contents (Elt Ideal)) (a5 : (⟨S16384, .f32⟩ : BufTy).Contents (Elt Ideal)) (a6 : (⟨S16384, .f32⟩ : BufTy).Contents (Elt Ideal)) (a7 : (⟨S16384x4096, .f32⟩ : BufTy).Contents (Elt Ideal)) (a8 : (⟨S16384x4096, .f32⟩ : BufTy).Contents (Elt Ideal)) (a9 : (⟨S16384, .f32⟩ : BufTy).Contents (Elt Ideal)) (a10 : (⟨S16384, .f32⟩ : BufTy).Contents (Elt Ideal)) (a13 : (⟨S1x4096, .f32⟩ : BufTy).Contents (Elt Ideal)) (a14 : (⟨S1, .f32⟩ : BufTy).Contents (Elt Ideal)) (i : S1x1.Idx) :
    val_main_v90 (F := Ideal) a0 a1 a2 a3 a4 a5 a6 a7 a8 a9 a10 a13 a14 i
      = readout (hidden2 a0 a1 a2 a3 a4 a5 a6 a7 a8 a9 a10) (fun k => a13 (ix2 0 k)) (a14 (ix1 0)) := by
  rw [val_main_v90_apply, val_main_v88_apply, val_main_v89_apply, Cell2.hidden2_eq]
  simp only [val_main_v87_apply, widx88, bidx89, Ideal.addf_def]
  rfl

/-! ## σ spelled out -/

/-- The squashed result's one entry: 1 / (1 + e⁻ˣ) at the read-out x, which is `Ideal.logistic`. -/
theorem squashed_apply (a0 : (⟨S512, .f32⟩ : BufTy).Contents (Elt Ideal)) (a1 : (⟨S2x1x4096, .f32⟩ : BufTy).Contents (Elt Ideal)) (a2 : (⟨S2x1x4096, .f32⟩ : BufTy).Contents (Elt Ideal)) (a3 : (⟨S16384x512, .f32⟩ : BufTy).Contents (Elt Ideal)) (a4 : (⟨S16384x4096, .f32⟩ : BufTy).Contents (Elt Ideal)) (a5 : (⟨S16384, .f32⟩ : BufTy).Contents (Elt Ideal)) (a6 : (⟨S16384, .f32⟩ : BufTy).Contents (Elt Ideal)) (a7 : (⟨S16384x4096, .f32⟩ : BufTy).Contents (Elt Ideal)) (a8 : (⟨S16384x4096, .f32⟩ : BufTy).Contents (Elt Ideal)) (a9 : (⟨S16384, .f32⟩ : BufTy).Contents (Elt Ideal)) (a10 : (⟨S16384, .f32⟩ : BufTy).Contents (Elt Ideal)) (a13 : (⟨S1x4096, .f32⟩ : BufTy).Contents (Elt Ideal)) (a14 : (⟨S1, .f32⟩ : BufTy).Contents (Elt Ideal)) (i : S1x1.Idx) :
    val_main_v96 (F := Ideal) a0 a1 a2 a3 a4 a5 a6 a7 a8 a9 a10 a13 a14 i = squashedOut a0 a1 a2 a3 a4 a5 a6 a7 a8 a9 a10 a13 a14 := by
  rw [val_main_v96_apply, val_main_v95_apply, val_main_cst_12_apply, val_main_v94_apply, val_main_v93_apply,
    val_main_cst_11_apply, val_main_v92_apply, val_main_v91_apply, pre_apply]
  simp only [Ideal.hostDivf_def, Ideal.addf_def, Ideal.hostUnary_exp_def, Ideal.hostNegf_def, Ideal.negf_def,
    Ideal.ofBits_def, one_bits]
  exact logistic_spelled _

/-- The linear result (`main_v86`, the second value returned). -/
theorem linear_eq (a0 : (⟨S512, .f32⟩ : BufTy).Contents (Elt Ideal)) (a1 : (⟨S2x1x4096, .f32⟩ : BufTy).Contents (Elt Ideal)) (a2 : (⟨S2x1x4096, .f32⟩ : BufTy).Contents (Elt Ideal)) (a3 : (⟨S16384x512, .f32⟩ : BufTy).Contents (Elt Ideal)) (a4 : (⟨S16384x4096, .f32⟩ : BufTy).Contents (Elt Ideal)) (a5 : (⟨S16384, .f32⟩ : BufTy).Contents (Elt Ideal)) (a6 : (⟨S16384, .f32⟩ : BufTy).Contents (Elt Ideal)) (a7 : (⟨S16384x4096, .f32⟩ : BufTy).Contents (Elt Ideal)) (a8 : (⟨S16384x4096, .f32⟩ : BufTy).Contents (Elt Ideal)) (a9 : (⟨S16384, .f32⟩ : BufTy).Contents (Elt Ideal)) (a10 : (⟨S16384, .f32⟩ : BufTy).Contents (Elt Ideal)) (a11 : (⟨S1x4096, .f32⟩ : BufTy).Contents (Elt Ideal)) (a12 : (⟨S1, .f32⟩ : BufTy).Contents (Elt Ideal)) :
    val_main_v86 (F := Ideal) a0 a1 a2 a3 a4 a5 a6 a7 a8 a9 a10 a11 a12 = fun _ => linearOut a0 a1 a2 a3 a4 a5 a6 a7 a8 a9 a10 a11 a12 := by
  funext i
  exact linear_apply a0 a1 a2 a3 a4 a5 a6 a7 a8 a9 a10 a11 a12 i

/-- The squashed result (`main_v96`, the first value returned). -/
theorem squashed_eq (a0 : (⟨S512, .f32⟩ : BufTy).Contents (Elt Ideal)) (a1 : (⟨S2x1x4096, .f32⟩ : BufTy).Contents (Elt Ideal)) (a2 : (⟨S2x1x4096, .f32⟩ : BufTy).Contents (Elt Ideal)) (a3 : (⟨S16384x512, .f32⟩ : BufTy).Contents (Elt Ideal)) (a4 : (⟨S16384x4096, .f32⟩ : BufTy).Contents (Elt Ideal)) (a5 : (⟨S16384, .f32⟩ : BufTy).Contents (Elt Ideal)) (a6 : (⟨S16384, .f32⟩ : BufTy).Contents (Elt Ideal)) (a7 : (⟨S16384x4096, .f32⟩ : BufTy).Contents (Elt Ideal)) (a8 : (⟨S16384x4096, .f32⟩ : BufTy).Contents (Elt Ideal)) (a9 : (⟨S16384, .f32⟩ : BufTy).Contents (Elt Ideal)) (a10 : (⟨S16384, .f32⟩ : BufTy).Contents (Elt Ideal)) (a13 : (⟨S1x4096, .f32⟩ : BufTy).Contents (Elt Ideal)) (a14 : (⟨S1, .f32⟩ : BufTy).Contents (Elt Ideal)) :
    val_main_v96 (F := Ideal) a0 a1 a2 a3 a4 a5 a6 a7 a8 a9 a10 a13 a14 = fun _ => squashedOut a0 a1 a2 a3 a4 a5 a6 a7 a8 a9 a10 a13 a14 := by
  funext i
  exact squashed_apply a0 a1 a2 a3 a4 a5 a6 a7 a8 a9 a10 a13 a14 i

end Cert.ReferenceIdeal.Outputs

end
-- ==== Proof.lean ====
/-
  Two stacked long short-term memory cells, one step, and two read-outs of the second hidden state: a kernel program
  (each cell one gridded kernel over 32 blocks of 128 hidden units, the read-outs on the host) against a reference
  written with whole-matrix products.

  At the exact instance both programs compute, for each cell, the gate pre-activations
  ∑ₖ x k · wih r k + ∑ₖ h k · whh r k + bih r + bhh r over the 16384 = 4 · 4096 rows, the new cell state
  σ(forget) · c + σ(input) · tanh(candidate) and the new hidden state σ(output) · tanh(new cell state); the kernel
  adds the two products first and the two biases together, the reference adds left to right, and on the extended
  reals the two groupings are one number.  The kernel's σ is one operation and the reference's is spelled
  1 / (1 + e⁻ˣ): the same function.  A product in a narrower float format is, at the exact instance, the product.
  No finiteness of the inputs is used: the precondition is never opened.

  The kernel program's run is the launch over its five segments (host, region, host, region, host) with the two
  result buffers kept; its value is read back through the segments to the launch arrays.  The reference's run and
  its stage-by-stage reading are the generated ones.  The ideal pass rewrote nothing, so the preservation claim is
  trivial.
-/
import proofs.«165172_j23545010717534_1_alg».proof.Defs
import proofs.«165172_j23545010717534_1_alg».proof.Proof.Gen.Kernel
import proofs.«165172_j23545010717534_1_alg».proof.Proof.Gen.Kernel.Skeleton
import proofs.«165172_j23545010717534_1_alg».proof.Proof.Gen.Kernel.Launch
import proofs.«165172_j23545010717534_1_alg».proof.Proof.Gen.Kernel.Points
import proofs.«165172_j23545010717534_1_alg».proof.Proof.Gen.Kernel.Frame
import proofs.«165172_j23545010717534_1_alg».proof.Proof.Gen.KernelIdeal
import proofs.«165172_j23545010717534_1_alg».proof.Proof.Gen.KernelIdeal.Skeleton
import proofs.«165172_j23545010717534_1_alg».proof.Proof.Gen.KernelIdeal.Launch
import proofs.«165172_j23545010717534_1_alg».proof.Proof.Gen.KernelIdeal.Points
import proofs.«165172_j23545010717534_1_alg».proof.Proof.Gen.KernelIdeal.Frame
import proofs.«165172_j23545010717534_1_alg».proof.Proof.Gen.ReferenceIdeal
import proofs.«165172_j23545010717534_1_alg».proof.Proof.Gen.ReferenceIdeal.Run
import proofs.«165172_j23545010717534_1_alg».proof.Proof.Gen.ReferenceIdeal.Read
import proofs.«165172_j23545010717534_1_alg».proof.Proof.Gen.Pre_finite_inputs
import proofs.«165172_j23545010717534_1_alg».proof.Proof.KernelValue
import proofs.«165172_j23545010717534_1_alg».proof.Proof.RefOutputs
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs and keeps its arguments: the generated frame over its five segments. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the two results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- The idealized kernel program's run with its two results named: the squashed and the linear read-out of the
    stacked network of the launch arrays (the launch over the five segments, each result read back through them). -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v32) = (fun _ => Cert.Lstm.squashedOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)))
      ∧ r.2.mem ((c.tc : Thread Cert.KernelIdeal.nD Cert.KernelIdeal.τ).loc Cert.KernelIdeal.main_v22) = (fun _ => Cert.Lstm.linearOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)) :=
  (θ_run Cert.KernelIdeal.defs _ _).mono
    (fun r h c => ⟨(h c).1.trans (Cert.KernelIdeal.Val.squashed_eq m ρ c), (h c).2.1.trans (Cert.KernelIdeal.Val.linear_eq m ρ c), (h c).2.2⟩)
    (Cert.KernelIdeal.GenP.run_results (F := Ideal) m ρ)

/-- The reference's first result is the squashed read-out of the stacked network of ITS launch arrays. -/
theorem reference_squashed (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v96 (F := Ideal) m' c = fun _ => Cert.Lstm.squashedOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) :=
  (Cert.ReferenceIdeal.Read.val_main_v96_eq m' c).trans (Cert.ReferenceIdeal.Outputs.squashed_eq _ _ _ _ _ _ _ _ _ _ _ _ _)

/-- Its second result is the linear read-out. -/
theorem reference_linear (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v86 (F := Ideal) m' c = fun _ => Cert.Lstm.linearOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) :=
  (Cert.ReferenceIdeal.Read.val_main_v86_eq m' c).trans (Cert.ReferenceIdeal.Outputs.linear_eq _ _ _ _ _ _ _ _ _ _ _ _ _)

/-- Both idealized programs end with the squashed and the linear read-out of the stacked network of their
    arguments; the arguments agree, so the results do. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, kernel_run m ρ, ?_⟩
  refine (θ_run Cert.ReferenceIdeal.defs _ _).mono (fun r h c => ?_) (Cert.ReferenceIdeal.Value.run (F := Ideal) m' ρ')
  obtain ⟨h96, h86, hargs⟩ := h c
  obtain ⟨e0, e1, e2, e3, e4, e5, e6, e7, e8, e9, e10, e11, e12, e13, e14⟩ := hagree c
  refine ⟨h96.trans ((reference_squashed m' c).trans ?_), h86.trans ((reference_linear m' c).trans ?_), hargs⟩
  · rw [e0, e1, e2, e3, e4, e5, e6, e7, e8, e9, e10, e13, e14]
    rfl
  · rw [e0, e1, e2, e3, e4, e5, e6, e7, e8, e9, e10, e11, e12]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
